-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x10 .f32) (main_arg13 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg12
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128x10 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S1x10 : Shape := ⟨2, ![1, 10]⟩
abbrev S128x1 : Shape := ⟨2, ![128, 1]⟩

abbrev nBuf : Space → Nat
  | .hbm => 81
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x10, .f32⟩
  | .hbm, ⟨13, _⟩ => ⟨S10, .f32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S128, .i32⟩
  | .hbm, ⟨69, _⟩ => ⟨S50000x1, .i32⟩
  | .hbm, ⟨70, _⟩ => ⟨S1x128, .i32⟩
  | .hbm, ⟨71, _⟩ => ⟨S50000x128, .i32⟩
  | .hbm, ⟨72, _⟩ => ⟨S50000x128, .i32⟩
  | .hbm, ⟨73, _⟩ => ⟨S50000x128, .i1⟩
  | .hbm, ⟨74, _⟩ => ⟨S50000x128, .f32⟩
  | .hbm, ⟨75, _⟩ => ⟨S128x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x10, .f32⟩
  | .hbm, ⟨80, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x10, .f32⟩
  | .local _ .vmem, ⟨39, _⟩ => ⟨S1x10, .f32⟩
  | .local _ .vmem, ⟨40, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg7_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem6_0 : DmaSem sig := 39
abbrev cc5_sem7_0 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x10 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x10 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  shapeCasts_S128x128_S128x128 : S128x128.ShapeCasts S128x128
  shapeCasts_S10_S1x10 : S10.ShapeCasts S1x10
  reduces_S128x128_S128 : S128x128.Reduces [0] S128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S2000x128_S128x128_0_0_1_1_n_n_wf : DotDims.WF S2000x128 S2000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S128x128.size a
  hwx5_0 : ∀ i : grid5.Coords, EltTy.bits .f32 = 32 ∨ (Rect.block (s := S128x128) S128x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x10.size a ≤ S128x10.size a
  hwx5_5 : ∀ i : grid5.Coords, EltTy.bits .f32 = 32 ∨ (Rect.block (s := S128x10) S128x10.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x10.size a ≤ S1x10.size a
  hwx5_6 : ∀ i : grid5.Coords, EltTy.bits .f32 = 32 ∨ (Rect.block (s := S1x10) S1x10.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x10.size a ≤ S128x10.size a
  hwx5_7 : ∀ i : grid5.Coords, EltTy.bits .f32 = 32 ∨ (Rect.block (s := S128x10) S128x10.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S128x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v47) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg12) S128x10.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S1x10.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v51) S128x10.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x10 : Shape := ⟨2, ![1, 10]⟩
abbrev S128x1 : Shape := ⟨2, ![128, 1]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128x10, .f32⟩
  | 13 => ⟨S10, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S128x128, .f32⟩
  | 88 => ⟨S50000x1, .i32⟩
  | 89 => ⟨S128x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S128x128, .f32⟩
  | 97 => ⟨S128x128, .f32⟩
  | 98 => ⟨S128x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S128x128, .f32⟩
  | 106 => ⟨S128x128, .f32⟩
  | 107 => ⟨S1x128, .f32⟩
  | 108 => ⟨S128x128, .f32⟩
  | 109 => ⟨S128x128, .f32⟩
  | 110 => ⟨S_, .f32⟩
  | 111 => ⟨S128, .f32⟩
  | 112 => ⟨S128, .f32⟩
  | 113 => ⟨S128, .f32⟩
  | 114 => ⟨S1x128, .f32⟩
  | 115 => ⟨S128x128, .f32⟩
  | 116 => ⟨S128x128, .f32⟩
  | 117 => ⟨S1x128, .f32⟩
  | 118 => ⟨S128x128, .f32⟩
  | 119 => ⟨S128x128, .f32⟩
  | 120 => ⟨S128x128, .f32⟩
  | 121 => ⟨S1x128, .f32⟩
  | 122 => ⟨S128x128, .f32⟩
  | 123 => ⟨S128x128, .f32⟩
  | 124 => ⟨S_, .f32⟩
  | 125 => ⟨S128x128, .f32⟩
  | 126 => ⟨S128x128, .f32⟩
  | 127 => ⟨S128x10, .f32⟩
  | _ => ⟨S50000x128, .f32⟩

abbrev hbmTy0_1 (i : Nat) : BufTy := match i % 128 with
  | 0 => ⟨S1x10, .f32⟩
  | 1 => ⟨S128x10, .f32⟩
  | 2 => ⟨S128x10, .f32⟩
  | 3 => ⟨S_, .f32⟩
  | 4 => ⟨S128, .f32⟩
  | 5 => ⟨S_, .f32⟩
  | 6 => ⟨S128, .f32⟩
  | 7 => ⟨S128, .f32⟩
  | 8 => ⟨S128x1, .f32⟩
  | 9 => ⟨S128x10, .f32⟩
  | 10 => ⟨S128x10, .f32⟩
  | 11 => ⟨S128x10, .f32⟩
  | 12 => ⟨S_, .f32⟩
  | 13 => ⟨S128, .f32⟩
  | 14 => ⟨S128x1, .f32⟩
  | 15 => ⟨S128x1, .f32⟩
  | 16 => ⟨S128x10, .f32⟩
  | 17 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_c_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_cst_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call4_cst : Ref sig .tc := ⟨.hbm, 124, rfl⟩
abbrev main_call4_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_call5_cst : Ref sig .tc := ⟨.hbm, 131, rfl⟩
abbrev main_call5_v0 : Ref sig .tc := ⟨.hbm, 132, rfl⟩
abbrev main_call5_cst_0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_cst_1 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_v90 : Ref sig .tc := ⟨.hbm, 145, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  reducesTo_S128x128_S128_d0 : S128x128.ReducesTo [0] S128
  h_S_ : 0 < S_.numel
  bcast_S_S128 : S_.BroadcastsInDim S128 (![] : Fin 0 → Fin S128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KTools.lean ====
/-
  Reading the kernel program's buffers between its regions: a buffer no operation of a host stretch writes keeps its
  contents across the stretch, a buffer that is none of a region's arrays keeps its contents across the region, and an
  input array of a region is not written by it.
-/
import proofs.«400331_j77764677861850_1_alg».proof.Proof.KRun
import Idealize.ShloMosaic.Lib.StableHlo.Run

noncomputable section

namespace Cert.KernelIdeal.Chain

open Idealize.ShloMosaic Idealize.ShloMosaic.TcCoe Idealize.SL.Sem Cert.KernelIdeal Cert.KernelIdeal.Gen Idealize.ShloMosaic.StableHlo

/-- closes `StableHlo.after ops W b = W b` for a literal buffer `b` that no operation of the literal stretch `ops` writes -/
macro "host_kept" : tactic => `(tactic| (
  refine StableHlo.after_of_forall_not_mem _ _ (List.forall_iff_forall_mem.mp ?_)
  simp only [hostOps0, hostOps0_1, hostOps0_2, hostOps0_3, hostOps0_4, hostOps1, hostOps3, hostOps4, hostOps5,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

end Cert.KernelIdeal.Chain

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.Spec.lean ====
/-
  The mathematics both programs compute, as functions on extended-real arrays of the literal shapes.

  A graph convolution layer is, per node row r and feature column q,
    proj  : (x · s)[r, ·] times W           = ∑ₖ x[r, k] · s[r] · W[k, q]      (s the out-degree scale, one per node)
    post  : max(a[r, q] · s[r] + b[q], 0)                                        (s the in-degree scale, b the bias)
  and the pooling over graphs, written with a 0/1 membership table oh[n, g], is
    pool  : ∑ₙ oh[n, g] · x[n, d].
-/
import Idealize.ShloMosaic.PureOps.Ideal
import Idealize.ShloMosaic.Lib.ValueIdx
import proofs.«400331_j77764677861850_1_alg».proof.Proof.LibPlainDot

noncomputable section

namespace Cert.Spec

open Idealize.ShloMosaic Idealize.ShloMosaic.ValueIdx

/-- node features: 50000 nodes, 128 columns -/
abbrev Nodes : Shape := ⟨2, ![50000, 128]⟩
/-- one scale per node, as a column -/
abbrev NodeCol : Shape := ⟨2, ![50000, 1]⟩
/-- a 128 × 128 matrix -/
abbrev Sq : Shape := ⟨2, ![128, 128]⟩
/-- a bias, as a row -/
abbrev Row : Shape := ⟨2, ![1, 128]⟩

/-- a vector of per-node values -/
abbrev NodeVec : Shape := ⟨1, ![50000]⟩
/-- a vector of 128 values -/
abbrev Vec128 : Shape := ⟨1, ![128]⟩

/-- A per-node vector laid out as a column. -/
def colOf (v : NodeVec.Idx → EReal) : NodeCol.Idx → EReal := fun i => v (ix1 (i 0))

/-- A vector of n values laid out as a row. -/
def rowOf {n : Nat} (b : (⟨1, ![n]⟩ : Shape).Idx → EReal) : (⟨2, ![1, n]⟩ : Shape).Idx → EReal := fun i => b (ix1 (i 1))

/-- The 0/1 membership table of nodes in graphs: entry (n, g) is 1 when node n's graph word, read as a signed integer,
    is g, and 0 otherwise (a word outside 0 … 127 names no graph). -/
def onehot (ids : NodeVec.Idx → BitVec 32) : Nodes.Idx → EReal :=
  fun i => if (ids (ix1 (i 0))).toInt = ((i 1).val : ℤ) then 1 else 0

/-- The rows of x scaled by s, then multiplied by W: entry (r, q) is ∑ₖ (x[r, k] · s[r]) · W[k, q]. -/
def proj (x : Nodes.Idx → EReal) (s : NodeCol.Idx → EReal) (W : Sq.Idx → EReal) : Nodes.Idx → EReal :=
  Cert.LibPlainDot.matProd (M := 50000) (K := 128) (N := 128) (fun i => x i * s (ix2 (i 0) (0 : Fin 1))) W

/-- The rows of a scaled by s, the bias row b added, negative entries cut to zero. -/
def post (a : Nodes.Idx → EReal) (s : NodeCol.Idx → EReal) (b : Row.Idx → EReal) : Nodes.Idx → EReal :=
  fun i => max (a i * s (ix2 (i 0) (0 : Fin 1)) + b (ix2 (0 : Fin 1) (i 1))) 0

/-- Entry (g, d) collects column d of x over the nodes, each weighted by the table's entry (n, g). -/
def pool (x : Nodes.Idx → EReal) (oh : Nodes.Idx → EReal) : Sq.Idx → EReal :=
  fun i => ∑ n : Fin 50000, oh (ix2 n (i 0)) * x (ix2 n (i 1))

end Cert.Spec

end
-- ==== Proof.HeadRef.lean ====
/-
  The reference's head, from the pooled graph embedding e on: batch normalisation over the 128 graphs (mean and biased
  variance per column, scale γ, shift β, ε inside the reciprocal square root), a dense layer with bias cut at zero, a second
  dense layer with bias, and the logarithm of the softmax over the ten classes — as named stages of the host operations.
-/
import proofs.«400331_j77764677861850_1_alg».proof.Proof.Gen.ReferenceIdeal

noncomputable section

namespace Cert.ReferenceIdeal.RefSide

open Cert.ReferenceIdeal Cert.ReferenceIdeal.Gen Idealize.ShloMosaic

variable {F : FTy → Type} [FloatOps F]

/-- a length-128 vector repeated down the 128 rows -/
abbrev rows128 (v : FVec F S128 .f32) : FVec F S128x128 .f32 :=
  broadcastInDim S128x128 ![0, 1] bcast_S1x128_S128x128_0_1 (broadcastInDim S1x128 ![1] bcast_S128_S1x128_1 v)

/-- the column means of e -/
def bnMean (e : FVec F S128x128 .f32) : FVec F S128 .f32 :=
  Host.divf (Host.reduceAdd e (constant S_ .f32 0x00000000#32) reducesTo_S128x128_S128_d0 h_S_)
    (broadcastInDim S128 ![] bcast_S_S128 (constant S_ .f32 0x43000000#32))

/-- e with its column means taken off -/
def bnCentered (e : FVec F S128x128 .f32) : FVec F S128x128 .f32 := subf e (rows128 (bnMean e))

/-- the column means of the squared deviations -/
def bnVar (e : FVec F S128x128 .f32) : FVec F S128 .f32 :=
  Host.divf (Host.reduceAdd (mulf (bnCentered e) (bnCentered e)) (constant S_ .f32 0x00000000#32) reducesTo_S128x128_S128_d0 h_S_)
    (broadcastInDim S128 ![] bcast_S_S128 (constant S_ .f32 0x43000000#32))

/-- γ · (e − mean) · (var + ε)^(−1/2) + β -/
def bnOut (e : FVec F S128x128 .f32) (γ β : FVec F S128 .f32) : FVec F S128x128 .f32 :=
  addf (mulf (mulf (rows128 γ) (bnCentered e))
      (rows128 (Host.rsqrt (addf (bnVar e) (broadcastInDim S128 ![] bcast_S_S128 (constant S_ .f32 0x3727C5AC#32))))))
    (rows128 β)

/-- max(h · W + b, 0) -/
def dense1 (h W : FVec F S128x128 .f32) (b : FVec F S128 .f32) : FVec F S128x128 .f32 :=
  maximumf (addf (Host.dotGeneral dot_S128x128_S128x128_S128x128_1_0_0_1_n_n none h W) (rows128 b))
    (broadcastInDim S128x128 ![] bcast_S_S128x128 (constant S_ .f32 0x00000000#32))

/-- h · W + b, ten columns -/
def dense2 (h : FVec F S128x128 .f32) (W : FVec F S128x10 .f32) (b : FVec F S10 .f32) : FVec F S128x10 .f32 :=
  addf (Host.dotGeneral dot_S128x128_S128x10_S128x10_1_0_0_1_n_n none h W)
    (broadcastInDim S128x10 ![0, 1] bcast_S1x10_S128x10_0_1 (broadcastInDim S1x10 ![1] bcast_S10_S1x10_1 b))

/-- a per-row value repeated along the ten columns -/
abbrev cols10 (v : FVec F S128x1 .f32) : FVec F S128x10 .f32 := broadcastInDim S128x10 ![0, 1] bcast_S128x1_S128x10_0_1 v

/-- z with its row maximum taken off -/
def lsShift (z : FVec F S128x10 .f32) : FVec F S128x10 .f32 :=
  subf z (cols10 (broadcastInDim S128x1 ![0] bcast_S128_S128x1_0
    (maximumf (broadcastInDim S128 ![] bcast_S_S128 (constant S_ .f32 0xFF800000#32))
      (Host.reduce FloatOps.maximumf z (constant S_ .f32 0xFF800000#32) reducesTo_S128x10_S128_d1 h_S_))))

/-- the shifted z less the logarithm of its row's sum of exponentials -/
def logSoftmax (z : FVec F S128x10 .f32) : FVec F S128x10 .f32 :=
  subf (lsShift z) (cols10 (Host.log (broadcastInDim S128x1 ![0] bcast_S128_S128x1_0
    (Host.reduceAdd (Host.exp (lsShift z)) (constant S_ .f32 0x00000000#32) reducesTo_S128x10_S128_d1 h_S_))))

/-- the head: the class log-probabilities of every graph from the pooled embedding -/
def headRef (e : FVec F S128x128 .f32) (γ β : FVec F S128 .f32) (W1 : FVec F S128x128 .f32) (b1 : FVec F S128 .f32)
    (W2 : FVec F S128x10 .f32) (b2 : FVec F S10 .f32) : FVec F S128x10 .f32 :=
  logSoftmax (dense2 (dense1 (bnOut e γ β) W1 b1) W2 b2)

end Cert.ReferenceIdeal.RefSide

end
-- ==== Proof.Model.lean ====
/-
  The whole network as one function of the argument arrays, over the shared specification (Spec.lean) and the host
  operations both programs apply unchanged: the degree scales (ones scatter-added per source / destination word, cut below
  at 1, reciprocal square root), the edge aggregation (rows gathered at the source words, wrapped when negative, and
  scatter-added at the destination words), two convolution layers, the pooling over graphs, and the head.
-/
import proofs.«400331_j77764677861850_1_alg».proof.Proof.Spec
import proofs.«400331_j77764677861850_1_alg».proof.Proof.HeadRef
import proofs.«400331_j77764677861850_1_alg».proof.Proof.Gen.ReferenceIdeal

noncomputable section

namespace Cert.Model

open Cert.ReferenceIdeal Cert.ReferenceIdeal.Gen Idealize.ShloMosaic

/-- The degree scale of every node from an edge-end vector w: 1/√max(1, #{e : w e = node}). -/
def degScale (w : IVec S800000 32) : FVec Ideal S50000 .f32 :=
  Host.rsqrt (maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 w) (broadcastInDim S800000 ![] bcast_S_S800000 (constant S_ .f32 0x3F800000#32))))

/-- The edge aggregation: row e of h gathered at the source word of edge e (a negative word wrapped by 50000), the
    gathered rows scatter-added at the destination words. -/
def agg (h : FVec Ideal S50000x128 .f32) (src dst : IVec S800000 32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One graph-convolution layer: project, aggregate over the edges, scale, add the bias, cut at zero. -/
def layer (x : FVec Ideal S50000x128 .f32) (W : FVec Ideal S128x128 .f32) (b : FVec Ideal S128 .f32) (src dst : IVec S800000 32) :
    FVec Ideal S50000x128 .f32 :=
  Cert.Spec.post (agg (Cert.Spec.proj x (Cert.Spec.colOf (degScale src)) W) src dst) (Cert.Spec.colOf (degScale dst)) (Cert.Spec.rowOf b)

/-- The pooled graph embedding after two layers. -/
def emb (x : FVec Ideal S50000x128 .f32) (src dst : IVec S800000 32) (ids : IVec S50000 32)
    (W1 : FVec Ideal S128x128 .f32) (b1 : FVec Ideal S128 .f32) (W2 : FVec Ideal S128x128 .f32) (b2 : FVec Ideal S128 .f32) :
    FVec Ideal S128x128 .f32 :=
  Cert.Spec.pool (layer (layer x W1 b1 src dst) W2 b2 src dst) (Cert.Spec.onehot ids)

end Cert.Model

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.ProjK.lean ====
/-
  The projection layer on the kernel side. The kernel walks the 50000 node rows in 25 blocks of 2000: at point t it
  loads block t of x and of the per-node scale column and all of W, scales the rows, and stores their product with W
  (a matrix unit into the zero accumulator, the roundings to bf16 before it the identity on the ideal values) into
  block t of the output. A block's scaled rows times W are the whole array's projection read at rows 2000 t + p, and
  row r lies in the block of point r / 2000, so the 25 write-backs cover the array: it ends at the projection of the
  arrays the region found.
-/
import proofs.«400331_j77764677861850_1_alg».proof.Proof.Spec
import proofs.«400331_j77764677861850_1_alg».proof.Proof.Gen.KernelIdeal.Frame
import Idealize.ShloMosaic.Lib.Pipeline.Value
import proofs.«400331_j77764677861850_1_alg».proof.Proof.LibPlainDot
import proofs.«400331_j77764677861850_1_alg».proof.Proof.LibRowOps

noncomputable section

namespace Cert.KernelIdeal.ProjK

open Idealize.ShloMosaic Idealize.ShloMosaic.TcCoe Idealize.SL.Sem Cert.KernelIdeal Cert.KernelIdeal.Gen
open Idealize.ShloMosaic.Pipeline (Dat)
open Idealize.ShloMosaic.ValueIdx

/-- The zero offsets of a whole-block access, spelt as a constant function. -/
theorem zero_off : (![0, 0] : Fin 2 → Nat) = fun _ => 0 := funext fun a => by fin_cases a <;> rfl

/-- The scaled rows of a block: entry (p, q) of x0 times the scale column's entry p. -/
abbrev scaledBlk (x0 : Vec Ideal S2000x128 .f32) (x1 : Vec Ideal S2000x1 .f32) : (⟨2, ![2000, 128]⟩ : Shape).Idx → EReal :=
  fun i => x0 i * x1 (ix2 (i 0) (0 : Fin 1))

/-- The matrix unit into the zero accumulator, fed x0 times the scale column spread along the columns, is the
    block's scaled rows times the weights (the two roundings to bf16 before it are the identity on the ideal values). -/
theorem matmul_scaled (x0 : Vec Ideal S2000x128 .f32) (x1 : Vec Ideal S2000x1 .f32) (x2 : Vec Ideal S128x128 .f32) :
    matmul (F := Ideal) dot_S2000x128_S128x128_S2000x128_1_0_0_1_n_n none
        (truncf FTy.bf16 (mulf x0 (broadcastTo S2000x128 x1 broadcasts_S2000x1_S2000x128)) bitsLt_bf16_f32)
        (truncf FTy.bf16 x2 bitsLt_bf16_f32) (constant S2000x128 FTy.f32 0x00000000#32)
      = Cert.LibPlainDot.matProd (M := 2000) (K := 128) (N := 128) (scaledBlk x0 x1) x2 := by
  refine (Cert.LibPlainDot.matmul_zero_eq_matProd (M := 2000) (K := 128) (N := 128)
    dot_S2000x128_S128x128_S2000x128_1_0_0_1_n_n rfl rfl rfl rfl rfl rfl none _ _).trans ?_
  refine congrArg (fun l => Cert.LibPlainDot.matProd (M := 2000) (K := 128) (N := 128) l x2) ?_
  funext i
  obtain ⟨p, q, rfl⟩ : ∃ (p : Fin 2000) (q : Fin 128), i = ix2 p q := ⟨i 0, i 1, eq_ix2 i⟩
  show x0 (ix2 p q) * broadcastTo S2000x128 x1 broadcasts_S2000x1_S2000x128 (ix2 p q) = x0 (ix2 p q) * x1 (ix2 p (0 : Fin 1))
  rw [Cert.LibRowOps.broadcastTo_col (R := 2000) (C := 128) x1 broadcasts_S2000x1_S2000x128 p q]

/-- The body's payload of region 0: the block's scaled rows times the weights. -/
theorem pay0_eq (x0 : Vec Ideal S2000x128 .f32) (x1 : Vec Ideal S2000x1 .f32) (x2 : Vec Ideal S128x128 .f32) :
    k0_pay1 (F := Ideal) x0 x1 x2 = Cert.LibPlainDot.matProd (M := 2000) (K := 128) (N := 128) (scaledBlk x0 x1) x2 := by
  unfold k0_pay1
  dsimp only
  rw [shapeCast_self]
  exact matmul_scaled x0 x1 x2

/-- The body's payload of region 2: the same, its one more cast of x0 to its own shape the identity. -/
theorem pay2_eq (x0 : Vec Ideal S2000x128 .f32) (x1 : Vec Ideal S2000x1 .f32) (x2 : Vec Ideal S128x128 .f32) :
    k2_pay1 (F := Ideal) x0 x1 x2 = Cert.LibPlainDot.matProd (M := 2000) (K := 128) (N := 128) (scaledBlk x0 x1) x2 := by
  unfold k2_pay1
  dsimp only
  rw [shapeCast_self, shapeCast_self]
  exact matmul_scaled x0 x1 x2

/-- A block's scaled rows times the weights are the whole array's at the block's rows: if the three blocks read the
    arrays X, S, W at rows r p (the weights whole), the product at (p, q) is the projection of X, S, W at (r p, q). -/
theorem scaled_at (X : Cert.Spec.Nodes.Idx → EReal) (S : Cert.Spec.NodeCol.Idx → EReal) (W : Cert.Spec.Sq.Idx → EReal)
    (b0 : Vec Ideal S2000x128 .f32) (b1 : Vec Ideal S2000x1 .f32) (b2 : Vec Ideal S128x128 .f32)
    (r : Fin 2000 → Fin 50000)
    (h0 : ∀ (p : Fin 2000) (k : Fin 128), b0 (ix2 p k) = X (ix2 (r p) k))
    (h1 : ∀ p : Fin 2000, b1 (ix2 p (0 : Fin 1)) = S (ix2 (r p) (0 : Fin 1)))
    (h2 : ∀ (k : Fin 128) (q : Fin 128), b2 (ix2 k q) = W (ix2 k q))
    (p : Fin 2000) (q : Fin 128) :
    Cert.LibPlainDot.matProd (M := 2000) (K := 128) (N := 128) (scaledBlk b0 b1) b2 (ix2 p q)
      = Cert.Spec.proj X S W (ix2 (r p) q) := by
  show ∑ k : Fin 128, (b0 (ix2 p k) * b1 (ix2 p (0 : Fin 1))) * b2 (ix2 k q)
    = ∑ k : Fin 128, (X (ix2 (r p) k) * S (ix2 (r p) (0 : Fin 1))) * W (ix2 k q)
  refine Finset.sum_congr rfl fun k _ => ?_
  rw [h0, h1, h2]

/-- Row p of block n is row 2000 n + p of the array. -/
def blkRow (n : Nat) (hn : n < 25) (p : Fin 2000) : Fin 50000 :=
  ⟨n * 2000 + p.val, by have := p.isLt; omega⟩

variable (V : (c : Dev nD) → (b : Ref sig .tc) → Buf (Elt Ideal) ((c : Thread nD τ).loc b))

/-! ## Region 0 -/

/-- The index maps of region 0, decided over the 25 points: the row blocks of x, of the scale column and of the
    output sit at block t, the weights at block 0, and every column block is 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projection of the arrays as the region finds them. -/
theorem flushed0_eq (c : Dev nD) (t : Fin cfg0.N) :
    (dat0 (F := Ideal) V c).flushed 3 t
      = ((cfg0.win 3).blk t).view.read (Elt Ideal) (Cert.Spec.proj (V c main_arg0) (V c main_v10) (V c main_arg4)) := by
  show (cfg0.win 3).cut (grid0.coords t) ((dat0 V c).after 3 t) = _
  rw [after0_3]
  unfold out0_3
  rw [View.canon_unit_zero zero_off]
  simp only [View.ld_unit_zero (S := S2000x128) zero_off, View.ld_unit_zero (S := S2000x1) zero_off, View.ld_unit_zero (S := S128x128) zero_off]
  obtain ⟨e00, e01, e10, e11, e20, e21, e30, e31⟩ := idx_facts0 t
  have ht : t.val < 25 := lt_of_lt_of_eq t.isLt N_0
  show k0_pay1 (F := Ideal) (iblk0 V c 0 t) (iblk0 V c 1 t) (iblk0 V c 2 t)
    = fun j : S2000x128.Idx => Cert.Spec.proj (V c main_arg0) (V c main_v10) (V c main_arg4) (((cfg0.win 3).blk t).view.emb j)
  funext j
  obtain ⟨p, q, rfl⟩ : ∃ (p : Fin 2000) (q : Fin 128), j = ix2 p q := ⟨j 0, j 1, eq_ix2 j⟩
  refine (congrFun (pay0_eq (iblk0 V c 0 t) (iblk0 V c 1 t) (iblk0 V c 2 t)) (ix2 p q)).trans ?_
  refine (scaled_at (V c main_arg0) (V c main_v10) (V c main_arg4) (iblk0 V c 0 t) (iblk0 V c 1 t) (iblk0 V c 2 t)
    (blkRow t.val ht) ?_ ?_ ?_ p q).trans ?_
  · intro p k
    show V c main_arg0 (((cfg0.win 0).blk t).view.emb (ix2 p k)) = V c main_arg0 (ix2 (blkRow t.val ht p) k)
    refine congrArg (V c main_arg0) ?_
    funext a; apply Fin.ext
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  · intro p
    show V c main_v10 (((cfg0.win 1).blk t).view.emb (ix2 p (0 : Fin 1))) = V c main_v10 (ix2 (blkRow t.val ht p) (0 : Fin 1))
    refine congrArg (V c main_v10) ?_
    funext a; apply Fin.ext
    match a with
    | ⟨0, _⟩ => show win0_1.index t (0 : Fin 2) * 2000 + 1 * p.val = t.val * 2000 + p.val; rw [e10]; omega
    | ⟨1, _⟩ => show win0_1.index t (1 : Fin 2) * 1 + 1 * 0 = 0; rw [e11]
  · intro k q
    show V c main_arg4 (((cfg0.win 2).blk t).view.emb (ix2 k q)) = V c main_arg4 (ix2 k q)
    refine congrArg (V c main_arg4) ?_
    funext a; apply Fin.ext
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · refine congrArg (Cert.Spec.proj (V c main_arg0) (V c main_v10) (V c main_arg4)) ?_
    funext a; apply Fin.ext
    match a with
    | ⟨0, _⟩ => show t.val * 2000 + p.val = win0_3.index t (0 : Fin 2) * 2000 + 1 * p.val; rw [e30]; omega
    | ⟨1, _⟩ => show q.val = win0_3.index t (1 : Fin 2) * 128 + 1 * q.val; rw [e31]; omega

/-- An index of the array is in point t's output block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v13).slice (win0_3.rect t)).set ↔ _
  rw [View.set_slice_whole, Rect.mem_set_unit]
  exact Iff.rfl

/-- Every index of the array is written back: row r lies in the block of point r / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  refine ⟨t, flush0_3 t, ?_⟩
  rw [mem_blk0]
  obtain ⟨-, -, -, -, -, -, e30, e31⟩ := idx_facts0 t
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-! ## Region 2 -/

/-- The index maps of region 2, decided over the 25 points: the row blocks of x, of the scale column and of the
    output sit at block t, the weights at block 0, and every column block is 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the projection of the arrays as the region finds them. -/
theorem flushed2_eq (c : Dev nD) (t : Fin cfg2.N) :
    (dat2 (F := Ideal) V c).flushed 3 t
      = ((cfg2.win 3).blk t).view.read (Elt Ideal) (Cert.Spec.proj (V c main_v25) (V c main_v10) (V c main_arg6)) := by
  show (cfg2.win 3).cut (grid2.coords t) ((dat2 V c).after 3 t) = _
  rw [after2_3]
  unfold out2_3
  rw [View.canon_unit_zero zero_off]
  simp only [View.ld_unit_zero (S := S2000x128) zero_off, View.ld_unit_zero (S := S2000x1) zero_off, View.ld_unit_zero (S := S128x128) zero_off]
  obtain ⟨e00, e01, e10, e11, e20, e21, e30, e31⟩ := idx_facts2 t
  have ht : t.val < 25 := lt_of_lt_of_eq t.isLt N_2
  show k2_pay1 (F := Ideal) (iblk2 V c 0 t) (iblk2 V c 1 t) (iblk2 V c 2 t)
    = fun j : S2000x128.Idx => Cert.Spec.proj (V c main_v25) (V c main_v10) (V c main_arg6) (((cfg2.win 3).blk t).view.emb j)
  funext j
  obtain ⟨p, q, rfl⟩ : ∃ (p : Fin 2000) (q : Fin 128), j = ix2 p q := ⟨j 0, j 1, eq_ix2 j⟩
  refine (congrFun (pay2_eq (iblk2 V c 0 t) (iblk2 V c 1 t) (iblk2 V c 2 t)) (ix2 p q)).trans ?_
  refine (scaled_at (V c main_v25) (V c main_v10) (V c main_arg6) (iblk2 V c 0 t) (iblk2 V c 1 t) (iblk2 V c 2 t)
    (blkRow t.val ht) ?_ ?_ ?_ p q).trans ?_
  · intro p k
    show V c main_v25 (((cfg2.win 0).blk t).view.emb (ix2 p k)) = V c main_v25 (ix2 (blkRow t.val ht p) k)
    refine congrArg (V c main_v25) ?_
    funext a; apply Fin.ext
    match a with
    | ⟨0, _⟩ => show win2_0.index t (0 : Fin 2) * 2000 + 1 * p.val = t.val * 2000 + p.val; rw [e00]; omega
    | ⟨1, _⟩ => show win2_0.index t (1 : Fin 2) * 128 + 1 * k.val = k.val; rw [e01]; omega
  · intro p
    show V c main_v10 (((cfg2.win 1).blk t).view.emb (ix2 p (0 : Fin 1))) = V c main_v10 (ix2 (blkRow t.val ht p) (0 : Fin 1))
    refine congrArg (V c main_v10) ?_
    funext a; apply Fin.ext
    match a with
    | ⟨0, _⟩ => show win2_1.index t (0 : Fin 2) * 2000 + 1 * p.val = t.val * 2000 + p.val; rw [e10]; omega
    | ⟨1, _⟩ => show win2_1.index t (1 : Fin 2) * 1 + 1 * 0 = 0; rw [e11]
  · intro k q
    show V c main_arg6 (((cfg2.win 2).blk t).view.emb (ix2 k q)) = V c main_arg6 (ix2 k q)
    refine congrArg (V c main_arg6) ?_
    funext a; apply Fin.ext
    match a with
    | ⟨0, _⟩ => show win2_2.index t (0 : Fin 2) * 128 + 1 * k.val = k.val; rw [e20]; omega
    | ⟨1, _⟩ => show win2_2.index t (1 : Fin 2) * 128 + 1 * q.val = q.val; rw [e21]; omega
  · refine congrArg (Cert.Spec.proj (V c main_v25) (V c main_v10) (V c main_arg6)) ?_
    funext a; apply Fin.ext
    match a with
    | ⟨0, _⟩ => show t.val * 2000 + p.val = win2_3.index t (0 : Fin 2) * 2000 + 1 * p.val; rw [e30]; omega
    | ⟨1, _⟩ => show q.val = win2_3.index t (1 : Fin 2) * 128 + 1 * q.val; rw [e31]; omega

/-- An index of the array is in point t's output block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v26).slice (win2_3.rect t)).set ↔ _
  rw [View.set_slice_whole, Rect.mem_set_unit]
  exact Iff.rfl

/-- Every index of the array is written back: row r lies in the block of point r / 2000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show _ < grid2.N; rw [N_2]; omega⟩, rfl⟩
  refine ⟨t, flush2_3 t, ?_⟩
  rw [mem_blk2]
  obtain ⟨-, -, -, -, -, -, e30, e31⟩ := idx_facts2 t
  intro a
  match a with
  | ⟨0, _⟩ =>
    show win2_3.index t (0 : Fin 2) * 2000 ≤ (i 0).val ∧ (i 0).val < win2_3.index t (0 : Fin 2) * 2000 + 2000
    rw [e30, ht]; omega
  | ⟨1, _⟩ =>
    show win2_3.index t (1 : Fin 2) * 128 ≤ (i 1).val ∧ (i 1).val < win2_3.index t (1 : Fin 2) * 128 + 128
    rw [e31]; omega

/-- Region 0 (the first projection): after its 25 points the result array holds the scaled rows of the input times the weights. -/
theorem proj_final0 (c : Dev nD) :
    (dat0 (F := Ideal) V c).arrAt 3 cfg0.N = Cert.Spec.proj (V c main_arg0) (V c main_v10) (V c main_arg4) := by
  exact (dat0 (F := Ideal) V c).arrAt_eq_of_cover 3 (Cert.Spec.proj (V c main_arg0) (V c main_v10) (V c main_arg4))
    (fun t _ => flushed0_eq V c t) cover0

/-- Region 2 (the second projection): the same of the first layer's output and the second weights. -/
theorem proj_final2 (c : Dev nD) :
    (dat2 (F := Ideal) V c).arrAt 3 cfg2.N = Cert.Spec.proj (V c main_v25) (V c main_v10) (V c main_arg6) := by
  exact (dat2 (F := Ideal) V c).arrAt_eq_of_cover 3 (Cert.Spec.proj (V c main_v25) (V c main_v10) (V c main_arg6))
    (fun t _ => flushed2_eq V c t) cover2

end Cert.KernelIdeal.ProjK

end
-- ==== Proof.PostK.lean ====
/-
  The tail of a graph-convolution layer, read off the kernel's run: out[r, q] = max(a[r, q] · s[r] + b[q], 0).
  The kernel walks the 50000 rows in 25 blocks of 2000. At point t it loads rows 2000 t … 2000 t + 1999 of the
  aggregate a and of the scale column s, and the whole bias row b; it spreads the column along the columns and the row
  down the rows, multiplies, adds and cuts at zero pointwise, and stores the result whole into the same rows of the
  output. So what point t writes back is block t of the one whole-array function Cert.Spec.post a s b; row r lies in
  the block of point r / 2000, these blocks cover the array, and the array ends holding that function.
  The layer's two tails (regions 1 and 3) differ only in the arrays they read and write.
-/
import proofs.«400331_j77764677861850_1_alg».proof.Proof.Spec
import proofs.«400331_j77764677861850_1_alg».proof.Proof.LibRowOps
import proofs.«400331_j77764677861850_1_alg».proof.Proof.Gen.KernelIdeal.Frame
import Idealize.ShloMosaic.Lib.Pipeline.Value

noncomputable section

namespace Cert.KernelIdeal.PostK

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-! ## The body's arithmetic at an index -/

/-- The zero offsets of a whole-buffer access, as the constant function. -/
theorem zero_off : (![0, 0] : Fin 2 → Nat) = fun _ => 0 := funext fun a => by fin_cases a <;> rfl

/-- The 1 × 128 row spread over 2000 × 128 reads, at (p, q), the row at q. -/
theorem row_spread (w : Vec Ideal S1x128 .f32) (h : S1x128.Broadcasts S2000x128) (p : Fin 2000) (q : Fin 128) :
    broadcastTo S2000x128 w h (ix2 p q) = w (ix2 (0 : Fin 1) q) := by
  refine broadcastTo_apply w h (ix2 p q) (ix2 (0 : Fin 1) q) fun ax => ?_
  match ax with
  | ⟨0, _⟩ => rfl
  | ⟨1, _⟩ => rfl

/-- The stored value of region 1 at (p, q): the aggregate there times the scale column at row p, plus the bias row at
    column q, cut at zero (the shape casts are identities, the two broadcasts read the column and the row, the splat is 0). -/
theorem pay1_apply (x0 : Vec Ideal S2000x128 .f32) (x1 : Vec Ideal S2000x1 .f32) (x2 : Vec Ideal S1x128 .f32)
    (p : Fin 2000) (q : Fin 128) :
    k1_pay1 x0 x1 x2 (ix2 p q) = max (x0 (ix2 p q) * x1 (ix2 p (0 : Fin 1)) + x2 (ix2 (0 : Fin 1) q)) 0 := by
  unfold k1_pay1
  simp only [shapeCast_self]
  rw [maximumf_apply, addf_apply, mulf_apply, broadcast_apply]
  rw [Cert.LibRowOps.broadcastTo_col x1 broadcasts_S2000x1_S2000x128 p q, row_spread x2 broadcasts_S1x128_S2000x128 p q]
  show max _ (Ideal.ofBits .f32 0x00000000#32) = _
  rw [Ideal.ofBits_zero_f32]

/-- What the body of region 1 leaves in the output buffer, at (p, q): its one whole-buffer store of that value of its
    three whole-buffer loads. -/
theorem out1_3_apply (x0 : Vec Ideal S2000x128 .f32) (x1 : Vec Ideal S2000x1 .f32) (x2 : Vec Ideal S1x128 .f32)
    (p : Fin 2000) (q : Fin 128) :
    out1_3 x0 x1 x2 (ix2 p q) = max (x0 (ix2 p q) * x1 (ix2 p (0 : Fin 1)) + x2 (ix2 (0 : Fin 1) q)) 0 := by
  unfold out1_3
  rw [View.canon_unit_zero zero_off]
  simp only [View.ld_unit_zero (S := S2000x128) zero_off, View.ld_unit_zero (S := S2000x1) zero_off, View.ld_unit_zero (S := S1x128) zero_off]
  exact pay1_apply x0 x1 x2 p q

/-! ## Region 1: from the blocks to the array -/

/-- The block index maps of region 1, decided over the grid: the aggregate, the scale column and the output move down the
    rows with the point; the bias row stays. -/
theorem block_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's block of the aggregate is its rows 2000 t … 2000 t + 1999. -/
theorem agg_block1 (c : Dev nD) (t : Fin cfg1.N) (p : Fin 2000) (q : Fin 128) (k : S50000x128.Idx)
    (hk0 : (k 0).val = t.val * 2000 + p.val) (hk1 : (k 1).val = q.val) :
    (iblk1 V c 0 t : Vec Ideal S2000x128 .f32) (ix2 p q) = (V c main_v23 : S50000x128.Idx → EReal) k := by
  obtain ⟨e0, e1, -⟩ := block_idx1 t
  unfold iblk1
  rw [View.read_apply]
  show V c main_v23 _ = V c main_v23 _
  congr 1
  funext a
  apply Fin.ext
  match a with
  | ⟨0, _⟩ => show win1_0.index t (0 : Fin 2) * 2000 + 1 * p.val = (k 0).val; rw [e0, hk0]; omega
  | ⟨1, _⟩ => show win1_0.index t (1 : Fin 2) * 128 + 1 * q.val = (k 1).val; rw [e1, hk1]; omega

/-- Point t's block of the scale column is its rows 2000 t … 2000 t + 1999. -/
theorem scale_block1 (c : Dev nD) (t : Fin cfg1.N) (p : Fin 2000) (k : S50000x1.Idx)
    (hk0 : (k 0).val = t.val * 2000 + p.val) :
    (iblk1 V c 1 t : Vec Ideal S2000x1 .f32) (ix2 p (0 : Fin 1)) = (V c main_v12 : S50000x1.Idx → EReal) k := by
  obtain ⟨-, -, e0, e1, -⟩ := block_idx1 t
  unfold iblk1
  rw [View.read_apply]
  show V c main_v12 _ = V c main_v12 _
  congr 1
  funext a
  apply Fin.ext
  match a with
  | ⟨0, _⟩ => show win1_1.index t (0 : Fin 2) * 2000 + 1 * p.val = (k 0).val; rw [e0, hk0]; omega
  | ⟨1, _⟩ => show win1_1.index t (1 : Fin 2) * 1 + 1 * 0 = (k 1).val; rw [e1]; have hk : (k 1).val < 1 := (k 1).isLt; omega

/-- Every point's block of the bias row is the whole row. -/
theorem bias_block1 (c : Dev nD) (t : Fin cfg1.N) (q : Fin 128) (k : S1x128.Idx) (hk1 : (k 1).val = q.val) :
    (iblk1 V c 2 t : Vec Ideal S1x128 .f32) (ix2 (0 : Fin 1) q) = (V c main_v24 : S1x128.Idx → EReal) k := by
  obtain ⟨-, -, -, -, e0, e1, -⟩ := block_idx1 t
  unfold iblk1
  rw [View.read_apply]
  show V c main_v24 _ = V c main_v24 _
  congr 1
  funext a
  apply Fin.ext
  match a with
  | ⟨0, _⟩ => show win1_2.index t (0 : Fin 2) * 1 + 1 * 0 = (k 0).val; rw [e0]; have hk : (k 0).val < 1 := (k 0).isLt; omega
  | ⟨1, _⟩ => show win1_2.index t (1 : Fin 2) * 128 + 1 * q.val = (k 1).val; rw [e1, hk1]; omega

/-- What point t of region 1 writes back is block t of the one whole-array function: at (p, q) of the block, row
    2000 t + p and column q of the array, where the three input blocks read the same row and column. -/
theorem flushed1_eq (c : Dev nD) (t : Fin cfg1.N) :
    (dat1 (F := Ideal) V c).flushed 3 t = ((cfg1.win 3).blk t).view.read (Elt Ideal) (Cert.Spec.post (V c main_v23) (V c main_v12) (V c main_v24)) := by
  show (cfg1.win 3).cut (grid1.coords t) ((dat1 V c).after 3 t) = _
  rw [after1_3]
  funext j
  obtain ⟨p, q, rfl⟩ : ∃ (p : Fin 2000) (q : Fin 128), j = ix2 p q := ⟨j 0, j 1, eq_ix2 j⟩
  refine (out1_3_apply (iblk1 V c 0 t) (iblk1 V c 1 t) (iblk1 V c 2 t) p q).trans ?_
  obtain ⟨-, -, -, -, -, -, e0, e1⟩ := block_idx1 t
  rw [View.read_apply]
  have hr : ((((cfg1.win 3).blk t).view.emb (ix2 p q) : S50000x128.Idx) 0).val = t.val * 2000 + p.val := by
    show win1_3.index t (0 : Fin 2) * 2000 + 1 * p.val = _; rw [e0]; omega
  have hq : ((((cfg1.win 3).blk t).view.emb (ix2 p q) : S50000x128.Idx) 1).val = q.val := by
    show win1_3.index t (1 : Fin 2) * 128 + 1 * q.val = _; rw [e1]; omega
  rw [agg_block1 V c t p q _ hr hq, scale_block1 V c t p (ix2 _ (0 : Fin 1)) hr, bias_block1 V c t q (ix2 (0 : Fin 1) _) hq]
  rfl

/-- An index of the output array is in point t's block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v25).slice (win1_3.rect t)).set ↔ _
  rw [View.set_slice_whole, Rect.mem_set_unit]
  exact Iff.rfl

/-- Row r of the output lies in the block of point r / 2000, which is written back. -/
theorem covered1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, e0, e1⟩ := block_idx1 ⟨(i 0).val / 2000, ht⟩
  refine ⟨⟨(i 0).val / 2000, ht⟩, flush1_3 _, ?_⟩
  rw [mem_block1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e1]; omega

/-- Region 1 (after the first aggregation): scale by the in-degree factor, add the bias row, cut at zero. -/
theorem post_final1 (c : Dev nD) :
    (dat1 (F := Ideal) V c).arrAt 3 cfg1.N = Cert.Spec.post (V c main_v23) (V c main_v12) (V c main_v24) :=
  (dat1 V c).arrAt_eq_of_cover 3 _ (fun t _ => flushed1_eq V c t) covered1

/-! ## Region 3: the same arithmetic, the same walk -/

/-- The stored value of region 3 at (p, q): the aggregate there times the scale column at row p, plus the bias row at
    column q, cut at zero (the shape casts are identities, the two broadcasts read the column and the row, the splat is 0). -/
theorem pay3_apply (x0 : Vec Ideal S2000x128 .f32) (x1 : Vec Ideal S2000x1 .f32) (x2 : Vec Ideal S1x128 .f32)
    (p : Fin 2000) (q : Fin 128) :
    k3_pay1 x0 x1 x2 (ix2 p q) = max (x0 (ix2 p q) * x1 (ix2 p (0 : Fin 1)) + x2 (ix2 (0 : Fin 1) q)) 0 := by
  unfold k3_pay1
  simp only [shapeCast_self]
  rw [maximumf_apply, addf_apply, mulf_apply, broadcast_apply]
  rw [Cert.LibRowOps.broadcastTo_col x1 broadcasts_S2000x1_S2000x128 p q, row_spread x2 broadcasts_S1x128_S2000x128 p q]
  show max _ (Ideal.ofBits .f32 0x00000000#32) = _
  rw [Ideal.ofBits_zero_f32]

/-- What the body of region 3 leaves in the output buffer, at (p, q): its one whole-buffer store of that value of its
    three whole-buffer loads. -/
theorem out3_3_apply (x0 : Vec Ideal S2000x128 .f32) (x1 : Vec Ideal S2000x1 .f32) (x2 : Vec Ideal S1x128 .f32)
    (p : Fin 2000) (q : Fin 128) :
    out3_3 x0 x1 x2 (ix2 p q) = max (x0 (ix2 p q) * x1 (ix2 p (0 : Fin 1)) + x2 (ix2 (0 : Fin 1) q)) 0 := by
  unfold out3_3
  rw [View.canon_unit_zero zero_off]
  simp only [View.ld_unit_zero (S := S2000x128) zero_off, View.ld_unit_zero (S := S2000x1) zero_off, View.ld_unit_zero (S := S1x128) zero_off]
  exact pay3_apply x0 x1 x2 p q

/-- The block index maps of region 3, decided over the grid: the aggregate, the scale column and the output move down the
    rows with the point; the bias row stays. -/
theorem block_idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point t's block of the aggregate is its rows 2000 t … 2000 t + 1999. -/
theorem agg_block3 (c : Dev nD) (t : Fin cfg3.N) (p : Fin 2000) (q : Fin 128) (k : S50000x128.Idx)
    (hk0 : (k 0).val = t.val * 2000 + p.val) (hk1 : (k 1).val = q.val) :
    (iblk3 V c 0 t : Vec Ideal S2000x128 .f32) (ix2 p q) = (V c main_v36 : S50000x128.Idx → EReal) k := by
  obtain ⟨e0, e1, -⟩ := block_idx3 t
  unfold iblk3
  rw [View.read_apply]
  show V c main_v36 _ = V c main_v36 _
  congr 1
  funext a
  apply Fin.ext
  match a with
  | ⟨0, _⟩ => show win3_0.index t (0 : Fin 2) * 2000 + 1 * p.val = (k 0).val; rw [e0, hk0]; omega
  | ⟨1, _⟩ => show win3_0.index t (1 : Fin 2) * 128 + 1 * q.val = (k 1).val; rw [e1, hk1]; omega

/-- Point t's block of the scale column is its rows 2000 t … 2000 t + 1999. -/
theorem scale_block3 (c : Dev nD) (t : Fin cfg3.N) (p : Fin 2000) (k : S50000x1.Idx)
    (hk0 : (k 0).val = t.val * 2000 + p.val) :
    (iblk3 V c 1 t : Vec Ideal S2000x1 .f32) (ix2 p (0 : Fin 1)) = (V c main_v12 : S50000x1.Idx → EReal) k := by
  obtain ⟨-, -, e0, e1, -⟩ := block_idx3 t
  unfold iblk3
  rw [View.read_apply]
  show V c main_v12 _ = V c main_v12 _
  congr 1
  funext a
  apply Fin.ext
  match a with
  | ⟨0, _⟩ => show win3_1.index t (0 : Fin 2) * 2000 + 1 * p.val = (k 0).val; rw [e0, hk0]; omega
  | ⟨1, _⟩ => show win3_1.index t (1 : Fin 2) * 1 + 1 * 0 = (k 1).val; rw [e1]; have hk : (k 1).val < 1 := (k 1).isLt; omega

/-- Every point's block of the bias row is the whole row. -/
theorem bias_block3 (c : Dev nD) (t : Fin cfg3.N) (q : Fin 128) (k : S1x128.Idx) (hk1 : (k 1).val = q.val) :
    (iblk3 V c 2 t : Vec Ideal S1x128 .f32) (ix2 (0 : Fin 1) q) = (V c main_v37 : S1x128.Idx → EReal) k := by
  obtain ⟨-, -, -, -, e0, e1, -⟩ := block_idx3 t
  unfold iblk3
  rw [View.read_apply]
  show V c main_v37 _ = V c main_v37 _
  congr 1
  funext a
  apply Fin.ext
  match a with
  | ⟨0, _⟩ => show win3_2.index t (0 : Fin 2) * 1 + 1 * 0 = (k 0).val; rw [e0]; have hk : (k 0).val < 1 := (k 0).isLt; omega
  | ⟨1, _⟩ => show win3_2.index t (1 : Fin 2) * 128 + 1 * q.val = (k 1).val; rw [e1, hk1]; omega

/-- What point t of region 3 writes back is block t of the one whole-array function: at (p, q) of the block, row
    2000 t + p and column q of the array, where the three input blocks read the same row and column. -/
theorem flushed3_eq (c : Dev nD) (t : Fin cfg3.N) :
    (dat3 (F := Ideal) V c).flushed 3 t = ((cfg3.win 3).blk t).view.read (Elt Ideal) (Cert.Spec.post (V c main_v36) (V c main_v12) (V c main_v37)) := by
  show (cfg3.win 3).cut (grid3.coords t) ((dat3 V c).after 3 t) = _
  rw [after3_3]
  funext j
  obtain ⟨p, q, rfl⟩ : ∃ (p : Fin 2000) (q : Fin 128), j = ix2 p q := ⟨j 0, j 1, eq_ix2 j⟩
  refine (out3_3_apply (iblk3 V c 0 t) (iblk3 V c 1 t) (iblk3 V c 2 t) p q).trans ?_
  obtain ⟨-, -, -, -, -, -, e0, e1⟩ := block_idx3 t
  rw [View.read_apply]
  have hr : ((((cfg3.win 3).blk t).view.emb (ix2 p q) : S50000x128.Idx) 0).val = t.val * 2000 + p.val := by
    show win3_3.index t (0 : Fin 2) * 2000 + 1 * p.val = _; rw [e0]; omega
  have hq : ((((cfg3.win 3).blk t).view.emb (ix2 p q) : S50000x128.Idx) 1).val = q.val := by
    show win3_3.index t (1 : Fin 2) * 128 + 1 * q.val = _; rw [e1]; omega
  rw [agg_block3 V c t p q _ hr hq, scale_block3 V c t p (ix2 _ (0 : Fin 1)) hr, bias_block3 V c t q (ix2 (0 : Fin 1) _) hq]
  rfl

/-- An index of the output array is in point t's block iff each coordinate is in the block's range on its axis. -/
theorem mem_block3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v38).slice (win3_3.rect t)).set ↔ _
  rw [View.set_slice_whole, Rect.mem_set_unit]
  exact Iff.rfl

/-- Row r of the output lies in the block of point r / 2000, which is written back. -/
theorem covered3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨-, -, -, -, -, -, e0, e1⟩ := block_idx3 ⟨(i 0).val / 2000, ht⟩
  refine ⟨⟨(i 0).val / 2000, ht⟩, flush3_3 _, ?_⟩
  rw [mem_block3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val ∧ (i 1).val < win3_3.index ⟨(i 0).val / 2000, ht⟩ (1 : Fin 2) * 128 + 128
    rw [e1]; omega

/-- Region 3 (after the second aggregation): the same. -/
theorem post_final3 (c : Dev nD) :
    (dat3 (F := Ideal) V c).arrAt 3 cfg3.N = Cert.Spec.post (V c main_v36) (V c main_v12) (V c main_v37) :=
  (dat3 V c).arrAt_eq_of_cover 3 _ (fun t _ => flushed3_eq V c t) covered3

end Cert.KernelIdeal.PostK

end
-- ==== Proof.BnBridge.lean ====
/-
  Batch normalisation over the 128 graphs, the kernel's stretch against the reference's stages.

  Per column q: mean = (∑ᵣ e[r, q]) / 128, deviation d = e − mean, var = (∑ᵣ d[r, q]²) / 128, and the result is
  γ[q] · d[r, q] · (var[q] + ε)^(−1/2) + β[q]. The kernel sums down the rows by a lane reduction from the zero word and
  keeps the sums as a 1 × 128 row that it spreads back over the matrix; the reference sums with the host's reduce from a
  zero constant and spreads a length-128 vector through a row. At the ideal values both sums are the plain column sum,
  the two quotients and the two reciprocal square roots are one function each, and a row spread down the rows reads
  the same entry either way; so mean, deviations, variance and scaling factor agree in turn, and with them the result.
-/
import proofs.«400331_j77764677861850_1_alg».proof.Proof.Spec
import proofs.«400331_j77764677861850_1_alg».proof.Proof.HeadRef
import proofs.«400331_j77764677861850_1_alg».proof.Proof.LibRowOps
import proofs.«400331_j77764677861850_1_alg».proof.Proof.Gen.KernelIdeal.Skeleton
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.ValueIdx

namespace Bn

variable {R C : Nat} {α : Type} {φ : FTy}

/-! ## Sums down the rows, and a row spread over the matrix, read at an index -/

/-- The index over column q with row k inserted is (k, q). -/
theorem lift_col (h : (⟨2, ![R, C]⟩ : Shape).Reduces [0] ⟨1, ![C]⟩) (q : Fin C) (k : Fin R) :
    h.lift (ix1 q) k = ix2 k q := by
  funext a
  match a with
  | ⟨0, _⟩ => exact Fin.ext rfl
  | ⟨1, _⟩ => exact Fin.ext rfl

/-- A vector multi-reduction with an add body over axis 0, at column q: the column's sum. -/
theorem multiReduction_col (v : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ) (q : Fin C) :
    multiReduction .add [0] ⟨1, ![C]⟩ v acc h hφ hacc (ix1 q) = ∑ k : Fin R, v (ix2 k q) := by
  rw [Ideal.multiReduction_add_single]
  exact Finset.sum_congr rfl fun k _ => congrArg v (lift_col h q k)

/-- The host's reduce with an add body over axis 0 from the zero word, at column q: the column's sum. -/
theorem hostReduceAdd_col_zero {u : Shape} (x : FVec Ideal ⟨2, ![R, C]⟩ .f32)
    (h' : (⟨2, ![R, C]⟩ : Shape).ReducesTo [0] ⟨1, ![C]⟩) (hu : 0 < u.numel)
    (h : (⟨2, ![R, C]⟩ : Shape).Reduces [0] ⟨1, ![C]⟩) (q : Fin C) :
    Host.reduceAdd x (constant (F := Ideal) u .f32 0x00000000#32) h' hu (ix1 q) = ∑ k : Fin R, x (ix2 k q) := by
  unfold Host.reduceAdd
  rw [Ideal.hostReduceAdd_def, Ideal.hostReduceAdd_single h' h]
  show Ideal.ofBits .f32 0x00000000#32 + _ = _
  rw [Ideal.ofBits_zero_f32, zero_add]
  exact Finset.sum_congr rfl fun k _ => congrArg x (lift_col h q k)

/-- A length-C vector cast to 1 × C reads, at (z, q), the vector at q. -/
theorem shapeCast_row (u : (⟨1, ![C]⟩ : Shape).Idx → α) (h : (⟨1, ![C]⟩ : Shape).ShapeCasts ⟨2, ![1, C]⟩) (z : Fin 1) (q : Fin C) :
    shapeCast ⟨2, ![1, C]⟩ u h (ix2 z q) = u (ix1 q) :=
  shapeCast_apply u h _ _ (by
    have hz : z.val = 0 := by omega
    rw [Shape.rowMajor_val_two, Shape.rowMajor_val_one]
    show q.val = z.val * C + q.val
    rw [hz, Nat.zero_mul, Nat.zero_add])

/-- A 1 × C row broadcast to R × C reads, at (p, q), the row at q. -/
theorem broadcastTo_row (w : (⟨2, ![1, C]⟩ : Shape).Idx → α) (h : (⟨2, ![1, C]⟩ : Shape).Broadcasts ⟨2, ![R, C]⟩)
    (p : Fin R) (q : Fin C) : broadcastTo ⟨2, ![R, C]⟩ w h (ix2 p q) = w (ix2 (0 : Fin 1) q) := by
  refine broadcastTo_apply w h (ix2 p q) (ix2 (0 : Fin 1) q) fun ax => ?_
  match ax with
  | ⟨0, _⟩ => rfl
  | ⟨1, _⟩ =>
    show q.val = if C = 1 then 0 else q.val
    split
    · have := q.isLt; omega
    · rfl

/-! ## The two sides' rows and column means -/

/-- A length-128 vector laid out as a row and spread down the 128 rows is the host's two broadcasts of it: both read
    the vector at the column. -/
theorem broadcastTo_rowOf (v : FVec Ideal S128 .f32) (h : (⟨2, ![1, 128]⟩ : Shape).Broadcasts ⟨2, ![128, 128]⟩) :
    broadcastTo S128x128 (Cert.Spec.rowOf v) h = rows128 v := by
  funext i
  obtain ⟨p, q, rfl⟩ : ∃ (p : Fin 128) (q : Fin 128), i = ix2 p q := ⟨i 0, i 1, eq_ix2 i⟩
  rw [broadcastTo_row (Cert.Spec.rowOf v) h p q]
  show v (ix1 q) = broadcastInDim S128x128 ![0, 1] bcast_S1x128_S128x128_0_1
    (broadcastInDim S1x128 ![1] bcast_S128_S1x128_1 v) (ix2 p q)
  rw [Cert.LibRowOps.broadcastInDim_row_mat _ bcast_S1x128_S128x128_0_1 p q,
    Cert.LibRowOps.broadcastInDim_vec_row v bcast_S128_S1x128_1 (0 : Fin 1) q]

/-- The column means of a 128 × 128 array, the kernel's way and the host's: the lane sum down the rows from the zero
    word, kept as a row and divided by the word of 128, is the host's sum from the zero constant divided by the same
    word, laid out as a row. Both sums are the plain column sum, and the two quotients are one function. -/
theorem colMean_bridge (a : FVec Ideal S128x128 .f32) (hr : (⟨2, ![128, 128]⟩ : Shape).Reduces [0] ⟨1, ![128]⟩)
    (hφ : FKind.Formats .f32) (hacc : (0x00000000#32 : BitVec 32) = FKind.add.neutral .f32 hφ)
    (hc : (⟨1, ![128]⟩ : Shape).ShapeCasts ⟨2, ![1, 128]⟩) (w : BitVec 32) (c : Ideal .f32)
    (hw : c = FloatOps.ofBits .f32 w) :
    divf (shapeCast S1x128 (multiReduction .add [0] S128 a 0x00000000#32 hr hφ hacc) hc) (broadcast S1x128 c)
      = Cert.Spec.rowOf (Host.divf (Host.reduceAdd a (constant S_ .f32 0x00000000#32) reducesTo_S128x128_S128_d0 h_S_)
          (broadcastInDim S128 ![] bcast_S_S128 (constant S_ .f32 w))) := by
  subst hw
  funext i
  obtain ⟨z, q, rfl⟩ : ∃ (z : Fin 1) (q : Fin 128), i = ix2 z q := ⟨i 0, i 1, eq_ix2 i⟩
  show FloatOps.divf (shapeCast _ _ hc (ix2 z q)) (FloatOps.ofBits .f32 w)
    = FloatOps.hostDivf (Host.reduceAdd a _ reducesTo_S128x128_S128_d0 h_S_ (ix1 q))
        (broadcastInDim S128 ![] bcast_S_S128 (constant S_ .f32 w) (ix1 q))
  rw [shapeCast_row _ hc z q, multiReduction_col a _ hr hφ hacc q,
    hostReduceAdd_col_zero a reducesTo_S128x128_S128_d0 h_S_ hr q, Cert.LibRowOps.broadcastInDim_scalar]
  rfl

/-- The deviations: the array less its column means spread down the rows, the kernel's way, is the host's. -/
theorem centered_bridge (e : FVec Ideal S128x128 .f32) (hr : (⟨2, ![128, 128]⟩ : Shape).Reduces [0] ⟨1, ![128]⟩)
    (hφ : FKind.Formats .f32) (hacc : (0x00000000#32 : BitVec 32) = FKind.add.neutral .f32 hφ)
    (hc : (⟨1, ![128]⟩ : Shape).ShapeCasts ⟨2, ![1, 128]⟩) (hb : (⟨2, ![1, 128]⟩ : Shape).Broadcasts ⟨2, ![128, 128]⟩)
    (c : Ideal .f32) (hw : c = FloatOps.ofBits .f32 0x43000000#32) :
    subf e (broadcastTo S128x128
        (divf (shapeCast S1x128 (multiReduction .add [0] S128 e 0x00000000#32 hr hφ hacc) hc) (broadcast S1x128 c)) hb)
      = bnCentered e := by
  rw [colMean_bridge e hr hφ hacc hc 0x43000000#32 c hw, broadcastTo_rowOf _ hb]
  rfl

/-- The variances: the column means of the squared deviations, the kernel's way, are the host's, laid out as a row. -/
theorem var_bridge (e : FVec Ideal S128x128 .f32) (hr : (⟨2, ![128, 128]⟩ : Shape).Reduces [0] ⟨1, ![128]⟩)
    (hφ : FKind.Formats .f32) (hacc : (0x00000000#32 : BitVec 32) = FKind.add.neutral .f32 hφ)
    (hc : (⟨1, ![128]⟩ : Shape).ShapeCasts ⟨2, ![1, 128]⟩) (hb : (⟨2, ![1, 128]⟩ : Shape).Broadcasts ⟨2, ![128, 128]⟩)
    (c : Ideal .f32) (hw : c = FloatOps.ofBits .f32 0x43000000#32) :
    divf (shapeCast S1x128 (multiReduction .add [0] S128
          (mulf
            (subf e (broadcastTo S128x128
              (divf (shapeCast S1x128 (multiReduction .add [0] S128 e 0x00000000#32 hr hφ hacc) hc) (broadcast S1x128 c)) hb))
            (subf e (broadcastTo S128x128
              (divf (shapeCast S1x128 (multiReduction .add [0] S128 e 0x00000000#32 hr hφ hacc) hc) (broadcast S1x128 c)) hb)))
          0x00000000#32 hr hφ hacc) hc)
        (broadcast S1x128 c)
      = Cert.Spec.rowOf (bnVar e) := by
  rw [centered_bridge e hr hφ hacc hc hb c hw]
  exact colMean_bridge (mulf (bnCentered e) (bnCentered e)) hr hφ hacc hc 0x43000000#32 c hw

/-- The reciprocal square root of a row plus a splat word, the kernel's way, is the host's on the vector plus the
    broadcast constant, laid out as a row: entry by entry the same sum under the same function. -/
theorem rsqrt_row (v : FVec Ideal S128 .f32) (w : BitVec 32) (c : Ideal .f32) (hw : c = FloatOps.ofBits .f32 w) :
    rsqrt (addf (Cert.Spec.rowOf v) (broadcast S1x128 c))
      = Cert.Spec.rowOf (Host.rsqrt (addf v (broadcastInDim S128 ![] bcast_S_S128 (constant S_ .f32 w)))) := by
  subst hw
  funext i
  show FloatOps.rsqrt (FloatOps.addf (v (ix1 (i 1))) (FloatOps.ofBits .f32 w))
    = FloatOps.hostUnary .rsqrt (FloatOps.addf (v (ix1 (i 1)))
        (broadcastInDim S128 ![] bcast_S_S128 (constant S_ .f32 w) (ix1 (i 1))))
  rw [Cert.LibRowOps.broadcastInDim_scalar]
  rfl

/-- The scaling factor: the reciprocal square root of variance plus ε, spread down the rows, the kernel's way, is the
    host's. -/
theorem scale_bridge (e : FVec Ideal S128x128 .f32) (hr : (⟨2, ![128, 128]⟩ : Shape).Reduces [0] ⟨1, ![128]⟩)
    (hφ : FKind.Formats .f32) (hacc : (0x00000000#32 : BitVec 32) = FKind.add.neutral .f32 hφ)
    (hc : (⟨1, ![128]⟩ : Shape).ShapeCasts ⟨2, ![1, 128]⟩) (hb : (⟨2, ![1, 128]⟩ : Shape).Broadcasts ⟨2, ![128, 128]⟩)
    (c : Ideal .f32) (hw : c = FloatOps.ofBits .f32 0x43000000#32)
    (c' : Ideal .f32) (hw' : c' = FloatOps.ofBits .f32 0x3727C5AC#32) :
    broadcastTo S128x128
        (rsqrt (addf
          (divf (shapeCast S1x128 (multiReduction .add [0] S128
              (mulf
                (subf e (broadcastTo S128x128
                  (divf (shapeCast S1x128 (multiReduction .add [0] S128 e 0x00000000#32 hr hφ hacc) hc) (broadcast S1x128 c)) hb))
                (subf e (broadcastTo S128x128
                  (divf (shapeCast S1x128 (multiReduction .add [0] S128 e 0x00000000#32 hr hφ hacc) hc) (broadcast S1x128 c)) hb)))
              0x00000000#32 hr hφ hacc) hc)
            (broadcast S1x128 c))
          (broadcast S1x128 c'))) hb
      = rows128 (Host.rsqrt (addf (bnVar e) (broadcastInDim S128 ![] bcast_S_S128 (constant S_ .f32 0x3727C5AC#32)))) := by
  rw [var_bridge e hr hφ hacc hc hb c hw, rsqrt_row (bnVar e) 0x3727C5AC#32 c' hw', broadcastTo_rowOf _ hb]

end Bn

/-- The kernel's batch-normalisation stretch on the pooled embedding v0 (128 graphs × 128 columns) with the scale row v13 and
    the shift row v24 (each 1 × 128): the column sums (a lane reduction over axis 0 from the zero word) divided by 128, the
    deviations, their squares' column sums divided by 128, ε added, the reciprocal square root, and scale · deviation ·
    that + shift — the operations of the kernel body, in its own shapes. -/
def bnK {F : FTy → Type} [FloatOps F] (v0 : Vec F Cert.KernelIdeal.S128x128 .f32) (v13 : Vec F Cert.KernelIdeal.S1x128 .f32) (v24 : Vec F Cert.KernelIdeal.S1x128 .f32) : FVec F Cert.KernelIdeal.S128x128 .f32 :=
  have v1 : FVec F Cert.KernelIdeal.S128x128 .f32 := shapeCast Cert.KernelIdeal.S128x128 v0 Cert.KernelIdeal.Gen.shapeCasts_S128x128_S128x128
  have v2 : FVec F Cert.KernelIdeal.S128 .f32 := multiReduction .add [0] Cert.KernelIdeal.S128 v1 0x00000000#32 Cert.KernelIdeal.Gen.reduces_S128x128_S128 (.inl rfl) rfl
  have v3 : FVec F Cert.KernelIdeal.S1x128 .f32 := shapeCast Cert.KernelIdeal.S1x128 v2 Cert.KernelIdeal.Gen.shapeCasts_S128_S1x128
  have cst_1 : F .f32 := Scalar.ofBits .f32 0x43000000#32
  have v4 : FVec F Cert.KernelIdeal.S1x128 .f32 := broadcast Cert.KernelIdeal.S1x128 cst_1
  have v5 : FVec F Cert.KernelIdeal.S1x128 .f32 := divf v3 v4
  have v6 : FVec F Cert.KernelIdeal.S128x128 .f32 := broadcastTo Cert.KernelIdeal.S128x128 v5 Cert.KernelIdeal.Gen.broadcasts_S1x128_S128x128
  have v7 : FVec F Cert.KernelIdeal.S128x128 .f32 := subf v1 v6
  have v8 : FVec F Cert.KernelIdeal.S128x128 .f32 := mulf v7 v7
  have v9 : FVec F Cert.KernelIdeal.S128 .f32 := multiReduction .add [0] Cert.KernelIdeal.S128 v8 0x00000000#32 Cert.KernelIdeal.Gen.reduces_S128x128_S128 (.inl rfl) rfl
  have v10 : FVec F Cert.KernelIdeal.S1x128 .f32 := shapeCast Cert.KernelIdeal.S1x128 v9 Cert.KernelIdeal.Gen.shapeCasts_S128_S1x128
  have cst_3 : F .f32 := Scalar.ofBits .f32 0x43000000#32
  have v11 : FVec F Cert.KernelIdeal.S1x128 .f32 := broadcast Cert.KernelIdeal.S1x128 cst_3
  have v12 : FVec F Cert.KernelIdeal.S1x128 .f32 := divf v10 v11
  have v14 : FVec F Cert.KernelIdeal.S1x128 .f32 := shapeCast Cert.KernelIdeal.S1x128 v13 Cert.KernelIdeal.Gen.shapeCasts_S1x128_S1x128
  have v15 : FVec F Cert.KernelIdeal.S128x128 .f32 := broadcastTo Cert.KernelIdeal.S128x128 v5 Cert.KernelIdeal.Gen.broadcasts_S1x128_S128x128
  have v16 : FVec F Cert.KernelIdeal.S128x128 .f32 := subf v1 v15
  have v17 : FVec F Cert.KernelIdeal.S128x128 .f32 := broadcastTo Cert.KernelIdeal.S128x128 v14 Cert.KernelIdeal.Gen.broadcasts_S1x128_S128x128
  have v18 : FVec F Cert.KernelIdeal.S128x128 .f32 := mulf v17 v16
  have cst_6 : F .f32 := Scalar.ofBits .f32 0x3727C5AC#32
  have v19 : FVec F Cert.KernelIdeal.S1x128 .f32 := broadcast Cert.KernelIdeal.S1x128 cst_6
  have v20 : FVec F Cert.KernelIdeal.S1x128 .f32 := addf v12 v19
  have v21 : FVec F Cert.KernelIdeal.S1x128 .f32 := rsqrt v20
  have v22 : FVec F Cert.KernelIdeal.S128x128 .f32 := broadcastTo Cert.KernelIdeal.S128x128 v21 Cert.KernelIdeal.Gen.broadcasts_S1x128_S128x128
  have v23 : FVec F Cert.KernelIdeal.S128x128 .f32 := mulf v18 v22
  have v25 : FVec F Cert.KernelIdeal.S1x128 .f32 := shapeCast Cert.KernelIdeal.S1x128 v24 Cert.KernelIdeal.Gen.shapeCasts_S1x128_S1x128
  have v26 : FVec F Cert.KernelIdeal.S128x128 .f32 := broadcastTo Cert.KernelIdeal.S128x128 v25 Cert.KernelIdeal.Gen.broadcasts_S1x128_S128x128
  addf v23 v26

/-- At the ideal values the kernel's batch-normalisation stretch, its scale and shift rows the vectors γ and β laid out as
    rows, is the reference's: the lane sums over the graphs are the host's sums, the quotients by 128 and the reciprocal
    square roots one function on each side, the row and column broadcasts the same entries. -/
theorem bn_bridge (e : FVec Ideal S128x128 .f32) (γ β : FVec Ideal S128 .f32) :
    bnK (F := Ideal) e (Cert.Spec.rowOf γ) (Cert.Spec.rowOf β) = bnOut e γ β := by
  unfold bnK
  simp only [shapeCast_self]
  unfold bnOut
  -- both sides are (scale row · deviations) · factor + shift row: the four pieces agree one by one
  refine congrArg₂ addf (congrArg₂ mulf (congrArg₂ mulf ?_ ?_) ?_) ?_
  · exact Bn.broadcastTo_rowOf γ _
  · exact Bn.centered_bridge e _ _ _ _ _ _ rfl
  · exact Bn.scale_bridge e _ _ _ _ _ _ rfl _ rfl
  · exact Bn.broadcastTo_rowOf β _

end Cert.ReferenceIdeal.RefSide

end
-- ==== Proof.KChain1.lean ====
/-
  The kernel program's buffers up to the end of the first layer. The host stretches before region 0 count the edges
  per source and per destination node (ones scatter-added at the edge-end words), cut the counts below at 1 and take
  reciprocal square roots: the two degree-scale columns. Region 0 projects the input by the source scale and the first
  weights; the stretch after it aggregates the projected rows over the edges and lays the bias out as a row; region 1
  scales by the destination scale, adds the bias and cuts at zero. A buffer a stretch or a region does not write keeps
  its contents, so each operand is read back to the launch arguments, and the result is the model's layer of them.
-/
import proofs.«400331_j77764677861850_1_alg».proof.Proof.KTools
import proofs.«400331_j77764677861850_1_alg».proof.Proof.Model
import proofs.«400331_j77764677861850_1_alg».proof.Proof.LibRowOps
import proofs.«400331_j77764677861850_1_alg».proof.Proof.ProjK
import proofs.«400331_j77764677861850_1_alg».proof.Proof.PostK
import proofs.«400331_j77764677861850_1_alg».proof.Proof.BnBridge

set_option maxRecDepth 16384

noncomputable section

namespace Cert.KernelIdeal.Chain

open Idealize.ShloMosaic Idealize.ShloMosaic.TcCoe Idealize.SL.Sem Cert.KernelIdeal Cert.KernelIdeal.Gen Idealize.ShloMosaic.StableHlo
open Idealize.ShloMosaic.ValueIdx

namespace L1

/-! ## What each host stretch leaves, at any contents on entry -/

section Stretches
variable (W : Valuation τ sig (Elt Ideal))

/-- The first stretch leaves the ones vector over the edges, -/
theorem s0_v0 : after hostOps0 W (Proc.devRef .tc main_v0)
    = (broadcastInDim S800000 ![] bcast_S_S800000 (constant (F := Ideal) S_ .f32 0x3F800000#32) : FVec Ideal S800000 .f32) := by
  dsimp only [hostOps0]; after_results <;> rfl

/-- the scalar one the first cut below reads, -/
theorem s0_cst1 : after hostOps0 W (Proc.devRef .tc main_cst_1) = (constant (F := Ideal) S_ .f32 0x3F800000#32 : FVec Ideal S_ .f32) := by
  dsimp only [hostOps0]; after_results <;> rfl

/-- and the count of edges per source node: ones scatter-added at the source words onto zeros. -/
theorem s0_v3 : after hostOps0 W (Proc.devRef .tc main_v3)
    = (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (W (Proc.devRef .tc main_arg1) : IVec S800000 32))
        (broadcastInDim S800000 ![] bcast_S_S800000 (constant (F := Ideal) S_ .f32 0x3F800000#32)) : FVec Ideal S50000 .f32) := by
  dsimp only [hostOps0]; after_results <;> rfl

/-- The first cut below: the larger of the scalar spread over the nodes and the count. -/
theorem s01_v4 : after hostOps0_1 W (Proc.devRef .tc main_v4)
    = (maximumf (F := Ideal) (broadcastInDim S50000 ![] bcast_S_S50000 (id (W (Proc.devRef .tc main_cst_1) : FVec Ideal S_ .f32)))
        (W (Proc.devRef .tc main_v3) : FVec Ideal S50000 .f32) : FVec Ideal S50000 .f32) := by
  dsimp only [hostOps0_1]; after_results <;> rfl

/-- The third stretch leaves the count of edges per destination node: the ones vector scatter-added at the destination words, -/
theorem s02_v7 : after hostOps0_2 W (Proc.devRef .tc main_v7)
    = (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (W (Proc.devRef .tc main_arg2) : IVec S800000 32))
        (W (Proc.devRef .tc main_v0) : FVec Ideal S800000 .f32) : FVec Ideal S50000 .f32) := by
  dsimp only [hostOps0_2]; after_results <;> rfl

/-- and the scalar one the second cut below reads. -/
theorem s02_cst3 : after hostOps0_2 W (Proc.devRef .tc main_cst_3) = (constant (F := Ideal) S_ .f32 0x3F800000#32 : FVec Ideal S_ .f32) := by
  dsimp only [hostOps0_2]; after_results <;> rfl

/-- The second cut below. -/
theorem s03_v8 : after hostOps0_3 W (Proc.devRef .tc main_v8)
    = (maximumf (F := Ideal) (broadcastInDim S50000 ![] bcast_S_S50000 (id (W (Proc.devRef .tc main_cst_3) : FVec Ideal S_ .f32)))
        (W (Proc.devRef .tc main_v7) : FVec Ideal S50000 .f32) : FVec Ideal S50000 .f32) := by
  dsimp only [hostOps0_3]; after_results <;> rfl

/-- The two scale columns: the reciprocal square roots of the cut counts, each kept as a column. -/
theorem s04_v10 : after hostOps0_4 W (Proc.devRef .tc main_v10)
    = (shapeCast S50000x1 (Host.rsqrt (F := Ideal) (W (Proc.devRef .tc main_v4) : FVec Ideal S50000 .f32)) shapeCasts_S50000_S50000x1 : FVec Ideal S50000x1 .f32) := by
  dsimp only [hostOps0_4]; after_results <;> rfl

theorem s04_v12 : after hostOps0_4 W (Proc.devRef .tc main_v12)
    = (shapeCast S50000x1 (Host.rsqrt (F := Ideal) (W (Proc.devRef .tc main_v8) : FVec Ideal S50000 .f32)) shapeCasts_S50000_S50000x1 : FVec Ideal S50000x1 .f32) := by
  dsimp only [hostOps0_4]; after_results <;> rfl

/-- The stretch between the first layer's two regions aggregates the projected rows over the edges, -/
theorem s1_v23 : after hostOps1 W (Proc.devRef .tc main_v23)
    = Cert.Model.agg (W (Proc.devRef .tc main_v13) : FVec Ideal S50000x128 .f32) (W (Proc.devRef .tc main_arg1) : IVec S800000 32)
        (W (Proc.devRef .tc main_arg2) : IVec S800000 32) := by
  dsimp only [hostOps1]; after_results <;> rfl

/-- and keeps the bias as a row. -/
theorem s1_v24 : after hostOps1 W (Proc.devRef .tc main_v24)
    = (shapeCast S1x128 (W (Proc.devRef .tc main_arg5) : FVec Ideal S128 .f32) shapeCasts_S128_S1x128 : FVec Ideal S1x128 .f32) := by
  dsimp only [hostOps1]; after_results <;> rfl

end Stretches

/-! ## The stretches' terms as the model's -/

/-- The degree scale as the stretches spell it is the model's. -/
theorem degScale_eq (w : IVec S800000 32) :
    Host.rsqrt (F := Ideal) (maximumf (F := Ideal)
      (broadcastInDim S50000 ![] bcast_S_S50000 (id (constant (F := Ideal) S_ .f32 0x3F800000#32) : FVec Ideal S_ .f32))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 w)
        (broadcastInDim S800000 ![] bcast_S_S800000 (constant (F := Ideal) S_ .f32 0x3F800000#32))))
      = Cert.Model.degScale w := rfl

/-- A per-node vector cast to 50000 × 1 is the vector laid out as a column. -/
theorem col_eq (v : FVec Ideal S50000 .f32) :
    (shapeCast S50000x1 v shapeCasts_S50000_S50000x1 : FVec Ideal S50000x1 .f32) = Cert.Spec.colOf v := by
  funext i
  obtain ⟨p, z, rfl⟩ : ∃ (p : Fin 50000) (z : Fin 1), i = ix2 p z := ⟨i 0, i 1, eq_ix2 i⟩
  exact Cert.LibRowOps.shapeCast_col (R := 50000) v shapeCasts_S50000_S50000x1 p z

/-- A length-128 vector cast to 1 × 128 is the vector laid out as a row. -/
theorem row_eq (b : FVec Ideal S128 .f32) :
    (shapeCast S1x128 b shapeCasts_S128_S1x128 : FVec Ideal S1x128 .f32) = Cert.Spec.rowOf b := by
  funext i
  obtain ⟨z, q, rfl⟩ : ∃ (z : Fin 1) (q : Fin 128), i = ix2 z q := ⟨i 0, i 1, eq_ix2 i⟩
  exact Cert.ReferenceIdeal.RefSide.Bn.shapeCast_row (C := 128) b shapeCasts_S128_S1x128 z q

end L1

/-! ## The fold, boundary by boundary -/

variable (m : (ℓ : Loc nD τ sig) → Buf (Elt Ideal) ℓ) (ρ : Dev nD → PrngReg)

namespace L1

/-- A buffer none of the five stretches before region 0 writes holds its launch contents at region 0's entry. -/
theorem W5_launch (c : Dev nD) (b : Ref sig .tc)
    (h0 : after hostOps0 (W0 m ρ c) (Proc.devRef .tc b) = W0 m ρ c (Proc.devRef .tc b))
    (h1 : after hostOps0_1 (W1 m ρ c) (Proc.devRef .tc b) = W1 m ρ c (Proc.devRef .tc b))
    (h2 : after hostOps0_2 (W2 m ρ c) (Proc.devRef .tc b) = W2 m ρ c (Proc.devRef .tc b))
    (h3 : after hostOps0_3 (W3 m ρ c) (Proc.devRef .tc b) = W3 m ρ c (Proc.devRef .tc b))
    (h4 : after hostOps0_4 (W4 m ρ c) (Proc.devRef .tc b) = W4 m ρ c (Proc.devRef .tc b)) :
    W5 m ρ c (Proc.devRef .tc b) = m ((c : Thread nD τ).loc b) :=
  h4.trans (h3.trans (h2.trans (h1.trans h0)))

theorem W5_arg0 (c : Dev nD) : W5 m ρ c (Proc.devRef .tc main_arg0) = m ((c : Thread nD τ).loc main_arg0) :=
  W5_launch m ρ c main_arg0 (by host_kept) (by host_kept) (by host_kept) (by host_kept) (by host_kept)
theorem W5_arg4 (c : Dev nD) : W5 m ρ c (Proc.devRef .tc main_arg4) = m ((c : Thread nD τ).loc main_arg4) :=
  W5_launch m ρ c main_arg4 (by host_kept) (by host_kept) (by host_kept) (by host_kept) (by host_kept)
/-- The edge-end words and the bias are none of region 0's arrays either. -/
theorem W6_arg1 (c : Dev nD) : W6 m ρ c (Proc.devRef .tc main_arg1) = m ((c : Thread nD τ).loc main_arg1) :=
  (W6_of_ne m ρ c main_arg1 (by decide)).trans
    (W5_launch m ρ c main_arg1 (by host_kept) (by host_kept) (by host_kept) (by host_kept) (by host_kept))
theorem W6_arg2 (c : Dev nD) : W6 m ρ c (Proc.devRef .tc main_arg2) = m ((c : Thread nD τ).loc main_arg2) :=
  (W6_of_ne m ρ c main_arg2 (by decide)).trans
    (W5_launch m ρ c main_arg2 (by host_kept) (by host_kept) (by host_kept) (by host_kept) (by host_kept))
theorem W6_arg5 (c : Dev nD) : W6 m ρ c (Proc.devRef .tc main_arg5) = m ((c : Thread nD τ).loc main_arg5) :=
  (W6_of_ne m ρ c main_arg5 (by decide)).trans
    (W5_launch m ρ c main_arg5 (by host_kept) (by host_kept) (by host_kept) (by host_kept) (by host_kept))

/-- The cut count of edges per source node, after the first two stretches. -/
theorem W2_v4 (c : Dev nD) : W2 m ρ c (Proc.devRef .tc main_v4)
    = (maximumf (F := Ideal)
        (broadcastInDim S50000 ![] bcast_S_S50000 (id (constant (F := Ideal) S_ .f32 0x3F800000#32) : FVec Ideal S_ .f32))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (m ((c : Thread nD τ).loc main_arg1) : IVec S800000 32))
          (broadcastInDim S800000 ![] bcast_S_S800000 (constant (F := Ideal) S_ .f32 0x3F800000#32))) : FVec Ideal S50000 .f32) := by
  refine (s01_v4 (W1 m ρ c)).trans ?_
  rw [show W1 m ρ c (Proc.devRef .tc main_cst_1) = _ from s0_cst1 (W0 m ρ c),
    show W1 m ρ c (Proc.devRef .tc main_v3) = _ from s0_v3 (W0 m ρ c)]

/-- The source scale column at region 0's entry: the third and fourth stretches leave the cut count alone. -/
theorem W5_v10 (c : Dev nD) : W5 m ρ c (Proc.devRef .tc main_v10)
    = Cert.Spec.colOf (Cert.Model.degScale (m ((c : Thread nD τ).loc main_arg1))) := by
  refine (s04_v10 (W4 m ρ c)).trans ?_
  have e : W4 m ρ c (Proc.devRef .tc main_v4) = W2 m ρ c (Proc.devRef .tc main_v4) :=
    (by host_kept : W4 m ρ c (Proc.devRef .tc main_v4) = W3 m ρ c (Proc.devRef .tc main_v4)).trans
      (by host_kept : W3 m ρ c (Proc.devRef .tc main_v4) = W2 m ρ c (Proc.devRef .tc main_v4))
  rw [e, W2_v4 m ρ c, degScale_eq, col_eq]

/-- The ones vector and the destination words as the third stretch finds them: the second stretch writes neither. -/
theorem W2_v0 (c : Dev nD) : W2 m ρ c (Proc.devRef .tc main_v0)
    = (broadcastInDim S800000 ![] bcast_S_S800000 (constant (F := Ideal) S_ .f32 0x3F800000#32) : FVec Ideal S800000 .f32) :=
  (by host_kept : W2 m ρ c (Proc.devRef .tc main_v0) = W1 m ρ c (Proc.devRef .tc main_v0)).trans (s0_v0 (W0 m ρ c))
theorem W2_arg2 (c : Dev nD) : W2 m ρ c (Proc.devRef .tc main_arg2) = m ((c : Thread nD τ).loc main_arg2) :=
  (by host_kept : W2 m ρ c (Proc.devRef .tc main_arg2) = W1 m ρ c (Proc.devRef .tc main_arg2)).trans
    (by host_kept : W1 m ρ c (Proc.devRef .tc main_arg2) = W0 m ρ c (Proc.devRef .tc main_arg2))

/-- The cut count of edges per destination node, after the fourth stretch. -/
theorem W4_v8 (c : Dev nD) : W4 m ρ c (Proc.devRef .tc main_v8)
    = (maximumf (F := Ideal)
        (broadcastInDim S50000 ![] bcast_S_S50000 (id (constant (F := Ideal) S_ .f32 0x3F800000#32) : FVec Ideal S_ .f32))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (m ((c : Thread nD τ).loc main_arg2) : IVec S800000 32))
          (broadcastInDim S800000 ![] bcast_S_S800000 (constant (F := Ideal) S_ .f32 0x3F800000#32))) : FVec Ideal S50000 .f32) := by
  refine (s03_v8 (W3 m ρ c)).trans ?_
  rw [show W3 m ρ c (Proc.devRef .tc main_cst_3) = _ from s02_cst3 (W2 m ρ c),
    show W3 m ρ c (Proc.devRef .tc main_v7) = _ from s02_v7 (W2 m ρ c), W2_v0 m ρ c, W2_arg2 m ρ c]

/-- The destination scale column at region 0's entry. -/
theorem W5_v12 (c : Dev nD) : W5 m ρ c (Proc.devRef .tc main_v12)
    = Cert.Spec.colOf (Cert.Model.degScale (m ((c : Thread nD τ).loc main_arg2))) := by
  refine (s04_v12 (W4 m ρ c)).trans ?_
  rw [W4_v8 m ρ c, degScale_eq, col_eq]

/-- Region 0 leaves the projection of the input by the source scale and the first weights. -/
theorem W6_v13 (c : Dev nD) : W6 m ρ c (Proc.devRef .tc main_v13)
    = Cert.Spec.proj (m ((c : Thread nD τ).loc main_arg0)) (Cert.Spec.colOf (Cert.Model.degScale (m ((c : Thread nD τ).loc main_arg1))))
        (m ((c : Thread nD τ).loc main_arg4)) := by
  refine (W6_arr m ρ c 3).trans ?_
  refine (Cert.KernelIdeal.ProjK.proj_final0 (V5 m ρ) c).trans ?_
  show Cert.Spec.proj (W5 m ρ c (Proc.devRef .tc main_arg0)) (W5 m ρ c (Proc.devRef .tc main_v10)) (W5 m ρ c (Proc.devRef .tc main_arg4)) = _
  rw [W5_arg0 m ρ c, W5_v10 m ρ c, W5_arg4 m ρ c]

/-- The destination scale column at region 1's entry: neither the stretch before it nor region 0 writes it. -/
theorem W7_v12 (c : Dev nD) : W7 m ρ c (Proc.devRef .tc main_v12)
    = Cert.Spec.colOf (Cert.Model.degScale (m ((c : Thread nD τ).loc main_arg2))) :=
  (by host_kept : W7 m ρ c (Proc.devRef .tc main_v12) = W6 m ρ c (Proc.devRef .tc main_v12)).trans
    ((W6_of_ne m ρ c main_v12 (by decide)).trans (W5_v12 m ρ c))
/-- After the first layer's two regions the buffer of its result holds the model's layer of the arguments. -/
theorem W8_v25 (c : Dev nD) :
    W8 m ρ c (Proc.devRef .tc main_v25) = Cert.Model.layer (m ((c : Thread nD τ).loc main_arg0)) (m ((c : Thread nD τ).loc main_arg4)) (m ((c : Thread nD τ).loc main_arg5)) (m ((c : Thread nD τ).loc main_arg1)) (m ((c : Thread nD τ).loc main_arg2)) := by
  refine (W8_arr m ρ c 3).trans ?_
  refine (Cert.KernelIdeal.PostK.post_final1 (V7 m ρ) c).trans ?_
  show Cert.Spec.post (W7 m ρ c (Proc.devRef .tc main_v23)) (W7 m ρ c (Proc.devRef .tc main_v12)) (W7 m ρ c (Proc.devRef .tc main_v24)) = _
  rw [show W7 m ρ c (Proc.devRef .tc main_v23) = _ from s1_v23 (W6 m ρ c),
    show W7 m ρ c (Proc.devRef .tc main_v24) = _ from s1_v24 (W6 m ρ c), W7_v12 m ρ c,
    W6_v13 m ρ c, W6_arg1 m ρ c, W6_arg2 m ρ c, W6_arg5 m ρ c, row_eq]
  rfl

end L1

end Cert.KernelIdeal.Chain

end
-- ==== Proof.KChain2.lean ====
/-
  The second graph-convolution layer, read off the kernel program's buffers between its regions.
  Region 2 leaves the projection of the first layer's result (its rows scaled by the out-degree factor, times the
  weights); the host stretch after it gathers those rows at the source words and scatter-adds them at the destination
  words, and lays the bias out as a row; region 3 scales by the in-degree factor, adds the bias and cuts at zero. The two
  degree factors were made before region 0 (ones scatter-added per edge end, cut below at 1, reciprocal square root, kept
  as columns) and no later stretch or region writes them; the arguments are written by nothing. Each step is read at
  its own boundary and the steps are chained: the result buffer holds the model's layer of the first layer's result.
-/
import proofs.«400331_j77764677861850_1_alg».proof.Proof.KTools
import proofs.«400331_j77764677861850_1_alg».proof.Proof.Model
import proofs.«400331_j77764677861850_1_alg».proof.Proof.LibRowOps
import proofs.«400331_j77764677861850_1_alg».proof.Proof.ProjK
import proofs.«400331_j77764677861850_1_alg».proof.Proof.PostK

set_option maxRecDepth 16384

noncomputable section

namespace Cert.KernelIdeal.Chain

open Idealize.ShloMosaic Idealize.ShloMosaic.TcCoe Idealize.SL.Sem Cert.KernelIdeal Cert.KernelIdeal.Gen Idealize.ShloMosaic.StableHlo
open Idealize.ShloMosaic.ValueIdx

variable (m : (ℓ : Loc nD τ sig) → Buf (Elt Ideal) ℓ) (ρ : Dev nD → PrngReg)

namespace L2

/-! ## What each host stretch leaves in the buffers it writes, from any contents before it -/

theorem s04_v10 (W : Valuation τ sig (Elt Ideal)) :
    after hostOps0_4 W (Proc.devRef .tc main_v10) = (shapeCast S50000x1 (Host.rsqrt (F := Ideal) (W (Proc.devRef .tc main_v4) : FVec Ideal S50000 .f32)) shapeCasts_S50000_S50000x1 : FVec Ideal S50000x1 .f32) := by
  dsimp only [hostOps0_4]; after_results <;> rfl

theorem s04_v12 (W : Valuation τ sig (Elt Ideal)) :
    after hostOps0_4 W (Proc.devRef .tc main_v12) = (shapeCast S50000x1 (Host.rsqrt (F := Ideal) (W (Proc.devRef .tc main_v8) : FVec Ideal S50000 .f32)) shapeCasts_S50000_S50000x1 : FVec Ideal S50000x1 .f32) := by
  dsimp only [hostOps0_4]; after_results <;> rfl

theorem s03_v8 (W : Valuation τ sig (Elt Ideal)) :
    after hostOps0_3 W (Proc.devRef .tc main_v8) = (maximumf (F := Ideal) (broadcastInDim S50000 ![] bcast_S_S50000 (id (W (Proc.devRef .tc main_cst_3) : FVec Ideal S_ .f32))) (W (Proc.devRef .tc main_v7) : FVec Ideal S50000 .f32) : FVec Ideal S50000 .f32) := by
  dsimp only [hostOps0_3]; after_results <;> rfl

theorem s01_v4 (W : Valuation τ sig (Elt Ideal)) :
    after hostOps0_1 W (Proc.devRef .tc main_v4) = (maximumf (F := Ideal) (broadcastInDim S50000 ![] bcast_S_S50000 (id (W (Proc.devRef .tc main_cst_1) : FVec Ideal S_ .f32))) (W (Proc.devRef .tc main_v3) : FVec Ideal S50000 .f32) : FVec Ideal S50000 .f32) := by
  dsimp only [hostOps0_1]; after_results <;> rfl

theorem s02_v7 (W : Valuation τ sig (Elt Ideal)) :
    after hostOps0_2 W (Proc.devRef .tc main_v7) = (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (W (Proc.devRef .tc main_arg2) : IVec S800000 32))
        (W (Proc.devRef .tc main_v0) : FVec Ideal S800000 .f32) : FVec Ideal S50000 .f32) := by
  dsimp only [hostOps0_2]; after_results <;> rfl

theorem s02_cst3 (W : Valuation τ sig (Elt Ideal)) :
    after hostOps0_2 W (Proc.devRef .tc main_cst_3) = (constant (F := Ideal) S_ .f32 0x3F800000#32 : FVec Ideal S_ .f32) := by
  dsimp only [hostOps0_2]; after_results <;> rfl

theorem s00_v0 (W : Valuation τ sig (Elt Ideal)) :
    after hostOps0 W (Proc.devRef .tc main_v0) = (broadcastInDim S800000 ![] bcast_S_S800000 (constant (F := Ideal) S_ .f32 0x3F800000#32) : FVec Ideal S800000 .f32) := by
  dsimp only [hostOps0]; after_results <;> rfl

theorem s00_v3 (W : Valuation τ sig (Elt Ideal)) :
    after hostOps0 W (Proc.devRef .tc main_v3) = (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (W (Proc.devRef .tc main_arg1) : IVec S800000 32))
        (broadcastInDim S800000 ![] bcast_S_S800000 (constant (F := Ideal) S_ .f32 0x3F800000#32)) : FVec Ideal S50000 .f32) := by
  dsimp only [hostOps0]; after_results <;> rfl

theorem s00_cst1 (W : Valuation τ sig (Elt Ideal)) :
    after hostOps0 W (Proc.devRef .tc main_cst_1) = (constant (F := Ideal) S_ .f32 0x3F800000#32 : FVec Ideal S_ .f32) := by
  dsimp only [hostOps0]; after_results <;> rfl

theorem s3_v36 (W : Valuation τ sig (Elt Ideal)) :
    after hostOps3 W (Proc.devRef .tc main_v36) = Cert.Model.agg (W (Proc.devRef .tc main_v26) : FVec Ideal S50000x128 .f32)
      (W (Proc.devRef .tc main_arg1) : IVec S800000 32) (W (Proc.devRef .tc main_arg2) : IVec S800000 32) := by
  dsimp only [hostOps3]; after_results <;> rfl

theorem s3_v37 (W : Valuation τ sig (Elt Ideal)) :
    after hostOps3 W (Proc.devRef .tc main_v37) = (shapeCast S1x128 (W (Proc.devRef .tc main_arg7) : FVec Ideal S128 .f32) shapeCasts_S128_S1x128 : FVec Ideal S1x128 .f32) := by
  dsimp only [hostOps3]; after_results <;> rfl

/-! ## Layouts: a vector kept as a column or as a row -/

/-- A length-50000 vector cast to 50000 × 1 is the vector laid out as a column. -/
theorem shapeCast_colOf (u : FVec Ideal S50000 .f32) (h : S50000.ShapeCasts S50000x1) :
    (shapeCast S50000x1 u h : FVec Ideal S50000x1 .f32) = Cert.Spec.colOf u := by
  funext i
  obtain ⟨p, z, rfl⟩ : ∃ (p : Fin 50000) (z : Fin 1), i = ix2 p z := ⟨i 0, i 1, eq_ix2 i⟩
  exact Cert.LibRowOps.shapeCast_col u h p z

/-- A length-128 vector cast to 1 × 128 is the vector laid out as a row. -/
theorem shapeCast_rowOf (u : FVec Ideal S128 .f32) (h : S128.ShapeCasts S1x128) :
    (shapeCast S1x128 u h : FVec Ideal S1x128 .f32) = Cert.Spec.rowOf u := by
  funext i
  obtain ⟨z, q, rfl⟩ : ∃ (z : Fin 1) (q : Fin 128), i = ix2 z q := ⟨i 0, i 1, eq_ix2 i⟩
  refine shapeCast_apply u h (ix2 z q) (ix1 q) ?_
  have hz : z.val = 0 := by omega
  rw [Shape.rowMajor_val_two, Shape.rowMajor_val_one]
  show q.val = z.val * 128 + q.val
  rw [hz, Nat.zero_mul, Nat.zero_add]

/-- The degree scale as the kernel program's host operations spell it, from the edge-end vector w. -/
theorem degScale_eq (w : IVec S800000 32) :
    Host.rsqrt (F := Ideal) (maximumf (F := Ideal) (broadcastInDim S50000 ![] bcast_S_S50000 (id (constant (F := Ideal) S_ .f32 0x3F800000#32 : FVec Ideal S_ .f32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 w)
        (broadcastInDim S800000 ![] bcast_S_S800000 (constant (F := Ideal) S_ .f32 0x3F800000#32)) : FVec Ideal S50000 .f32))
      = Cert.Model.degScale w := rfl

/-! ## The edge-end vectors reach the host stretches as launched -/

/-- The source words as launched, before the second degree count. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by host_kept
    _ = W0 m ρ c (Proc.devRef .tc main_arg1) := by host_kept
    _ = m ((c : Thread nD τ).loc main_arg1) := rfl

/-- The destination words as launched, before the second degree count. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by host_kept
    _ = W0 m ρ c (Proc.devRef .tc main_arg2) := by host_kept
    _ = m ((c : Thread nD τ).loc main_arg2) := rfl

/-! ## The two degree scales at region 0's entry -/

/-- The all-ones edge vector, made by the first stretch and kept by the second. -/
theorem W2_v0 (c : Dev nD) : W2 m ρ c (Proc.devRef .tc main_v0)
    = (broadcastInDim S800000 ![] bcast_S_S800000 (constant (F := Ideal) S_ .f32 0x3F800000#32) : FVec Ideal S800000 .f32) :=
  calc W2 m ρ c (Proc.devRef .tc main_v0)
    _ = W1 m ρ c (Proc.devRef .tc main_v0) := by host_kept
    _ = _ := s00_v0 (W0 m ρ c)

/-- The out-degree count cut below at 1. -/
theorem W2_v4 (c : Dev nD) : W2 m ρ c (Proc.devRef .tc main_v4)
    = (maximumf (F := Ideal) (broadcastInDim S50000 ![] bcast_S_S50000 (id (constant (F := Ideal) S_ .f32 0x3F800000#32 : FVec Ideal S_ .f32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (m ((c : Thread nD τ).loc main_arg1) : IVec S800000 32))
        (broadcastInDim S800000 ![] bcast_S_S800000 (constant (F := Ideal) S_ .f32 0x3F800000#32)) : FVec Ideal S50000 .f32) : FVec Ideal S50000 .f32) := by
  have e1 : W1 m ρ c (Proc.devRef .tc main_cst_1) = _ := s00_cst1 (W0 m ρ c)
  have e3 : W1 m ρ c (Proc.devRef .tc main_v3) = _ := s00_v3 (W0 m ρ c)
  refine (s01_v4 (W1 m ρ c)).trans ?_
  rw [e1, e3]

/-- The in-degree count cut below at 1. -/
theorem W4_v8 (c : Dev nD) : W4 m ρ c (Proc.devRef .tc main_v8)
    = (maximumf (F := Ideal) (broadcastInDim S50000 ![] bcast_S_S50000 (id (constant (F := Ideal) S_ .f32 0x3F800000#32 : FVec Ideal S_ .f32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (m ((c : Thread nD τ).loc main_arg2) : IVec S800000 32))
        (broadcastInDim S800000 ![] bcast_S_S800000 (constant (F := Ideal) S_ .f32 0x3F800000#32)) : FVec Ideal S50000 .f32) : FVec Ideal S50000 .f32) := by
  have e3 : W3 m ρ c (Proc.devRef .tc main_cst_3) = _ := s02_cst3 (W2 m ρ c)
  have e7 : W3 m ρ c (Proc.devRef .tc main_v7) = _ := s02_v7 (W2 m ρ c)
  refine (s03_v8 (W3 m ρ c)).trans ?_
  rw [e3, e7, W2_arg2 m ρ c, W2_v0 m ρ c]

/-- The out-degree scale, as a column, at region 0's entry. -/
theorem W5_v10 (c : Dev nD) : W5 m ρ c (Proc.devRef .tc main_v10)
    = Cert.Spec.colOf (Cert.Model.degScale (m ((c : Thread nD τ).loc main_arg1))) := by
  have e4 : W4 m ρ c (Proc.devRef .tc main_v4) = W2 m ρ c (Proc.devRef .tc main_v4) :=
    calc W4 m ρ c (Proc.devRef .tc main_v4)
      _ = W3 m ρ c (Proc.devRef .tc main_v4) := by host_kept
      _ = W2 m ρ c (Proc.devRef .tc main_v4) := by host_kept
  refine (s04_v10 (W4 m ρ c)).trans ?_
  rw [e4, W2_v4 m ρ c, degScale_eq, shapeCast_colOf]

/-- The in-degree scale, as a column, at region 0's entry. -/
theorem W5_v12 (c : Dev nD) : W5 m ρ c (Proc.devRef .tc main_v12)
    = Cert.Spec.colOf (Cert.Model.degScale (m ((c : Thread nD τ).loc main_arg2))) := by
  refine (s04_v12 (W4 m ρ c)).trans ?_
  rw [W4_v8 m ρ c, degScale_eq, shapeCast_colOf]

/-! ## Arguments no stretch and no region before the second layer writes -/

/-- The source words are as launched when the second layer starts. -/
theorem W8_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by host_kept
    _ = W5 m ρ c (Proc.devRef .tc main_arg1) := W6_of_ne m ρ c main_arg1 (by decide)
    _ = W4 m ρ c (Proc.devRef .tc main_arg1) := by host_kept
    _ = W3 m ρ c (Proc.devRef .tc main_arg1) := by host_kept
    _ = W2 m ρ c (Proc.devRef .tc main_arg1) := by host_kept
    _ = W1 m ρ c (Proc.devRef .tc main_arg1) := by host_kept
    _ = W0 m ρ c (Proc.devRef .tc main_arg1) := by host_kept
    _ = m ((c : Thread nD τ).loc main_arg1) := rfl

/-- The destination words are as launched when the second layer starts. -/
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_kept
    _ = W5 m ρ c (Proc.devRef .tc main_arg2) := W6_of_ne m ρ c main_arg2 (by decide)
    _ = W4 m ρ c (Proc.devRef .tc main_arg2) := by host_kept
    _ = W3 m ρ c (Proc.devRef .tc main_arg2) := by host_kept
    _ = W2 m ρ c (Proc.devRef .tc main_arg2) := by host_kept
    _ = W1 m ρ c (Proc.devRef .tc main_arg2) := by host_kept
    _ = W0 m ρ c (Proc.devRef .tc main_arg2) := by host_kept
    _ = m ((c : Thread nD τ).loc main_arg2) := rfl

/-- The second layer's weights are as launched when the second layer starts. -/
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by host_kept
    _ = W5 m ρ c (Proc.devRef .tc main_arg6) := W6_of_ne m ρ c main_arg6 (by decide)
    _ = W4 m ρ c (Proc.devRef .tc main_arg6) := by host_kept
    _ = W3 m ρ c (Proc.devRef .tc main_arg6) := by host_kept
    _ = W2 m ρ c (Proc.devRef .tc main_arg6) := by host_kept
    _ = W1 m ρ c (Proc.devRef .tc main_arg6) := by host_kept
    _ = W0 m ρ c (Proc.devRef .tc main_arg6) := by host_kept
    _ = m ((c : Thread nD τ).loc main_arg6) := rfl

/-- The second layer's bias is as launched when the second layer starts. -/
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_kept
    _ = W5 m ρ c (Proc.devRef .tc main_arg7) := W6_of_ne m ρ c main_arg7 (by decide)
    _ = W4 m ρ c (Proc.devRef .tc main_arg7) := by host_kept
    _ = W3 m ρ c (Proc.devRef .tc main_arg7) := by host_kept
    _ = W2 m ρ c (Proc.devRef .tc main_arg7) := by host_kept
    _ = W1 m ρ c (Proc.devRef .tc main_arg7) := by host_kept
    _ = W0 m ρ c (Proc.devRef .tc main_arg7) := by host_kept
    _ = m ((c : Thread nD τ).loc main_arg7) := rfl

/-! ## The two degree scales when the second layer starts -/

/-- The out-degree column: an input of region 0, untouched by the stretch after it and by region 1. -/
theorem W8_v10 (c : Dev nD) : W8 m ρ c (Proc.devRef .tc main_v10)
    = Cert.Spec.colOf (Cert.Model.degScale (m ((c : Thread nD τ).loc main_arg1))) :=
  calc W8 m ρ c (Proc.devRef .tc main_v10)
    _ = W7 m ρ c (Proc.devRef .tc main_v10) := W8_of_ne m ρ c main_v10 (by decide)
    _ = W6 m ρ c (Proc.devRef .tc main_v10) := by host_kept
    _ = W5 m ρ c (Proc.devRef .tc main_v10) := (W6_arr m ρ c 1).trans (((dat0 (V5 m ρ) c).arrAt_in 1 rfl _).trans (A_eq0 (V5 m ρ) c 1))
    _ = _ := W5_v10 m ρ c

/-- The in-degree column: untouched by region 0 and the stretch after it, an input of region 1. -/
theorem W8_v12 (c : Dev nD) : W8 m ρ c (Proc.devRef .tc main_v12)
    = Cert.Spec.colOf (Cert.Model.degScale (m ((c : Thread nD τ).loc main_arg2))) :=
  calc W8 m ρ c (Proc.devRef .tc main_v12)
    _ = W7 m ρ c (Proc.devRef .tc main_v12) := (W8_arr m ρ c 1).trans (((dat1 (V7 m ρ) c).arrAt_in 1 rfl _).trans (A_eq1 (V7 m ρ) c 1))
    _ = W6 m ρ c (Proc.devRef .tc main_v12) := by host_kept
    _ = W5 m ρ c (Proc.devRef .tc main_v12) := W6_of_ne m ρ c main_v12 (by decide)
    _ = _ := W5_v12 m ρ c

/-! ## The second layer: projection (region 2), aggregation over the edges (host), tail (region 3) -/

/-- Region 2 writes none of the edge-end vectors nor the bias. -/
theorem W9_arg1 (c : Dev nD) : W9 m ρ c (Proc.devRef .tc main_arg1) = m ((c : Thread nD τ).loc main_arg1) :=
  (W9_of_ne m ρ c main_arg1 (by decide)).trans (W8_arg1 m ρ c)

theorem W9_arg2 (c : Dev nD) : W9 m ρ c (Proc.devRef .tc main_arg2) = m ((c : Thread nD τ).loc main_arg2) :=
  (W9_of_ne m ρ c main_arg2 (by decide)).trans (W8_arg2 m ρ c)

theorem W9_arg7 (c : Dev nD) : W9 m ρ c (Proc.devRef .tc main_arg7) = m ((c : Thread nD τ).loc main_arg7) :=
  (W9_of_ne m ρ c main_arg7 (by decide)).trans (W8_arg7 m ρ c)

/-- Region 2 leaves the projection of the first layer's result, its rows scaled by the out-degree factor. -/
theorem W9_v26 (c : Dev nD) : W9 m ρ c (Proc.devRef .tc main_v26)
    = Cert.Spec.proj (W8 m ρ c (Proc.devRef .tc main_v25)) (Cert.Spec.colOf (Cert.Model.degScale (m ((c : Thread nD τ).loc main_arg1))))
        (m ((c : Thread nD τ).loc main_arg6)) := by
  refine (W9_arr m ρ c 3).trans ((Cert.KernelIdeal.ProjK.proj_final2 (V8 m ρ) c).trans ?_)
  show Cert.Spec.proj (W8 m ρ c (Proc.devRef .tc main_v25)) (W8 m ρ c (Proc.devRef .tc main_v10)) (W8 m ρ c (Proc.devRef .tc main_arg6)) = _
  rw [W8_v10 m ρ c, W8_arg6 m ρ c]

/-- The host stretch before region 3 aggregates the projection over the edges. -/
theorem W10_v36 (c : Dev nD) : W10 m ρ c (Proc.devRef .tc main_v36)
    = Cert.Model.agg (Cert.Spec.proj (W8 m ρ c (Proc.devRef .tc main_v25)) (Cert.Spec.colOf (Cert.Model.degScale (m ((c : Thread nD τ).loc main_arg1))))
        (m ((c : Thread nD τ).loc main_arg6))) (m ((c : Thread nD τ).loc main_arg1)) (m ((c : Thread nD τ).loc main_arg2)) := by
  refine (s3_v36 (W9 m ρ c)).trans ?_
  rw [W9_v26 m ρ c, W9_arg1 m ρ c, W9_arg2 m ρ c]

/-- … and lays the bias out as a row. -/
theorem W10_v37 (c : Dev nD) : W10 m ρ c (Proc.devRef .tc main_v37) = Cert.Spec.rowOf (m ((c : Thread nD τ).loc main_arg7)) := by
  refine (s3_v37 (W9 m ρ c)).trans ?_
  rw [W9_arg7 m ρ c, shapeCast_rowOf]

/-- The in-degree column reaches region 3 unchanged. -/
theorem W10_v12 (c : Dev nD) : W10 m ρ c (Proc.devRef .tc main_v12)
    = Cert.Spec.colOf (Cert.Model.degScale (m ((c : Thread nD τ).loc main_arg2))) :=
  calc W10 m ρ c (Proc.devRef .tc main_v12)
    _ = W9 m ρ c (Proc.devRef .tc main_v12) := by host_kept
    _ = W8 m ρ c (Proc.devRef .tc main_v12) := W9_of_ne m ρ c main_v12 (by decide)
    _ = _ := W8_v12 m ρ c

/-- After the second layer's two regions the buffer of its result holds the model's layer of the first layer's result. -/
theorem W11_v38 (c : Dev nD) :
    W11 m ρ c (Proc.devRef .tc main_v38) = Cert.Model.layer (W8 m ρ c (Proc.devRef .tc main_v25)) (m ((c : Thread nD τ).loc main_arg6)) (m ((c : Thread nD τ).loc main_arg7)) (m ((c : Thread nD τ).loc main_arg1)) (m ((c : Thread nD τ).loc main_arg2)) := by
  refine (W11_arr m ρ c 3).trans ((Cert.KernelIdeal.PostK.post_final3 (V10 m ρ) c).trans ?_)
  show Cert.Spec.post (W10 m ρ c (Proc.devRef .tc main_v36)) (W10 m ρ c (Proc.devRef .tc main_v12)) (W10 m ρ c (Proc.devRef .tc main_v37)) = _
  rw [W10_v36 m ρ c, W10_v12 m ρ c, W10_v37 m ρ c]
  rfl

end L2

end Cert.KernelIdeal.Chain

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.PoolK.lean ====
/-
  Sum-pooling of the 50000 node rows into 128 graphs, as a membership-weighted sum.

  The one 128 × 128 output block is reset to zero at the first of the 25 grid points and, at every point t, receives the
  product of the transposed membership block and the feature block of the rows 2000 t … 2000 t + 1999: entry (g, d)
  gains ∑_{r < 2000} oh[2000 t + r, g] · x[2000 t + r, d] (the narrowing of the operands is the identity on the
  extended reals). By induction on the point the block holds the contributions of the points met so far; the last point
  alone writes back, its block being the whole array; and a sum over 25 blocks of 2000 rows is the sum over the 50000
  rows (quotient and remainder), which is the pooling of the specification. No finiteness is needed: 0 + a = a and
  associativity of + hold on all extended reals.
-/
import proofs.«400331_j77764677861850_1_alg».proof.Proof.Spec
import proofs.«400331_j77764677861850_1_alg».proof.Proof.Gen.KernelIdeal.Frame
import proofs.«400331_j77764677861850_1_alg».proof.Proof.LibPlainDot
import proofs.«400331_j77764677861850_1_alg».proof.Proof.LibIdxSums
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.PoolK

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

/-! ## What each control case leaves in the output block, for any float values -/

section Cases
variable {F : FTy → Type} [FloatOps F]

/-- The zero offsets. -/
theorem hz : (![0, 0] : Fin 2 → Nat) = fun _ => 0 := funext fun a => by fin_cases a <;> rfl

/-- The product of the membership block (transposed) and the feature block into the zero accumulator. -/
def part (x0 x1 : Vec F S2000x128 .f32) : FVec F S128x128 .f32 :=
  matmul dot_S2000x128_S2000x128_S128x128_0_0_1_1_n_n none (truncf .bf16 x1 bitsLt_bf16_f32) (truncf .bf16 x0 bitsLt_bf16_f32)
    (constant S128x128 .f32 0x00000000#32)

/-- A later point (no reset): the block, holding xo, is left at xo plus the product of the point's two blocks — the one
    covering store's payload, its loads reading the whole buffers. -/
theorem out_B (c : Dev nD) (i : grid4.Coords) (a1 : Memref sig .tc .vmem S2000x128 .f32) (h1 : a1.IsWhole)
    (a2 : Memref sig .tc .vmem S2000x128 .f32) (h2 : a2.IsWhole) (a3 : Memref sig .tc .vmem S128x128 .f32) (h3 : a3.IsWhole)
    (hc : ¬cond4_0 i) (x0 x1 : Vec F S2000x128 .f32) (xo : Vec F S128x128 .f32) :
    out4_B_2 c i a1 h1 a2 h2 a3 h3 hc x0 x1 xo = addf xo (part x0 x1) := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  unfold k4_pay2 part
  simp only [View.readAt_eq_ld, h1.read_unread, h2.read_unread, h3.read_unread, View.ld_unit_zero (S := S2000x128) hz,
    View.ld_unit_zero (S := S128x128) hz, shapeCast_self]

/-- The first point: the block is reset to the zero block, read back, and left at zero plus the product. -/
theorem out_A (c : Dev nD) (i : grid4.Coords) (a1 : Memref sig .tc .vmem S2000x128 .f32) (h1 : a1.IsWhole)
    (a2 : Memref sig .tc .vmem S2000x128 .f32) (h2 : a2.IsWhole) (a3 : Memref sig .tc .vmem S128x128 .f32) (h3 : a3.IsWhole)
    (hc : cond4_0 i) (x0 x1 : Vec F S2000x128 .f32) :
    out4_A_2 c i a1 h1 a2 h2 a3 h3 hc x0 x1 = addf (k4_pay1 (F := F)) (part x0 x1) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x128) hz, View.readCov_unit_zero (S := S128x128) _ hz]
  unfold k4_pay2 part
  simp only [View.readAt_eq_ld, h1.read_unread, h2.read_unread, View.ld_unit_zero (S := S2000x128) hz, shapeCast_self]

end Cases

/-! ## A product contracting the ROWS of both operands: (Kᵀ × M)ᵀ · (K × N), read at an index -/

section Dot
variable {K M N : Nat} (D : DotDims ⟨2, ![K, M]⟩ ⟨2, ![K, N]⟩ ⟨2, ![M, N]⟩)

/-- The left operand's column is the result's row: axis 1 is the left operand's one free axis, first among the result's. -/
theorem lhs_col (hlb : D.lhsBatch = []) (hln : D.lhsNonContracting = [1]) (p : Fin M) (q : Fin N) (k : D.contr.Idx) :
    (D.lhsIdx (ix2 p q) k 1).val = p.val := by
  unfold DotDims.lhsIdx
  rw [dif_neg (by rw [hlb]; exact List.not_mem_nil), dif_pos (by rw [hln]; exact List.mem_singleton.mpr rfl)]
  simp only [Fin.val_cast]
  exact Cert.LibPlainDot.coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [1]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact Cert.LibPlainDot.coord_val_congr (ix2 p q) _ 1 _ (show 1 < 2 by omega) (by simp [hlb, hln, hrn])

/-- The product at result index (p, q): the contraction re-indexed by its one coordinate, the common row of the operands. -/
theorem sum_rows (hlc : D.lhsContracting = [0]) (hrc : D.rhsContracting = [0]) (hln : D.lhsNonContracting = [1])
    (hrn : D.rhsNonContracting = [1]) (hlb : D.lhsBatch = []) (hrb : D.rhsBatch = [])
    (l : (⟨2, ![K, M]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 k p) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 k p := by
    funext a
    match a with
    | ⟨0, _⟩ => exact Fin.ext ((D.lhsIdx_val_of_single hlc (ix2 p q) _).trans hk)
    | ⟨1, _⟩ => exact Fin.ext (lhs_col D hlb hln p q _)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

end Dot

/-- The block product at entry (g, d), at the ideal values: the sum over the block's 2000 rows of the membership entry
    (r, g) times the feature entry (r, d). -/
theorem part_apply (x0 x1 : Vec Ideal S2000x128 .f32) (g d : Fin 128) :
    part (F := Ideal) x0 x1 (ix2 g d) = ∑ r : Fin 2000, x1 (ix2 r g) * x0 (ix2 r d) := by
  unfold part
  refine (Ideal.matmul_constant_zero_apply dot_S2000x128_S2000x128_S128x128_0_0_1_1_n_n none
    (truncf .bf16 x1 bitsLt_bf16_f32) (truncf .bf16 x0 bitsLt_bf16_f32) (ix2 g d)).trans ?_
  exact sum_rows (K := 2000) (M := 128) (N := 128) dot_S2000x128_S2000x128_S128x128_0_0_1_1_n_n rfl rfl rfl rfl rfl rfl x1 x0 g d

/-! ## The blocks and the arrays, by their literal types -/

/-- The feature rows' block at point t, -/
abbrev xblk (c : Dev nD) (t : Fin cfg4.N) : Vec Ideal S2000x128 .f32 := iblk4 (F := Ideal) V c 0 t
/-- the membership table's block at point t, -/
abbrev ohblk (c : Dev nD) (t : Fin cfg4.N) : Vec Ideal S2000x128 .f32 := iblk4 (F := Ideal) V c 1 t
/-- the feature array, -/
abbrev xarr (c : Dev nD) : Vec Ideal S50000x128 .f32 := V c main_v38
/-- the membership table. -/
abbrev oharr (c : Dev nD) : Vec Ideal S50000x128 .f32 := V c main_v45

/-- Row r of block t is a row of the array: 2000 t + r < 50000. -/
theorem row_lt (t : Fin cfg4.N) (r : Fin 2000) : t.val * 2000 + r.val < 50000 := by
  have hN : t.val < 25 := lt_of_lt_of_eq t.isLt (show cfg4.N = 25 from N_4)
  have := r.isLt
  omega

/-- Both input windows step down the rows with the point and stay at column block 0. -/
theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 :=
  (by decide +kernel : ∀ t : Fin grid4.N, win4_1.index t 0 = t.val ∧ win4_1.index t 1 = 0)

/-- Entry (r, d) of the feature block at point t is entry (2000 t + r, d) of the feature array. -/
theorem xblk_apply (c : Dev nD) (t : Fin cfg4.N) (r : Fin 2000) (d : Fin 128) :
    xblk V c t (ix2 r d) = xarr V c (ix2 ⟨t.val * 2000 + r.val, row_lt t r⟩ d) := by
  unfold xblk iblk4
  rw [View.read_apply]
  show V c main_v38 _ = V c main_v38 _
  congr 1
  funext a
  apply Fin.ext
  match a with
  | ⟨0, _⟩ => show win4_0.index t 0 * 2000 + 1 * r.val = t.val * 2000 + r.val; rw [(idx4_0 t).1]; omega
  | ⟨1, _⟩ => show win4_0.index t 1 * 128 + 1 * d.val = d.val; rw [(idx4_0 t).2]; omega

/-- Entry (r, g) of the membership block at point t is entry (2000 t + r, g) of the membership table. -/
theorem ohblk_apply (c : Dev nD) (t : Fin cfg4.N) (r : Fin 2000) (g : Fin 128) :
    ohblk V c t (ix2 r g) = oharr V c (ix2 ⟨t.val * 2000 + r.val, row_lt t r⟩ g) := by
  unfold ohblk iblk4
  rw [View.read_apply]
  show V c main_v45 _ = V c main_v45 _
  congr 1
  funext a
  apply Fin.ext
  match a with
  | ⟨0, _⟩ => show win4_1.index t 0 * 2000 + 1 * r.val = t.val * 2000 + r.val; rw [(idx4_1 t).1]; omega
  | ⟨1, _⟩ => show win4_1.index t 1 * 128 + 1 * g.val = g.val; rw [(idx4_1 t).2]; omega

/-! ## The running sum over the points -/

/-- Point n's contribution to entry (g, d): the membership-weighted sum over its 2000 rows (nothing past the grid). -/
def term (c : Dev nD) (g d : Fin 128) (n : ℕ) : EReal :=
  if h : n < cfg4.N then
    ∑ r : Fin 2000, oharr V c (ix2 ⟨n * 2000 + r.val, row_lt ⟨n, h⟩ r⟩ g) * xarr V c (ix2 ⟨n * 2000 + r.val, row_lt ⟨n, h⟩ r⟩ d)
  else 0

/-- The product of point t's two blocks is that contribution. -/
theorem part_blk (c : Dev nD) (t : Fin cfg4.N) (g d : Fin 128) :
    part (F := Ideal) (xblk V c t) (ohblk V c t) (ix2 g d) = term V c g d t.val := by
  refine (part_apply (xblk V c t) (ohblk V c t) g d).trans ?_
  unfold term
  rw [dif_pos t.isLt]
  refine Finset.sum_congr rfl fun r _ => ?_
  rw [ohblk_apply V c t r g, xblk_apply V c t r d]

/-- The reset block reads zero. -/
theorem pay1_apply (y : S128x128.Idx) : k4_pay1 (F := Ideal) y = 0 := by
  show Ideal.ofBits .f32 0x00000000#32 = 0
  exact Ideal.ofBits_zero_f32

/-- After point n the output block holds the contributions of the points 0 … n: zero plus the first at the reset, one
    more added at every later point. -/
theorem outsAt_eq (c : Dev nD) (g d : Fin 128) : ∀ (n : ℕ) (h : n < cfg4.N),
    outsAt4 (F := Ideal) V c n h (ix2 g d) = ∑ t ∈ Finset.range (n + 1), term V c g d t
  | 0, h => by
    rw [outsAt4_A V c ⟨0, h⟩ rfl]
    refine (congrFun (out_A (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (xblk V c ⟨0, h⟩) (ohblk V c ⟨0, h⟩)) (ix2 g d)).trans ?_
    rw [addf_apply, pay1_apply, zero_add, Finset.sum_range_one]
    exact part_blk V c ⟨0, h⟩ g d
  | n + 1, h => by
    have hN : cfg4.N = 25 := N_4
    have hB : ¬(⟨n + 1, h⟩ : Fin cfg4.N).val % 25 = 0 := by dsimp only; omega
    rw [outsAt4_B V c ⟨n + 1, h⟩ hB]
    refine (congrFun (out_B (F := Ideal) c (grid4.coords ⟨n + 1, h⟩) (ms4_0 ⟨n + 1, h⟩) (hs4_0 ⟨n + 1, h⟩) (ms4_1 ⟨n + 1, h⟩)
      (hs4_1 ⟨n + 1, h⟩) (ms4_2 ⟨n + 1, h⟩) (hs4_2 ⟨n + 1, h⟩) (fun hh => hB ((hcond4_0 ⟨n + 1, h⟩).mp hh))
      (xblk V c ⟨n + 1, h⟩) (ohblk V c ⟨n + 1, h⟩) (outsAt4 (F := Ideal) V c n (Nat.lt_of_succ_lt h))) (ix2 g d)).trans ?_
    rw [addf_apply, Finset.sum_range_succ, outsAt_eq c g d n (Nat.lt_of_succ_lt h)]
    exact congrArg (fun z => (∑ t ∈ Finset.range (n + 1), term V c g d t) + z) (part_blk V c ⟨n + 1, h⟩ g d)

/-! ## The one write-back, and the array after the run -/

theorem lt24 : 24 < cfg4.N := by rw [show cfg4.N = 25 from N_4]; decide

/-- What the block holds after the last point, as contents of the result array (its one block is the array). -/
abbrev result (c : Dev nD) : Buf (Elt Ideal) ((c : Thread nD τ).loc main_v46) := outsAt4 (F := Ideal) V c 24 lt24

/-- The last point, the only one that writes back, writes it: block (0, 0) of the 128 × 128 array is the array. -/
theorem flushed_eq (c : Dev nD) (t : Fin cfg4.N) (hf : (cfg4.win 2).flush t = true) :
    (dat4 (F := Ideal) V c).flushed 2 t = ((cfg4.win 2).blk t).view.read (Elt Ideal) (result V c) := by
  have hN : cfg4.N = 25 := N_4
  have h24 : t.val = 24 := by have := (flush4_2 t).mp hf; have := t.isLt; omega
  obtain rfl : t = ⟨24, lt24⟩ := Fin.ext h24
  show (cfg4.win 2).cut (grid4.coords ⟨24, lt24⟩) ((dat4 (F := Ideal) V c).after 2 ⟨24, lt24⟩) = _
  rw [after4_2]
  have hz' : (fun a => win4_2.index ⟨24, lt24⟩ a * main_v46.ty.shape.size a) = fun _ => 0 := funext fun a => by fin_cases a <;> decide +kernel
  exact (Memref.read_access_unit_zero (Elt Ideal) main_v46 hz' (fun a => by rw [congrFun hz' a]; simp) (result V c)).symm

/-- The last point's block starts at (0, 0) and is 128 wide on both axes. -/
theorem blk24 : ∀ a : Fin 2,
    win4_2.index ⟨24, lt24⟩ a * win4_2.size a = 0 ∧ win4_2.xsize (grid4.coords ⟨24, lt24⟩) a = 128 := by decide +kernel

/-- So every index of the array lies in the block written back, and the array ends holding the block as the last point
    left it. -/
theorem final_o (c : Dev nD) : (dat4 (F := Ideal) V c).arrAt 2 cfg4.N = result V c :=
  (dat4 (F := Ideal) V c).arrAt_eq_of_cover 2 (result V c) (flushed_eq V c) fun i =>
    ⟨⟨24, lt24⟩, (flush4_2 ⟨24, lt24⟩).mpr rfl, by
      show i ∈ ((View.whole main_v46).slice (win4_2.rect ⟨24, lt24⟩)).set
      rw [View.set_slice_whole, Rect.mem_set_unit]
      intro a
      have hi : ∀ b : Fin 2, (i b : Nat) < 128 := fun b => by fin_cases b <;> exact (i _).isLt
      obtain ⟨e0, e1⟩ := blk24 a
      show win4_2.index ⟨24, lt24⟩ a * win4_2.size a ≤ (i a : Nat)
        ∧ (i a : Nat) < win4_2.index ⟨24, lt24⟩ a * win4_2.size a + win4_2.xsize (grid4.coords ⟨24, lt24⟩) a
      rw [e0, e1]
      exact ⟨Nat.zero_le _, by have := hi a; omega⟩⟩

/-- The 25 points' contributions, 2000 rows each, are the sum over all 50000 rows. -/
theorem result_eq (c : Dev nD) :
    (outsAt4 (F := Ideal) V c 24 lt24 : Vec Ideal S128x128 .f32) = Cert.Spec.pool (xarr V c) (oharr V c) := by
  funext y
  obtain ⟨g, d, rfl⟩ : ∃ (g : Fin 128) (d : Fin 128), y = ix2 g d := ⟨y 0, y 1, eq_ix2 y⟩
  refine (outsAt_eq V c g d 24 lt24).trans ?_
  show _ = ∑ n : Fin 50000, oharr V c (ix2 n g) * xarr V c (ix2 n d)
  rw [Finset.sum_range]
  refine Eq.trans ?_ (Cert.IdxSums.sum_fin_mul 25 2000 (fun n : Fin (25 * 2000) => oharr V c (ix2 n g) * xarr V c (ix2 n d))).symm
  refine Finset.sum_congr rfl fun t _ => ?_
  unfold term
  rw [dif_pos (lt_of_lt_of_eq t.isLt N_4.symm)]

/-- Region 4 (pooling): the one output block, reset at the first point and added into at each of the 25 points, ends at the
    membership-weighted column sums over all 50000 nodes. -/
theorem pool_final4 (c : Dev nD) :
    (dat4 (F := Ideal) V c).arrAt 2 cfg4.N = Cert.Spec.pool (V c main_v38) (V c main_v45) :=
  (final_o V c).trans (result_eq V c)

end Cert.KernelIdeal.PoolK

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.PoolLaw.lean ====
/-
  Pooling node rows into graphs, on both sides.

  The reference adds row n of x into row (word n) of a 128 × 128 zero array: entry (g, d) of the result is the sum of
  x[n, d] over the nodes whose graph word, read signed, is g. The kernel instead builds the 0/1 membership table
  oh[n, g] = [word n = g] (a word compare with 0 … 127, the bit converted to a float) and contracts it with x.
  Both are ∑ₙ oh[n, g] · x[n, d]: a term "x if the word is g, else 0" is oh · x since 1 · a = a and 0 · a = 0 for every
  extended real a, and for g < 128 a 32-bit word is g's word exactly when it reads, signed, as g.
-/
import proofs.«400331_j77764677861850_1_alg».proof.Proof.Spec
import proofs.«400331_j77764677861850_1_alg».proof.Proof.LibScatterGather
import proofs.«400331_j77764677861850_1_alg».proof.Proof.LibRowOps
import proofs.«400331_j77764677861850_1_alg».proof.Proof.Gen.ReferenceIdeal
import proofs.«400331_j77764677861850_1_alg».proof.Proof.Gen.KernelIdeal

noncomputable section

namespace Cert.ReferenceIdeal.RefSide

open Cert.ReferenceIdeal Cert.ReferenceIdeal.Gen Idealize.ShloMosaic Idealize.ShloMosaic.ValueIdx

/-- A term kept under a condition is the condition's 0/1 indicator times the term. -/
theorem ite_eq_indicator_mul (c : Prop) [Decidable c] (a : EReal) :
    (if c then a else 0) = (if c then (1 : EReal) else 0) * a := by
  by_cases h : c
  · rw [if_pos h, if_pos h, one_mul]
  · rw [if_neg h, if_neg h, zero_mul]

/-- The reference's pooling — the node rows scatter-added into 128 zero rows at their graph words — is the
    membership-weighted column sum. -/
theorem pool_ref (x : FVec Ideal S50000x128 .f32) (ids : IVec S50000 32) :
    Host.scatterAdd scatter_S128x128_S50000x1_S50000x128_1_0_0_1 (broadcastInDim S128x128 ![] bcast_S_S128x128 (constant S_ .f32 0x00000000#32))
        (broadcastInDim S50000x1 ![0] bcast_S50000_S50000x1_0 ids) x
      = Cert.Spec.pool x (Cert.Spec.onehot ids) := by
  funext i
  obtain ⟨g, d, rfl⟩ : ∃ (g : Fin 128) (d : Fin 128), i = ix2 g d := ⟨i 0, i 1, eq_ix2 i⟩
  -- the scatter read at (g, d): the operand's entry plus the rows whose word is g
  rw [Cert.LibScatterGather.scatterAdd_rows_apply scatter_S128x128_S50000x1_S50000x128_1_0_0_1 rfl rfl rfl rfl]
  -- the operand is zero everywhere
  rw [Cert.LibRowOps.broadcastInDim_scalar]
  have hz : constant (F := Ideal) S_ .f32 0x00000000#32 ix0 = 0 := Ideal.ofBits_zero_f32
  rw [hz, zero_add]
  -- term by term
  show _ = ∑ n : Fin 50000, Cert.Spec.onehot ids (ix2 n g) * x (ix2 n d)
  refine Finset.sum_congr rfl fun e _ => ?_
  rw [Cert.LibRowOps.broadcastInDim_col ids bcast_S50000_S50000x1_0 e (0 : Fin 1)]
  exact ite_eq_indicator_mul _ _

end Cert.ReferenceIdeal.RefSide

namespace Cert.KernelIdeal.PoolLaw

open Cert.KernelIdeal Cert.KernelIdeal.Gen Idealize.ShloMosaic Idealize.ShloMosaic.ValueIdx

/-- For a graph number g < 128, a 32-bit word is g's word exactly when it reads, signed, as g: g's word is below 2³¹, so
    it reads as g, and a word is determined by its signed reading. -/
theorem word_eq_ofNat_iff (w : BitVec 32) (g : Fin 128) :
    w = BitVec.ofNat 32 g.val ↔ w.toInt = (g.val : ℤ) := by
  have hg : g.val < 2 ^ 31 := lt_trans g.isLt (by norm_num)
  have hs : (BitVec.ofNat 32 g.val).toInt = (g.val : ℤ) := StableHlo.Predicate.toInt_ofNat_small g.val hg
  constructor
  · rintro rfl
    exact hs
  · intro h
    exact BitVec.eq_of_toInt_eq (h.trans hs.symm)

/-- The equality bit of two words, converted unsigned to a float, is 1 when they are equal and 0 otherwise. -/
theorem uitofp_cmpi_eq {w : Nat} (a b : BitVec w) :
    FloatOps.uitofp (F := Ideal) .f32 (IntOp.cmpi .eq a b) = if a = b then (1 : EReal) else 0 := by
  show (((IntOp.cmpi .eq a b).toNat : ℝ) : EReal) = _
  by_cases h : a = b
  · rw [if_pos h, StableHlo.Predicate.cmpi_eq_iff.mpr h]
    norm_num
  · have h0 : IntOp.cmpi .eq a b = 0#1 := by
      unfold IntOp.cmpi
      have : (a == b) = false := by simpa using h
      rw [this]; rfl
    rw [if_neg h, h0]
    norm_num

/-- The kernel's membership table — the graph words compared with 0 … 127 and the bit converted to a float — is the 0/1 table. -/
theorem onehot_k (ids : IVec S50000 32) :
    uitofp (F := Ideal) .f32 (cmpi .eq (broadcastInDim S50000x128 ![0, 1] bcast_S50000x1_S50000x128_0_1 (broadcastInDim S50000x1 ![0] bcast_S50000_S50000x1_0 ids))
        (broadcastInDim S50000x128 ![0, 1] bcast_S1x128_S50000x128_0_1 (broadcastInDim S1x128 ![1] bcast_S128_S1x128_1 (iotaInDim S128 32 0))))
      = Cert.Spec.onehot ids := by
  funext i
  obtain ⟨n, g, rfl⟩ : ∃ (n : Fin 50000) (g : Fin 128), i = ix2 n g := ⟨i 0, i 1, eq_ix2 i⟩
  -- the two operands of the compare at (n, g): node n's word, and g's word
  have hl : broadcastInDim S50000x128 ![0, 1] bcast_S50000x1_S50000x128_0_1
      (broadcastInDim S50000x1 ![0] bcast_S50000_S50000x1_0 ids) (ix2 n g) = ids (ix1 n) := by
    rw [Cert.LibRowOps.broadcastInDim_col_mat _ bcast_S50000x1_S50000x128_0_1 n g,
      Cert.LibRowOps.broadcastInDim_col ids bcast_S50000_S50000x1_0 n (0 : Fin 1)]
  have hr : broadcastInDim S50000x128 ![0, 1] bcast_S1x128_S50000x128_0_1
      (broadcastInDim S1x128 ![1] bcast_S128_S1x128_1 (iotaInDim S128 32 0)) (ix2 n g) = BitVec.ofNat 32 g.val := by
    rw [Cert.LibRowOps.broadcastInDim_row_mat _ bcast_S1x128_S50000x128_0_1 n g,
      Cert.LibRowOps.broadcastInDim_vec_row (iotaInDim S128 32 0) bcast_S128_S1x128_1 (0 : Fin 1) g]
    rfl
  show FloatOps.uitofp (F := Ideal) .f32 (IntOp.cmpi .eq
      (broadcastInDim S50000x128 ![0, 1] bcast_S50000x1_S50000x128_0_1
        (broadcastInDim S50000x1 ![0] bcast_S50000_S50000x1_0 ids) (ix2 n g))
      (broadcastInDim S50000x128 ![0, 1] bcast_S1x128_S50000x128_0_1
        (broadcastInDim S1x128 ![1] bcast_S128_S1x128_1 (iotaInDim S128 32 0)) (ix2 n g)))
    = if (ids (ix1 n)).toInt = (g.val : ℤ) then (1 : EReal) else 0
  rw [hl, hr, uitofp_cmpi_eq]
  exact if_congr (word_eq_ofNat_iff (ids (ix1 n)) g) rfl rfl

end Cert.KernelIdeal.PoolLaw

end
-- ==== Proof.KChain3.lean ====
/-
  The buffer contents around the pooling region. The region's result array holds the membership-weighted column sums
  of its two input arrays as the region finds them. The feature array is not written by the host stretch before the
  region; the membership array is that stretch's result: the comparison of every node's graph word, spread along the
  rows, with the column numbers 0 … 127, spread along the columns, converted to 0/1 — the membership table of the
  graph words. The graph words are an argument, which nothing writes from the launch on.
-/
import proofs.«400331_j77764677861850_1_alg».proof.Proof.KTools
import proofs.«400331_j77764677861850_1_alg».proof.Proof.Model
import proofs.«400331_j77764677861850_1_alg».proof.Proof.LibRowOps
import proofs.«400331_j77764677861850_1_alg».proof.Proof.PoolK
import proofs.«400331_j77764677861850_1_alg».proof.Proof.PoolLaw

set_option maxRecDepth 16384

noncomputable section

namespace Cert.KernelIdeal.Chain

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

namespace L3

/-! ## The host stretch before the pooling region, at any contents -/

/-- Its last result: the graph words spread along the rows, compared with the column numbers spread along the columns,
    as 0/1 values. -/
theorem s4_v45 (W : Valuation τ sig (Elt Ideal)) :
    after hostOps4 W (Proc.devRef .tc main_v45)
      = (uitofp (F := Ideal) .f32
          (cmpi .eq
            (broadcastInDim S50000x128 ![0, 1] bcast_S50000x1_S50000x128_0_1
              (broadcastInDim S50000x1 ![0] bcast_S50000_S50000x1_0 (W (Proc.devRef .tc main_arg3) : IVec S50000 32)))
            (broadcastInDim S50000x128 ![0, 1] bcast_S1x128_S50000x128_0_1
              (broadcastInDim S1x128 ![1] bcast_S128_S1x128_1 (iotaInDim S128 32 0)))) : FVec Ideal S50000x128 .f32) := by
  dsimp only [hostOps4]; after_results

/-- That is the membership table of the graph words. -/
theorem s4_v45_onehot (W : Valuation τ sig (Elt Ideal)) :
    after hostOps4 W (Proc.devRef .tc main_v45) = Cert.Spec.onehot (W (Proc.devRef .tc main_arg3) : IVec S50000 32) :=
  (s4_v45 W).trans (Cert.KernelIdeal.PoolLaw.onehot_k (W (Proc.devRef .tc main_arg3) : IVec S50000 32))

/-- It leaves the feature array alone. -/
theorem s4_v38 (W : Valuation τ sig (Elt Ideal)) :
    after hostOps4 W (Proc.devRef .tc main_v38) = W (Proc.devRef .tc main_v38) := by host_kept

/-! ## The graph words are as launched, up to the second layer's exit -/

theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := by host_kept
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := by host_kept
    _ = W5 m ρ c (Proc.devRef .tc main_arg3) := W6_of_ne m ρ c main_arg3 (by decide)
    _ = W4 m ρ c (Proc.devRef .tc main_arg3) := by host_kept
    _ = W3 m ρ c (Proc.devRef .tc main_arg3) := by host_kept
    _ = W2 m ρ c (Proc.devRef .tc main_arg3) := by host_kept
    _ = W1 m ρ c (Proc.devRef .tc main_arg3) := by host_kept
    _ = W0 m ρ c (Proc.devRef .tc main_arg3) := by host_kept
    _ = m ((c : Thread nD τ).loc main_arg3) := rfl

/-! ## The pooling region's two inputs, at its entry -/

theorem W12_v38 (c : Dev nD) : W12 m ρ c (Proc.devRef .tc main_v38) = W11 m ρ c (Proc.devRef .tc main_v38) :=
  s4_v38 (W11 m ρ c)

theorem W12_v45 (c : Dev nD) :
    W12 m ρ c (Proc.devRef .tc main_v45) = Cert.Spec.onehot (m ((c : Thread nD τ).loc main_arg3)) :=
  (s4_v45_onehot (W11 m ρ c)).trans (congrArg Cert.Spec.onehot (W11_arg3 m ρ c))

/-- After the pooling region its result buffer holds the membership-weighted column sums of the second layer's result. -/
theorem W13_v46 (c : Dev nD) :
    W13 m ρ c (Proc.devRef .tc main_v46) = Cert.Spec.pool (W11 m ρ c (Proc.devRef .tc main_v38)) (Cert.Spec.onehot (m ((c : Thread nD τ).loc main_arg3))) :=
  calc W13 m ρ c (Proc.devRef .tc main_v46)
    _ = (dat4 (V12 m ρ) c).arrAt 2 cfg4.N := W13_arr m ρ c 2
    _ = Cert.Spec.pool (W12 m ρ c (Proc.devRef .tc main_v38)) (W12 m ρ c (Proc.devRef .tc main_v45)) :=
        Cert.KernelIdeal.PoolK.pool_final4 (V12 m ρ) c
    _ = Cert.Spec.pool (W11 m ρ c (Proc.devRef .tc main_v38)) (Cert.Spec.onehot (m ((c : Thread nD τ).loc main_arg3))) := by
        rw [W12_v38 m ρ c, W12_v45 m ρ c]

end L3

end Cert.KernelIdeal.Chain

end
-- ==== Proof.HeadK.lean ====
/-
  The classifier head's launch has ONE grid point, and every window's block is its whole array: each block index is
  (0, 0) and each block has the array's own extents. So an operand block, read through the window, is the operand array
  itself; the body's single store through the whole-buffer rectangle leaves exactly its payload; and the one write-back
  covers every index of the result array. Hence the result array ends holding the body's stored value — the log-softmax
  payload of the two dense layers over the normalised embedding — evaluated on the whole operand arrays.
-/
import proofs.«400331_j77764677861850_1_alg».proof.Proof.Spec
import proofs.«400331_j77764677861850_1_alg».proof.Proof.Gen.KernelIdeal.Frame
import Idealize.ShloMosaic.Lib.Pipeline.Value

noncomputable section

namespace Cert.KernelIdeal.HeadK

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The body's constant-zero offsets, as the zero function. -/
theorem zero2 : (![0, 0] : Fin 2 → Nat) = fun _ => 0 := funext fun a => by fin_cases a <;> rfl

/-! ## What the body leaves, from whole buffers -/

/-- Every load reads its whole buffer and the one store writes the whole result buffer, so the result buffer holds the
    stored payload of the buffers' contents. -/
theorem out5_7_whole (x0 : Vec Ideal S128x128 .f32) (x1 x2 : Vec Ideal S1x128 .f32) (x3 : Vec Ideal S128x128 .f32)
    (x4 : Vec Ideal S1x128 .f32) (x5 : Vec Ideal S128x10 .f32) (x6 : Vec Ideal S1x10 .f32) :
    out5_7 (F := Ideal) x0 x1 x2 x3 x4 x5 x6 = k5_pay1 (F := Ideal) (k5_pay2 x0 x1 x2 x3 x4) x5 x6 := by
  unfold out5_7
  rw [View.canon_unit_zero zero2]
  simp only [View.ld_unit_zero (S := S128x128) zero2, View.ld_unit_zero (S := S1x128) zero2,
    View.ld_unit_zero (S := S128x10) zero2, View.ld_unit_zero (S := S1x10) zero2]

/-! ## Each operand's block at the one point is the operand -/

/-- the pooled embedding e -/
theorem iblk5_0_whole (c : Dev nD) : (iblk5 (F := Ideal) V c 0 t5_0 : Vec Ideal S128x128 .f32) = V c main_v46 := by
  have origin : (fun a => win5_0.index t5_0 a * main_v46.ty.shape.size a) = fun _ => 0 := funext fun a => by fin_cases a <;> decide +kernel
  exact Memref.read_access_unit_zero (Elt Ideal) main_v46 origin (fun a => by rw [congrFun origin a]; simp) (V c main_v46)

/-- the scale row γ -/
theorem iblk5_1_whole (c : Dev nD) : (iblk5 (F := Ideal) V c 1 t5_0 : Vec Ideal S1x128 .f32) = V c main_v47 := by
  have origin : (fun a => win5_1.index t5_0 a * main_v47.ty.shape.size a) = fun _ => 0 := funext fun a => by fin_cases a <;> decide +kernel
  exact Memref.read_access_unit_zero (Elt Ideal) main_v47 origin (fun a => by rw [congrFun origin a]; simp) (V c main_v47)

/-- the shift row β -/
theorem iblk5_2_whole (c : Dev nD) : (iblk5 (F := Ideal) V c 2 t5_0 : Vec Ideal S1x128 .f32) = V c main_v48 := by
  have origin : (fun a => win5_2.index t5_0 a * main_v48.ty.shape.size a) = fun _ => 0 := funext fun a => by fin_cases a <;> decide +kernel
  exact Memref.read_access_unit_zero (Elt Ideal) main_v48 origin (fun a => by rw [congrFun origin a]; simp) (V c main_v48)

/-- the first dense layer's weights -/
theorem iblk5_3_whole (c : Dev nD) : (iblk5 (F := Ideal) V c 3 t5_0 : Vec Ideal S128x128 .f32) = V c main_arg10 := by
  have origin : (fun a => win5_3.index t5_0 a * main_arg10.ty.shape.size a) = fun _ => 0 := funext fun a => by fin_cases a <;> decide +kernel
  exact Memref.read_access_unit_zero (Elt Ideal) main_arg10 origin (fun a => by rw [congrFun origin a]; simp) (V c main_arg10)

/-- its bias row -/
theorem iblk5_4_whole (c : Dev nD) : (iblk5 (F := Ideal) V c 4 t5_0 : Vec Ideal S1x128 .f32) = V c main_v49 := by
  have origin : (fun a => win5_4.index t5_0 a * main_v49.ty.shape.size a) = fun _ => 0 := funext fun a => by fin_cases a <;> decide +kernel
  exact Memref.read_access_unit_zero (Elt Ideal) main_v49 origin (fun a => by rw [congrFun origin a]; simp) (V c main_v49)

/-- the second dense layer's weights -/
theorem iblk5_5_whole (c : Dev nD) : (iblk5 (F := Ideal) V c 5 t5_0 : Vec Ideal S128x10 .f32) = V c main_arg12 := by
  have origin : (fun a => win5_5.index t5_0 a * main_arg12.ty.shape.size a) = fun _ => 0 := funext fun a => by fin_cases a <;> decide +kernel
  exact Memref.read_access_unit_zero (Elt Ideal) main_arg12 origin (fun a => by rw [congrFun origin a]; simp) (V c main_arg12)

/-- its bias row -/
theorem iblk5_6_whole (c : Dev nD) : (iblk5 (F := Ideal) V c 6 t5_0 : Vec Ideal S1x10 .f32) = V c main_v50 := by
  have origin : (fun a => win5_6.index t5_0 a * main_v50.ty.shape.size a) = fun _ => 0 := funext fun a => by fin_cases a <;> decide +kernel
  exact Memref.read_access_unit_zero (Elt Ideal) main_v50 origin (fun a => by rw [congrFun origin a]; simp) (V c main_v50)

/-! ## The result array -/

/-- The head's stored value on the whole operand arrays. -/
abbrev headVal (c : Dev nD) : Vec Ideal S128x10 .f32 :=
  k5_pay1 (F := Ideal) (k5_pay2 (V c main_v46) (V c main_v47) (V c main_v48) (V c main_arg10) (V c main_v49)) (V c main_arg12) (V c main_v50)

/-- What the one point writes back is that value, read through the result window's block (itself the whole array). -/
theorem flushed5_7 (c : Dev nD) (t : Fin cfg5.N) (hf : (cfg5.win 7).flush t = true) :
    (dat5 (F := Ideal) V c).flushed 7 t = ((cfg5.win 7).blk t).view.read (Elt Ideal) (headVal V c) := by
  obtain rfl : t = t5_0 := fin_N5 t
  show (cfg5.win 7).cut (grid5.coords t5_0) ((dat5 (F := Ideal) V c).after 7 t5_0) = _
  rw [after5_7, out5_7_whole, iblk5_0_whole, iblk5_1_whole, iblk5_2_whole, iblk5_3_whole, iblk5_4_whole, iblk5_5_whole, iblk5_6_whole]
  have origin : (fun a => win5_7.index t5_0 a * main_v51.ty.shape.size a) = fun _ => 0 := funext fun a => by fin_cases a <;> decide +kernel
  exact (Memref.read_access_unit_zero (Elt Ideal) main_v51 origin (fun a => by rw [congrFun origin a]; simp) (headVal V c)).symm

/-- The result window's block at the one point starts at the origin and has the array's extents, on both axes. -/
theorem blk7_extent : ∀ a : Fin 2, win5_7.index t5_0 a * win5_7.size a = 0 ∧ win5_7.xsize (grid5.coords t5_0) a = S128x10.size a := by
  decide +kernel

/-- So every index of the result array lies under it. -/
theorem blk7_covers (c : Dev nD) (i : ((cfg5.win 7).arr.view.loc (c.tc : Thread nD τ)).2.ty.Idx) :
    i ∈ ((cfg5.win 7).blk t5_0).view.set := by
  show i ∈ ((View.whole main_v51).slice (win5_7.rect t5_0)).set
  rw [View.set_slice_whole, Rect.mem_set_unit]
  intro a
  show win5_7.index t5_0 a * win5_7.size a ≤ (i a : Nat) ∧ (i a : Nat) < win5_7.index t5_0 a * win5_7.size a + win5_7.xsize (grid5.coords t5_0) a
  rw [(blk7_extent a).1, (blk7_extent a).2, Nat.zero_add]
  exact ⟨Nat.zero_le _, (i a).isLt⟩

/-- Region 5 (the head, one grid point, every block its whole array): the result array holds the body's one stored value of
    the whole operand arrays. -/
theorem head_final5 (c : Dev nD) :
    (dat5 (F := Ideal) V c).arrAt 7 cfg5.N
      = k5_pay1 (F := Ideal) (k5_pay2 (V c main_v46) (V c main_v47) (V c main_v48) (V c main_arg10) (V c main_v49)) (V c main_arg12) (V c main_v50) :=
  (dat5 (F := Ideal) V c).arrAt_eq_of_cover 7 (headVal V c) (flushed5_7 V c) fun i =>
    ⟨t5_0, flush5_7 t5_0, blk7_covers c i⟩

end Cert.KernelIdeal.HeadK

end
-- ==== Proof.LsBridge.lean ====
/-
  The logarithm of the softmax of each row of the logits z (128 rows, 10 classes), as the kernel's vector operations
  spell it and as the host's. Both take the row maximum as a fold of max over the row's ten entries starting from −∞
  (the host maximises once more with −∞, which is the bottom element, so nothing changes), keep it as a column, spread
  it along the row and subtract; both then subtract the logarithm of the row's sum of exponentials, the sum read as
  ∑ k < 10 on either side, exp and log being the same functions of an extended real.
-/
import proofs.«400331_j77764677861850_1_alg».proof.Proof.HeadRef
import proofs.«400331_j77764677861850_1_alg».proof.Proof.LibRowOps
import Idealize.ShloMosaic.Lib.ValueIdx
import Idealize.ShloMosaic.PureOps.Ideal.Laws
import proofs.«400331_j77764677861850_1_alg».proof.Proof.Gen.KernelIdeal.Skeleton

noncomputable section

namespace Cert.ReferenceIdeal.RefSide

open Cert.ReferenceIdeal Cert.ReferenceIdeal.Gen Idealize.ShloMosaic Idealize.ShloMosaic.ValueIdx

/-- The kernel's last stretch on the logits z (128 graphs × 10 classes): the row maximum (a lane reduction from −∞) taken off,
    then the logarithm of the row's sum of exponentials taken off — the operations of the kernel body, in its own shapes. -/
def lsK {F : FTy → Type} [FloatOps F] (z : FVec F Cert.KernelIdeal.S128x10 .f32) : FVec F Cert.KernelIdeal.S128x10 .f32 :=
  have v46 : FVec F Cert.KernelIdeal.S128 .f32 := multiReduction .maximumf [1] Cert.KernelIdeal.S128 z 0xFF800000#32 Cert.KernelIdeal.Gen.reduces_S128x10_S128 (.inl rfl) rfl
  have v47 : FVec F Cert.KernelIdeal.S128x1 .f32 := shapeCast Cert.KernelIdeal.S128x1 v46 Cert.KernelIdeal.Gen.shapeCasts_S128_S128x1
  have v48 : FVec F Cert.KernelIdeal.S128x10 .f32 := broadcastTo Cert.KernelIdeal.S128x10 v47 Cert.KernelIdeal.Gen.broadcasts_S128x1_S128x10
  have v49 : FVec F Cert.KernelIdeal.S128x10 .f32 := subf z v48
  have v50 : FVec F Cert.KernelIdeal.S128x10 .f32 := exp v49
  have v51 : FVec F Cert.KernelIdeal.S128 .f32 := multiReduction .add [1] Cert.KernelIdeal.S128 v50 0x00000000#32 Cert.KernelIdeal.Gen.reduces_S128x10_S128 (.inl rfl) rfl
  have v52 : FVec F Cert.KernelIdeal.S128x1 .f32 := shapeCast Cert.KernelIdeal.S128x1 v51 Cert.KernelIdeal.Gen.shapeCasts_S128_S128x1
  have v53 : FVec F Cert.KernelIdeal.S128x1 .f32 := log v52
  have v54 : FVec F Cert.KernelIdeal.S128x10 .f32 := broadcastTo Cert.KernelIdeal.S128x10 v53 Cert.KernelIdeal.Gen.broadcasts_S128x1_S128x10
  subf v49 v54

/-! ## The row maximum, on either side -/

section RowMax

variable {R C : Nat} {φ : FTy}

/-- A vector multi-reduction with a maximum body over axis 1, at row p: the fold of max over the row from the accumulator. -/
theorem multiReduction_max_row (v : FVec Ideal ⟨2, ![R, C]⟩ φ) (acc : BitVec φ.bits)
    (h : (⟨2, ![R, C]⟩ : Shape).Reduces [1] ⟨1, ![R]⟩) (hφ : FKind.Formats φ) (hacc : acc = FKind.maximumf.neutral φ hφ)
    (p : Fin R) :
    multiReduction .maximumf [1] ⟨1, ![R]⟩ v acc h hφ hacc (ix1 p)
      = (Finset.univ : Finset (Fin C)).fold max (Ideal.ofBits φ acc) fun k => v (ix2 p k) := by
  rw [Ideal.multiReduction_maximumf_single]
  exact congrArg (fun f => Finset.fold max (Ideal.ofBits φ acc) f (Finset.univ : Finset (Fin C)))
    (funext fun k => congrArg v (Cert.LibRowOps.lift_row h p k))

/-- The host's reduce with a maximum body over axis 1, at row p: the same fold, from the initial value's element. -/
theorem hostReduce_max_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (p : Fin R) :
    Host.reduce FloatOps.maximumf x init h' hu (ix1 p)
      = (Finset.univ : Finset (Fin C)).fold max (init (Shape.Idx.first hu)) fun k => x (ix2 p k) := by
  rw [Host.reduce_eq_fold_single FloatOps.maximumf x init h' h hu]
  exact congrArg (fun f => Finset.fold max (init (Shape.Idx.first hu)) f (Finset.univ : Finset (Fin C)))
    (funext fun k => congrArg x (Cert.LibRowOps.lift_row h p k))

end RowMax

/-- The word 0xFF800000 is −∞, the bottom of the extended reals. -/
theorem ofBits_negInf : Ideal.ofBits .f32 0xFF800000#32 = (⊥ : EReal) := by
  simp [Ideal.ofBits, Ideal.ieee]

/-- The kernel's row maximum at row p is the host's (maximised once more with −∞). -/
theorem rowMax_eq (z : FVec Ideal S128x10 .f32) (p : Fin 128) :
    multiReduction (F := Ideal) .maximumf [1] Cert.KernelIdeal.S128 z 0xFF800000#32 Cert.KernelIdeal.Gen.reduces_S128x10_S128
        (.inl rfl) rfl (ix1 p)
      = maximumf (F := Ideal) (broadcastInDim S128 ![] bcast_S_S128 (constant (F := Ideal) S_ .f32 0xFF800000#32))
          (Host.reduce FloatOps.maximumf z (constant (F := Ideal) S_ .f32 0xFF800000#32) reducesTo_S128x10_S128_d1 h_S_) (ix1 p) := by
  refine (multiReduction_max_row (R := 128) (C := 10) z _ Cert.KernelIdeal.Gen.reduces_S128x10_S128 _ _ p).trans ?_
  have hh := hostReduce_max_row (R := 128) (C := 10) z (constant (F := Ideal) S_ .f32 0xFF800000#32)
    reducesTo_S128x10_S128_d1 h_S_ Cert.KernelIdeal.Gen.reduces_S128x10_S128 p
  show _ = max (broadcastInDim S128 ![] bcast_S_S128 (constant (F := Ideal) S_ .f32 0xFF800000#32) (ix1 p))
    (Host.reduce FloatOps.maximumf z (constant (F := Ideal) S_ .f32 0xFF800000#32) reducesTo_S128x10_S128_d1 h_S_ (ix1 p))
  rw [hh, Cert.LibRowOps.broadcastInDim_scalar]
  show _ = max (Ideal.ofBits .f32 0xFF800000#32) _
  rw [ofBits_negInf]
  exact (max_eq_right bot_le).symm

/-! ## The shifted logits -/

/-- The kernel's logits with the row maximum taken off (its values v46 … v49). -/
def kShift {F : FTy → Type} [FloatOps F] (z : FVec F Cert.KernelIdeal.S128x10 .f32) : FVec F Cert.KernelIdeal.S128x10 .f32 :=
  subf z (broadcastTo Cert.KernelIdeal.S128x10
    (shapeCast Cert.KernelIdeal.S128x1
      (multiReduction .maximumf [1] Cert.KernelIdeal.S128 z 0xFF800000#32 Cert.KernelIdeal.Gen.reduces_S128x10_S128 (.inl rfl) rfl)
      Cert.KernelIdeal.Gen.shapeCasts_S128_S128x1)
    Cert.KernelIdeal.Gen.broadcasts_S128x1_S128x10)

/-- The kernel's stretch is its second half applied to its shifted logits. -/
theorem lsK_eq {F : FTy → Type} [FloatOps F] (z : FVec F Cert.KernelIdeal.S128x10 .f32) :
    lsK z = subf (kShift z) (broadcastTo Cert.KernelIdeal.S128x10
      (log (shapeCast Cert.KernelIdeal.S128x1
        (multiReduction .add [1] Cert.KernelIdeal.S128 (exp (kShift z)) 0x00000000#32 Cert.KernelIdeal.Gen.reduces_S128x10_S128 (.inl rfl) rfl)
        Cert.KernelIdeal.Gen.shapeCasts_S128_S128x1))
      Cert.KernelIdeal.Gen.broadcasts_S128x1_S128x10) := rfl

/-- Entry (p, q) of either shifted array is z[p, q] less the maximum of row p. -/
theorem kShift_eq (z : FVec Ideal S128x10 .f32) : kShift (F := Ideal) z = lsShift z := by
  funext j
  obtain ⟨p, q, rfl⟩ : ∃ (p : Fin 128) (q : Fin 10), j = ix2 p q := ⟨j 0, j 1, eq_ix2 j⟩
  unfold kShift lsShift subf
  refine congrArg (FloatOps.subf (z (ix2 p q))) ?_
  refine (Cert.LibRowOps.broadcastTo_col (R := 128) (C := 10) _ _ p q).trans ?_
  refine (Cert.LibRowOps.shapeCast_col (R := 128) _ _ p 0).trans ?_
  refine (rowMax_eq z p).trans ?_
  refine Eq.symm ?_
  refine (Cert.LibRowOps.broadcastInDim_col_mat (R := 128) (C := 10) _ _ p q).trans ?_
  exact Cert.LibRowOps.broadcastInDim_col (R := 128) _ _ p 0

/-! ## The logarithm of the row's sum of exponentials -/

/-- For any array s the two programs take the same thing off it: entry (p, q) loses log (∑ k < 10, exp s[p, k]). -/
theorem logSumExp_eq (s : FVec Ideal S128x10 .f32) :
    subf (F := Ideal) s (broadcastTo Cert.KernelIdeal.S128x10
      (log (shapeCast Cert.KernelIdeal.S128x1
        (multiReduction (F := Ideal) .add [1] Cert.KernelIdeal.S128 (exp s) 0x00000000#32 Cert.KernelIdeal.Gen.reduces_S128x10_S128 (.inl rfl) rfl)
        Cert.KernelIdeal.Gen.shapeCasts_S128_S128x1))
      Cert.KernelIdeal.Gen.broadcasts_S128x1_S128x10)
    = subf s (cols10 (Host.log (broadcastInDim S128x1 ![0] bcast_S128_S128x1_0
        (Host.reduceAdd (Host.exp s) (constant (F := Ideal) S_ .f32 0x00000000#32) reducesTo_S128x10_S128_d1 h_S_)))) := by
  funext j
  obtain ⟨p, q, rfl⟩ : ∃ (p : Fin 128) (q : Fin 10), j = ix2 p q := ⟨j 0, j 1, eq_ix2 j⟩
  unfold subf
  refine congrArg (FloatOps.subf (s (ix2 p q))) ?_
  refine (Cert.LibRowOps.broadcastTo_col (R := 128) (C := 10) _ _ p q).trans ?_
  refine Eq.trans ?_ (Cert.LibRowOps.broadcastInDim_col_mat (R := 128) (C := 10) _ _ p q).symm
  show Ideal.log _ = Ideal.log _
  refine congrArg Ideal.log ?_
  refine (Cert.LibRowOps.shapeCast_col (R := 128) _ _ p 0).trans ?_
  refine Eq.trans ?_ (Cert.LibRowOps.broadcastInDim_col (R := 128) _ _ p 0).symm
  refine (Cert.LibRowOps.multiReduction_row (R := 128) (C := 10) _ _ Cert.KernelIdeal.Gen.reduces_S128x10_S128 _ _ p).trans ?_
  refine Eq.trans ?_ (Cert.LibRowOps.hostReduceAdd_row_zero (R := 128) (C := 10) _ reducesTo_S128x10_S128_d1 h_S_
    Cert.KernelIdeal.Gen.reduces_S128x10_S128 p).symm
  rfl

/-- At the ideal values the kernel's log-softmax stretch is the reference's: the lane maximum from −∞ is the host's maximum
    reduction (again maximised with −∞), the lane sum the host's sum, exp and log the same functions. -/
theorem ls_bridge (z : FVec Ideal S128x10 .f32) : lsK (F := Ideal) z = logSoftmax z := by
  rw [lsK_eq]
  refine (logSumExp_eq (kShift (F := Ideal) z)).trans ?_
  rw [kShift_eq z]
  rfl

end Cert.ReferenceIdeal.RefSide

end
-- ==== Proof.HeadBridge.lean ====
/-
  The classifier head on whole arrays, the kernel body against the reference's named stages. After the batch
  normalisation, each dense layer is a matrix product into a zero accumulator on one side and the host's dot on the other:
  both are the same finite sum ∑ₖ h[p, k] · W[k, q] on the extended reals, since narrowing to bf16 is the identity at the
  ideal values. The bias is laid out as a row and spread down the rows on both sides, so each entry (p, q) receives b[q];
  the cut at zero is max(·, 0) against a spread zero word. Chaining the normalisation, the two dense layers and the
  log-softmax stretch gives the reference's head.
-/
import proofs.«400331_j77764677861850_1_alg».proof.Proof.Spec
import proofs.«400331_j77764677861850_1_alg».proof.Proof.HeadRef
import proofs.«400331_j77764677861850_1_alg».proof.Proof.LsBridge
import proofs.«400331_j77764677861850_1_alg».proof.Proof.BnBridge
import proofs.«400331_j77764677861850_1_alg».proof.Proof.LibPlainDot
import proofs.«400331_j77764677861850_1_alg».proof.Proof.LibRowOps
import proofs.«400331_j77764677861850_1_alg».proof.Proof.Gen.KernelIdeal.Skeleton
import Idealize.ShloMosaic.Lib.Pipeline.Value

noncomputable section

namespace Cert.ReferenceIdeal.RefSide

open Cert.ReferenceIdeal Cert.ReferenceIdeal.Gen Idealize.ShloMosaic Idealize.ShloMosaic.ValueIdx

/-! ## Rows spread down a matrix -/

/-- A 1 × C row broadcast to R × C reads, at (p, q), the row at q. -/
theorem broadcastTo_row {R C : Nat} {α : Type} (g : (⟨2, ![1, C]⟩ : Shape).Idx → α)
    (h : (⟨2, ![1, C]⟩ : Shape).Broadcasts ⟨2, ![R, C]⟩) (p : Fin R) (q : Fin C) :
    broadcastTo ⟨2, ![R, C]⟩ g h (ix2 p q) = g (ix2 (0 : Fin 1) q) := by
  refine broadcastTo_apply g h (ix2 p q) (ix2 (0 : Fin 1) q) fun ax => ?_
  match ax with
  | ⟨0, _⟩ => rfl
  | ⟨1, _⟩ =>
    show q.val = if C = 1 then 0 else q.val
    split
    · have := q.isLt; omega
    · rfl

/-- A bias vector b laid out as a row and spread down the rows, as the kernel does it (a cast of the row to its own
    shape, then a vector broadcast) and as the host does it (two broadcasts): entry (p, q) is b[q] on both sides. -/
theorem biasRows {R C : Nat} (b : (⟨1, ![C]⟩ : Shape).Idx → EReal)
    (hs : (⟨2, ![1, C]⟩ : Shape).ShapeCasts ⟨2, ![1, C]⟩) (hb : (⟨2, ![1, C]⟩ : Shape).Broadcasts ⟨2, ![R, C]⟩)
    (hv : (⟨1, ![C]⟩ : Shape).BroadcastsInDim ⟨2, ![1, C]⟩ ![1])
    (hm : (⟨2, ![1, C]⟩ : Shape).BroadcastsInDim ⟨2, ![R, C]⟩ ![0, 1]) :
    broadcastTo ⟨2, ![R, C]⟩ (shapeCast ⟨2, ![1, C]⟩ (Cert.Spec.rowOf b) hs) hb
      = broadcastInDim ⟨2, ![R, C]⟩ ![0, 1] hm (broadcastInDim ⟨2, ![1, C]⟩ ![1] hv b) := by
  funext y
  obtain ⟨p, q, rfl⟩ : ∃ (p : Fin R) (q : Fin C), y = ix2 p q := ⟨y 0, y 1, eq_ix2 y⟩
  rw [shapeCast_self, broadcastTo_row, Cert.LibRowOps.broadcastInDim_row_mat, Cert.LibRowOps.broadcastInDim_vec_row]
  rfl

/-! ## The kernel's two dense stretches, in its own shapes -/

/-- The kernel's first dense stretch on the normalised embedding h, the weights v29 and the bias row v32: both operands
    narrowed to bf16, multiplied into the zero accumulator, the bias row spread down the rows and added, the maximum with
    the spread zero word, narrowed to bf16 — the operations of the kernel body. -/
def dense1K {F : FTy → Type} [FloatOps F] (h : FVec F Cert.KernelIdeal.S128x128 .f32) (v29 : Vec F Cert.KernelIdeal.S128x128 .f32)
    (v32 : Vec F Cert.KernelIdeal.S1x128 .f32) : FVec F Cert.KernelIdeal.S128x128 .bf16 :=
  truncf .bf16 (maximumf
      (addf (matmul Cert.KernelIdeal.dot_S128x128_S128x128_S128x128_1_0_0_1_n_n none (truncf .bf16 h Cert.KernelIdeal.Gen.bitsLt_bf16_f32)
          (truncf .bf16 v29 Cert.KernelIdeal.Gen.bitsLt_bf16_f32) (constant Cert.KernelIdeal.S128x128 .f32 0x00000000#32))
        (broadcastTo Cert.KernelIdeal.S128x128 (shapeCast Cert.KernelIdeal.S1x128 v32 Cert.KernelIdeal.Gen.shapeCasts_S1x128_S1x128)
          Cert.KernelIdeal.Gen.broadcasts_S1x128_S128x128))
      (broadcast Cert.KernelIdeal.S128x128 (Scalar.ofBits .f32 0x00000000#32))) Cert.KernelIdeal.Gen.bitsLt_bf16_f32

/-- The kernel's second dense stretch on the hidden layer v38 (bf16), the weights v39 and the bias row v42: the weights
    narrowed to bf16, the product into the zero accumulator, the bias row spread down the rows and added. -/
def logitsK {F : FTy → Type} [FloatOps F] (v38 : FVec F Cert.KernelIdeal.S128x128 .bf16) (v39 : Vec F Cert.KernelIdeal.S128x10 .f32)
    (v42 : Vec F Cert.KernelIdeal.S1x10 .f32) : FVec F Cert.KernelIdeal.S128x10 .f32 :=
  addf (matmul Cert.KernelIdeal.dot_S128x128_S128x10_S128x10_1_0_0_1_n_n none v38 (truncf .bf16 v39 Cert.KernelIdeal.Gen.bitsLt_bf16_f32)
      (constant Cert.KernelIdeal.S128x10 .f32 0x00000000#32))
    (broadcastTo Cert.KernelIdeal.S128x10 (shapeCast Cert.KernelIdeal.S1x10 v42 Cert.KernelIdeal.Gen.shapeCasts_S1x10_S1x10)
      Cert.KernelIdeal.Gen.broadcasts_S1x10_S128x10)

/-- The body's hidden layer is the first dense stretch of the normalisation stretch. -/
theorem k5_pay2_stages {F : FTy → Type} [FloatOps F] (v0 : Vec F Cert.KernelIdeal.S128x128 .f32) (v13 v24 : Vec F Cert.KernelIdeal.S1x128 .f32)
    (v29 : Vec F Cert.KernelIdeal.S128x128 .f32) (v32 : Vec F Cert.KernelIdeal.S1x128 .f32) :
    Cert.KernelIdeal.Gen.k5_pay2 v0 v13 v24 v29 v32 = dense1K (bnK v0 v13 v24) v29 v32 := rfl

/-- The body's stored value is the log-softmax stretch of the second dense stretch. -/
theorem k5_pay1_stages {F : FTy → Type} [FloatOps F] (v38 : FVec F Cert.KernelIdeal.S128x128 .bf16) (v39 : Vec F Cert.KernelIdeal.S128x10 .f32)
    (v42 : Vec F Cert.KernelIdeal.S1x10 .f32) :
    Cert.KernelIdeal.Gen.k5_pay1 v38 v39 v42 = lsK (logitsK v38 v39 v42) := rfl

/-! ## The dense layers at the ideal values -/

/-- The zero the hidden layer is cut at: the kernel spreads the zero word as a scalar, the host as a rank-0 array. -/
theorem zeroCut (hz : S_.BroadcastsInDim S128x128 (![] : Fin 0 → Fin S128x128.rank)) :
    broadcast Cert.KernelIdeal.S128x128 (Scalar.ofBits (F := Ideal) .f32 0x00000000#32)
      = broadcastInDim S128x128 ![] hz (constant (F := Ideal) S_ .f32 0x00000000#32) := by
  funext y
  rw [Cert.LibRowOps.broadcastInDim_scalar]
  rfl

/-- The kernel's first product, its operands narrowed to bf16 (the identity at the ideal values), is the host's dot: both
    are ∑ₖ h[p, k] · W[k, q]. -/
theorem matmul1_eq_dot (h W : FVec Ideal S128x128 .f32) :
    matmul Cert.KernelIdeal.dot_S128x128_S128x128_S128x128_1_0_0_1_n_n none (truncf .bf16 h Cert.KernelIdeal.Gen.bitsLt_bf16_f32)
        (truncf .bf16 W Cert.KernelIdeal.Gen.bitsLt_bf16_f32) (constant (F := Ideal) Cert.KernelIdeal.S128x128 .f32 0x00000000#32)
      = Host.dotGeneral dot_S128x128_S128x128_S128x128_1_0_0_1_n_n none h W := by
  unfold matmul Host.dotGeneral
  rw [Cert.LibPlainDot.matmul_zero_eq_matProd (M := 128) (K := 128) (N := 128) _ rfl rfl rfl rfl rfl rfl,
    Cert.LibPlainDot.dotGeneral_eq_matProd (M := 128) (K := 128) (N := 128) _ rfl rfl rfl rfl rfl rfl]
  rfl

/-- The kernel's second product likewise, ten columns. -/
theorem matmul2_eq_dot (h : FVec Ideal S128x128 .f32) (W : FVec Ideal S128x10 .f32) :
    matmul Cert.KernelIdeal.dot_S128x128_S128x10_S128x10_1_0_0_1_n_n none (φ₁ := .bf16) h
        (truncf .bf16 W Cert.KernelIdeal.Gen.bitsLt_bf16_f32) (constant (F := Ideal) Cert.KernelIdeal.S128x10 .f32 0x00000000#32)
      = Host.dotGeneral dot_S128x128_S128x10_S128x10_1_0_0_1_n_n none h W := by
  unfold matmul Host.dotGeneral
  rw [Cert.LibPlainDot.matmul_zero_eq_matProd (M := 128) (K := 128) (N := 10) _ rfl rfl rfl rfl rfl rfl,
    Cert.LibPlainDot.dotGeneral_eq_matProd (M := 128) (K := 128) (N := 10) _ rfl rfl rfl rfl rfl rfl]
  rfl

/-- The first dense layer: max(h · W + b, 0) on both sides. -/
theorem dense1_bridge (h W : FVec Ideal S128x128 .f32) (b1 : FVec Ideal S128 .f32) :
    dense1K (F := Ideal) h W (Cert.Spec.rowOf b1) = dense1 h W b1 := by
  unfold dense1K dense1
  rw [matmul1_eq_dot, biasRows (R := 128) (C := 128) b1 _ _ bcast_S128_S1x128_1 bcast_S1x128_S128x128_0_1, zeroCut bcast_S_S128x128]
  rfl

/-- The second dense layer: h · W + b, ten columns, on both sides. -/
theorem dense2_bridge (h : FVec Ideal S128x128 .f32) (W2 : FVec Ideal S128x10 .f32) (b2 : FVec Ideal S10 .f32) :
    logitsK (F := Ideal) h W2 (Cert.Spec.rowOf b2) = dense2 h W2 b2 := by
  unfold logitsK dense2
  rw [matmul2_eq_dot, biasRows (R := 128) (C := 10) b2 _ _ bcast_S10_S1x10_1 bcast_S1x10_S128x10_0_1]

/-! ## The head -/

/-- The kernel's head body, read at the ideal values on whole arrays, is the reference's head. -/
theorem head_bridge (e : FVec Ideal S128x128 .f32) (γ β : FVec Ideal S128 .f32) (W1 : FVec Ideal S128x128 .f32) (b1 : FVec Ideal S128 .f32)
    (W2 : FVec Ideal S128x10 .f32) (b2 : FVec Ideal S10 .f32) :
    Cert.KernelIdeal.Gen.k5_pay1 (F := Ideal) (Cert.KernelIdeal.Gen.k5_pay2 e (Cert.Spec.rowOf γ) (Cert.Spec.rowOf β) W1 (Cert.Spec.rowOf b1)) W2 (Cert.Spec.rowOf b2)
      = headRef e γ β W1 b1 W2 b2 := by
  rw [k5_pay1_stages, k5_pay2_stages, bn_bridge, dense1_bridge, dense2_bridge, ls_bridge]
  rfl

end Cert.ReferenceIdeal.RefSide

end
-- ==== Proof.KChain4.lean ====
/-
  The head region's buffers at its exit. The region reads the pooled embedding through an input window, so that buffer
  leaves as it entered; its result buffer holds the body's value at the entry contents. Those are: the pooled embedding
  (no reshape of the stretch before the region writes it), the two matrices, which are arguments and so still hold the
  launch memory (nothing writes an argument: the frame proves each ends as launched, and from the region's entry to the
  end nothing writes them either), and the four vectors, each an argument reshaped to one row, which is the vector laid
  out as a row. With those read off, the body's value is the reference's head.
-/
import proofs.«400331_j77764677861850_1_alg».proof.Proof.KTools
import proofs.«400331_j77764677861850_1_alg».proof.Proof.Model
import proofs.«400331_j77764677861850_1_alg».proof.Proof.LibRowOps
import proofs.«400331_j77764677861850_1_alg».proof.Proof.HeadK
import proofs.«400331_j77764677861850_1_alg».proof.Proof.HeadBridge
import proofs.«400331_j77764677861850_1_alg».proof.Proof.BnBridge

set_option maxRecDepth 16384

noncomputable section

namespace Cert.KernelIdeal.Chain

open Idealize.ShloMosaic Idealize.ShloMosaic.TcCoe Idealize.SL.Sem Cert.KernelIdeal Cert.KernelIdeal.Gen Idealize.ShloMosaic.StableHlo

open Idealize.ShloMosaic.ValueIdx in
/-- A length-C vector cast to one row is the vector laid out as a row. -/
theorem shapeCast_rowOf {C : Nat} (u : (⟨1, ![C]⟩ : Shape).Idx → EReal)
    (h : (⟨1, ![C]⟩ : Shape).ShapeCasts ⟨2, ![1, C]⟩) : shapeCast ⟨2, ![1, C]⟩ u h = Cert.Spec.rowOf u := by
  funext j
  obtain ⟨z, q, rfl⟩ : ∃ (z : Fin 1) (q : Fin C), j = ix2 z q := ⟨j 0, j 1, eq_ix2 j⟩
  exact Cert.ReferenceIdeal.RefSide.Bn.shapeCast_row u h z q

/-! ## The stretch before the head region: four reshapes, read at any contents -/

theorem s5_v47 (W : Valuation τ sig (Elt Ideal)) :
    after hostOps5 W (Proc.devRef .tc main_v47)
      = (shapeCast S1x128 (W (Proc.devRef .tc main_arg8) : FVec Ideal S128 .f32) shapeCasts_S128_S1x128 : FVec Ideal S1x128 .f32) := by
  dsimp only [hostOps5]; after_results <;> rfl

theorem s5_v48 (W : Valuation τ sig (Elt Ideal)) :
    after hostOps5 W (Proc.devRef .tc main_v48)
      = (shapeCast S1x128 (W (Proc.devRef .tc main_arg9) : FVec Ideal S128 .f32) shapeCasts_S128_S1x128 : FVec Ideal S1x128 .f32) := by
  dsimp only [hostOps5]; after_results <;> rfl

theorem s5_v49 (W : Valuation τ sig (Elt Ideal)) :
    after hostOps5 W (Proc.devRef .tc main_v49)
      = (shapeCast S1x128 (W (Proc.devRef .tc main_arg11) : FVec Ideal S128 .f32) shapeCasts_S128_S1x128 : FVec Ideal S1x128 .f32) := by
  dsimp only [hostOps5]; after_results <;> rfl

theorem s5_v50 (W : Valuation τ sig (Elt Ideal)) :
    after hostOps5 W (Proc.devRef .tc main_v50)
      = (shapeCast S1x10 (W (Proc.devRef .tc main_arg13) : FVec Ideal S10 .f32) shapeCasts_S10_S1x10 : FVec Ideal S1x10 .f32) := by
  dsimp only [hostOps5]; after_results <;> rfl

variable (m : (ℓ : Loc nD τ sig) → Buf (Elt Ideal) ℓ) (ρ : Dev nD → PrngReg)

namespace L4

/-! ## The head region's entry contents -/

/-- The reshapes do not write the pooled embedding. -/
theorem W14_v46 (c : Dev nD) : W14 m ρ c (Proc.devRef .tc main_v46) = W13 m ρ c (Proc.devRef .tc main_v46) := by
  host_kept

/-- Argument 8 before the reshapes is the launch memory's: the reshapes and the head region do not write it, and it ends as launched. -/
theorem W13_arg8 (c : Dev nD) : W13 m ρ c (Proc.devRef .tc main_arg8) = m ((c : Thread nD τ).loc main_arg8) :=
  calc W13 m ρ c (Proc.devRef .tc main_arg8)
    _ = W14 m ρ c (Proc.devRef .tc main_arg8) :=
      (by host_kept : W14 m ρ c (Proc.devRef .tc main_arg8) = W13 m ρ c (Proc.devRef .tc main_arg8)).symm
    _ = W15 m ρ c (Proc.devRef .tc main_arg8) := (W15_of_ne m ρ c main_arg8 (by decide)).symm
    _ = m ((c : Thread nD τ).loc main_arg8) := W15_main_arg8 m ρ c

/-- Argument 9 before the reshapes is the launch memory's: the reshapes and the head region do not write it, and it ends as launched. -/
theorem W13_arg9 (c : Dev nD) : W13 m ρ c (Proc.devRef .tc main_arg9) = m ((c : Thread nD τ).loc main_arg9) :=
  calc W13 m ρ c (Proc.devRef .tc main_arg9)
    _ = W14 m ρ c (Proc.devRef .tc main_arg9) :=
      (by host_kept : W14 m ρ c (Proc.devRef .tc main_arg9) = W13 m ρ c (Proc.devRef .tc main_arg9)).symm
    _ = W15 m ρ c (Proc.devRef .tc main_arg9) := (W15_of_ne m ρ c main_arg9 (by decide)).symm
    _ = m ((c : Thread nD τ).loc main_arg9) := W15_main_arg9 m ρ c

/-- Argument 11 before the reshapes is the launch memory's: the reshapes and the head region do not write it, and it ends as launched. -/
theorem W13_arg11 (c : Dev nD) : W13 m ρ c (Proc.devRef .tc main_arg11) = m ((c : Thread nD τ).loc main_arg11) :=
  calc W13 m ρ c (Proc.devRef .tc main_arg11)
    _ = W14 m ρ c (Proc.devRef .tc main_arg11) :=
      (by host_kept : W14 m ρ c (Proc.devRef .tc main_arg11) = W13 m ρ c (Proc.devRef .tc main_arg11)).symm
    _ = W15 m ρ c (Proc.devRef .tc main_arg11) := (W15_of_ne m ρ c main_arg11 (by decide)).symm
    _ = m ((c : Thread nD τ).loc main_arg11) := W15_main_arg11 m ρ c

/-- Argument 13 before the reshapes is the launch memory's: the reshapes and the head region do not write it, and it ends as launched. -/
theorem W13_arg13 (c : Dev nD) : W13 m ρ c (Proc.devRef .tc main_arg13) = m ((c : Thread nD τ).loc main_arg13) :=
  calc W13 m ρ c (Proc.devRef .tc main_arg13)
    _ = W14 m ρ c (Proc.devRef .tc main_arg13) :=
      (by host_kept : W14 m ρ c (Proc.devRef .tc main_arg13) = W13 m ρ c (Proc.devRef .tc main_arg13)).symm
    _ = W15 m ρ c (Proc.devRef .tc main_arg13) := (W15_of_ne m ρ c main_arg13 (by decide)).symm
    _ = m ((c : Thread nD τ).loc main_arg13) := W15_main_arg13 m ρ c

/-- Argument 10 at the head region's entry is the launch memory's: the region reads it through input window 3, and it ends as launched. -/
theorem W14_arg10 (c : Dev nD) : W14 m ρ c (Proc.devRef .tc main_arg10) = m ((c : Thread nD τ).loc main_arg10) :=
  ((W15_arr m ρ c 3).trans (((dat5 (V14 m ρ) c).arrAt_in 3 rfl _).trans (A_eq5 (V14 m ρ) c 3))).symm.trans (W15_main_arg10 m ρ c)

/-- Argument 12 at the head region's entry is the launch memory's: the region reads it through input window 5, and it ends as launched. -/
theorem W14_arg12 (c : Dev nD) : W14 m ρ c (Proc.devRef .tc main_arg12) = m ((c : Thread nD τ).loc main_arg12) :=
  ((W15_arr m ρ c 5).trans (((dat5 (V14 m ρ) c).arrAt_in 5 rfl _).trans (A_eq5 (V14 m ρ) c 5))).symm.trans (W15_main_arg12 m ρ c)

/-- At the head region's entry the row buffer holds argument 8 laid out as a row. -/
theorem W14_v47 (c : Dev nD) : W14 m ρ c (Proc.devRef .tc main_v47) = Cert.Spec.rowOf (m ((c : Thread nD τ).loc main_arg8)) :=
  (s5_v47 (W13 m ρ c)).trans
    ((congrArg (fun u : FVec Ideal S128 .f32 => shapeCast S1x128 u shapeCasts_S128_S1x128) (W13_arg8 m ρ c)).trans (shapeCast_rowOf _ _))

/-- At the head region's entry the row buffer holds argument 9 laid out as a row. -/
theorem W14_v48 (c : Dev nD) : W14 m ρ c (Proc.devRef .tc main_v48) = Cert.Spec.rowOf (m ((c : Thread nD τ).loc main_arg9)) :=
  (s5_v48 (W13 m ρ c)).trans
    ((congrArg (fun u : FVec Ideal S128 .f32 => shapeCast S1x128 u shapeCasts_S128_S1x128) (W13_arg9 m ρ c)).trans (shapeCast_rowOf _ _))

/-- At the head region's entry the row buffer holds argument 11 laid out as a row. -/
theorem W14_v49 (c : Dev nD) : W14 m ρ c (Proc.devRef .tc main_v49) = Cert.Spec.rowOf (m ((c : Thread nD τ).loc main_arg11)) :=
  (s5_v49 (W13 m ρ c)).trans
    ((congrArg (fun u : FVec Ideal S128 .f32 => shapeCast S1x128 u shapeCasts_S128_S1x128) (W13_arg11 m ρ c)).trans (shapeCast_rowOf _ _))

/-- At the head region's entry the row buffer holds argument 13 laid out as a row. -/
theorem W14_v50 (c : Dev nD) : W14 m ρ c (Proc.devRef .tc main_v50) = Cert.Spec.rowOf (m ((c : Thread nD τ).loc main_arg13)) :=
  (s5_v50 (W13 m ρ c)).trans
    ((congrArg (fun u : FVec Ideal S10 .f32 => shapeCast S1x10 u shapeCasts_S10_S1x10) (W13_arg13 m ρ c)).trans (shapeCast_rowOf _ _))

/-! ## The head region's exit -/

/-- The head region reads the pooled embedding and does not write it. -/
theorem W15_v46 (c : Dev nD) : W15 m ρ c (Proc.devRef .tc main_v46) = W13 m ρ c (Proc.devRef .tc main_v46) :=
  ((W15_arr m ρ c 0).trans (((dat5 (V14 m ρ) c).arrAt_in 0 rfl _).trans (A_eq5 (V14 m ρ) c 0))).trans (W14_v46 m ρ c)

/-- After the head region its result buffer holds the reference's head of the pooled embedding and the head's parameters. -/
theorem W15_v51 (c : Dev nD) :
    W15 m ρ c (Proc.devRef .tc main_v51) = Cert.ReferenceIdeal.RefSide.headRef (F := Ideal) (W13 m ρ c (Proc.devRef .tc main_v46))
      (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W15_arr m ρ c 7).trans ?_
  refine (Cert.KernelIdeal.HeadK.head_final5 (V14 m ρ) c).trans ?_
  show k5_pay1 (k5_pay2 (W14 m ρ c (Proc.devRef .tc main_v46)) (W14 m ρ c (Proc.devRef .tc main_v47))
      (W14 m ρ c (Proc.devRef .tc main_v48)) (W14 m ρ c (Proc.devRef .tc main_arg10)) (W14 m ρ c (Proc.devRef .tc main_v49)))
      (W14 m ρ c (Proc.devRef .tc main_arg12)) (W14 m ρ c (Proc.devRef .tc main_v50)) = _
  rw [W14_v46 m ρ c, W14_v47 m ρ c, W14_v48 m ρ c, W14_arg10 m ρ c, W14_v49 m ρ c, W14_arg12 m ρ c, W14_v50 m ρ c]
  exact Cert.ReferenceIdeal.RefSide.head_bridge _ _ _ _ _ _ _

end L4

end Cert.KernelIdeal.Chain

end
-- ==== Proof.Assemble.lean ====
/-
  The idealized kernel's run with its two results named: the pooled embedding is the model's function of the arguments
  (two layers, then the pooling), the class log-probabilities the reference's head of that embedding; the argument
  arrays end as launched.
-/
import proofs.«400331_j77764677861850_1_alg».proof.Proof.KChain1
import proofs.«400331_j77764677861850_1_alg».proof.Proof.KChain2
import proofs.«400331_j77764677861850_1_alg».proof.Proof.KChain3
import proofs.«400331_j77764677861850_1_alg».proof.Proof.KChain4

noncomputable section

namespace Cert.KernelIdeal.Chain

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-- The model's pooled embedding of the kernel's arguments. -/
abbrev embOf (c : Dev nD) : FVec Ideal Cert.ReferenceIdeal.S128x128 .f32 :=
  Cert.Model.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The pooled embedding's buffer at the last boundary. -/
theorem W15_emb (c : Dev nD) : W15 m ρ c (Proc.devRef .tc main_v46) = embOf m c := by
  rw [L4.W15_v46, L3.W13_v46, L2.W11_v38, L1.W8_v25]
  rfl

/-- The log-probabilities' buffer at the last boundary. -/
theorem W15_logp (c : Dev nD) : W15 m ρ c (Proc.devRef .tc main_v51)
    = Cert.ReferenceIdeal.RefSide.headRef (F := Ideal) (embOf m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [L4.W15_v51, ← L4.W15_v46, W15_emb]

/-- The run, read. -/
theorem kernel_run : θ_run defs (onTc (τ := τ) (main (F := Ideal))) ⟨m, fun _ => 0, ρ⟩ (fun r => ∀ c : Dev nD,
      r.2.mem ((c.tc : Thread nD τ).loc main_v46) = embOf m c
      ∧ r.2.mem ((c.tc : Thread nD τ).loc main_v51)
          = Cert.ReferenceIdeal.RefSide.headRef (F := Ideal) (embOf m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v46 (by decide))).trans (W15_emb m ρ c),
     (h c _ (mem_uc main_v51 (by decide))).trans (W15_logp m ρ c),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c)⟩)
    (run_named (F := Ideal) m ρ)

end Cert.KernelIdeal.Chain

end
-- ==== Proof.ProjRef.lean ====
/-
  The reference's projection layer, read as the specification's function. The host scales x pointwise by the
  per-node vector, first laid out as a 50000 × 1 column and then spread along the 128 columns, and contracts the
  result's columns with W's rows. At the ideal values the host's dot is the plain matrix product, and each of the two
  broadcasts read at (p, q) gives the vector's entry p, so the left factor is x[p, q] · s[p]: the specification's proj
  at the column layout of the vector.
-/
import proofs.«400331_j77764677861850_1_alg».proof.Proof.Spec
import proofs.«400331_j77764677861850_1_alg».proof.Proof.Gen.ReferenceIdeal
import proofs.«400331_j77764677861850_1_alg».proof.Proof.LibPlainDot
import proofs.«400331_j77764677861850_1_alg».proof.Proof.LibRowOps

noncomputable section

namespace Cert.ReferenceIdeal.RefSide

open Cert.ReferenceIdeal Cert.ReferenceIdeal.Gen Idealize.ShloMosaic Idealize.ShloMosaic.ValueIdx

/-- The scaled left factor at (p, q): x[p, q] times the vector's entry p, the column broadcast and the spread along
    the columns both reading that entry. -/
theorem scaled_apply (x : FVec Ideal S50000x128 .f32) (sv : FVec Ideal S50000 .f32) (p : Fin 50000) (q : Fin 128) :
    mulf x (broadcastInDim S50000x128 ![0, 1] bcast_S50000x1_S50000x128_0_1 (broadcastInDim S50000x1 ![0] bcast_S50000_S50000x1_0 sv)) (ix2 p q)
      = x (ix2 p q) * sv (ix1 p) := by
  show x (ix2 p q) * broadcastInDim S50000x128 ![0, 1] bcast_S50000x1_S50000x128_0_1 (broadcastInDim S50000x1 ![0] bcast_S50000_S50000x1_0 sv) (ix2 p q) = _
  rw [Cert.LibRowOps.broadcastInDim_col_mat (R := 50000) (C := 128) _ bcast_S50000x1_S50000x128_0_1 p q,
    Cert.LibRowOps.broadcastInDim_col (R := 50000) sv bcast_S50000_S50000x1_0 p (0 : Fin 1)]

/-- The reference's projection: x times the per-node scale broadcast along the columns, then the host's product with W. -/
theorem proj_ref (x : FVec Ideal S50000x128 .f32) (sv : FVec Ideal S50000 .f32) (W : FVec Ideal S128x128 .f32) :
    Host.dotGeneral dot_S50000x128_S128x128_S50000x128_1_0_0_1_n_n none
        (mulf x (broadcastInDim S50000x128 ![0, 1] bcast_S50000x1_S50000x128_0_1 (broadcastInDim S50000x1 ![0] bcast_S50000_S50000x1_0 sv))) W
      = Cert.Spec.proj x (Cert.Spec.colOf sv) W := by
  show FloatOps.dotGeneral dot_S50000x128_S128x128_S50000x128_1_0_0_1_n_n none .single _ W = _
  rw [Cert.LibPlainDot.dotGeneral_eq_matProd (M := 50000) (K := 128) (N := 128)
    dot_S50000x128_S128x128_S50000x128_1_0_0_1_n_n rfl rfl rfl rfl rfl rfl none .single _ W]
  unfold Cert.Spec.proj
  refine congrArg (fun l => Cert.LibPlainDot.matProd (M := 50000) (K := 128) (N := 128) l W) ?_
  funext i
  obtain ⟨p, q, rfl⟩ : ∃ (p : Fin 50000) (q : Fin 128), i = ix2 p q := ⟨i 0, i 1, eq_ix2 i⟩
  exact scaled_apply x sv p q

end Cert.ReferenceIdeal.RefSide

end
-- ==== Proof.PostRef.lean ====
/-
  The reference's layer tail at an index: max(a[r, q] · s[r] + b[q], 0).
  The host spreads the per-node scale first as a 50000 × 1 column and then along the columns, the bias first as a
  1 × 128 row and then down the rows, and the zero scalar everywhere; each spread read at (r, q) is the vector's entry
  at r, the vector's entry at q, and 0. At the ideal values the product, the sum and the maximum are the extended
  reals', so the array is Cert.Spec.post of the aggregate, the scale laid out as a column and the bias as a row.
-/
import proofs.«400331_j77764677861850_1_alg».proof.Proof.Spec
import proofs.«400331_j77764677861850_1_alg».proof.Proof.LibRowOps
import proofs.«400331_j77764677861850_1_alg».proof.Proof.Gen.ReferenceIdeal

noncomputable section

namespace Cert.ReferenceIdeal.RefSide

open Cert.ReferenceIdeal Cert.ReferenceIdeal.Gen Idealize.ShloMosaic Idealize.ShloMosaic.ValueIdx

/-- The reference's layer tail: the aggregate times the per-node scale, plus the bias along the rows, cut at zero. -/
theorem post_ref (a : FVec Ideal S50000x128 .f32) (sv : FVec Ideal S50000 .f32) (bv : FVec Ideal S128 .f32) :
    maximumf (addf (mulf a (broadcastInDim S50000x128 ![0, 1] bcast_S50000x1_S50000x128_0_1 (broadcastInDim S50000x1 ![0] bcast_S50000_S50000x1_0 sv)))
        (broadcastInDim S50000x128 ![0, 1] bcast_S1x128_S50000x128_0_1 (broadcastInDim S1x128 ![1] bcast_S128_S1x128_1 bv)))
      (broadcastInDim S50000x128 ![] bcast_S_S50000x128 (constant S_ .f32 0x00000000#32))
      = Cert.Spec.post a (Cert.Spec.colOf sv) (Cert.Spec.rowOf bv) := by
  funext i
  obtain ⟨p, q, rfl⟩ : ∃ (p : Fin 50000) (q : Fin 128), i = ix2 p q := ⟨i 0, i 1, eq_ix2 i⟩
  rw [maximumf_apply, addf_apply, mulf_apply]
  rw [Cert.LibRowOps.broadcastInDim_col_mat _ bcast_S50000x1_S50000x128_0_1 p q,
    Cert.LibRowOps.broadcastInDim_col sv bcast_S50000_S50000x1_0 p (0 : Fin 1),
    Cert.LibRowOps.broadcastInDim_row_mat _ bcast_S1x128_S50000x128_0_1 p q,
    Cert.LibRowOps.broadcastInDim_vec_row bv bcast_S128_S1x128_1 (0 : Fin 1) q,
    Cert.LibRowOps.broadcastInDim_scalar _ _ bcast_S_S50000x128 (ix2 p q)]
  rw [constant_apply, Ideal.ofBits_zero_f32]
  rfl

end Cert.ReferenceIdeal.RefSide

end
-- ==== Proof.RefChain.lean ====
/-
  The reference's two results are the model's: its composed term is cut into the model's stages — the degree scales and
  the edge aggregation are the model's own operations, each layer's product and tail the specification's by the
  reference-side laws, the scatter-add over graph words the membership-weighted sum, the last stretch the head.
-/
import proofs.«400331_j77764677861850_1_alg».proof.Proof.Model
import proofs.«400331_j77764677861850_1_alg».proof.Proof.ProjRef
import proofs.«400331_j77764677861850_1_alg».proof.Proof.PostRef
import proofs.«400331_j77764677861850_1_alg».proof.Proof.PoolLaw
import proofs.«400331_j77764677861850_1_alg».proof.Proof.Gen.ReferenceIdeal.Run

noncomputable section

namespace Cert.ReferenceIdeal.RefSide

open Cert.ReferenceIdeal Cert.ReferenceIdeal.Gen Idealize.ShloMosaic Idealize.ShloMosaic.TcCoe Idealize.SL.Sem

/-- One layer as the reference spells it. -/
def layerR (x : FVec Ideal S50000x128 .f32) (W : FVec Ideal S128x128 .f32) (b : FVec Ideal S128 .f32) (src dst : IVec S800000 32) :
    FVec Ideal S50000x128 .f32 :=
  maximumf (addf (mulf (Cert.Model.agg (Host.dotGeneral dot_S50000x128_S128x128_S50000x128_1_0_0_1_n_n none
        (mulf x (broadcastInDim S50000x128 ![0, 1] bcast_S50000x1_S50000x128_0_1 (broadcastInDim S50000x1 ![0] bcast_S50000_S50000x1_0 (Cert.Model.degScale src)))) W) src dst)
      (broadcastInDim S50000x128 ![0, 1] bcast_S50000x1_S50000x128_0_1 (broadcastInDim S50000x1 ![0] bcast_S50000_S50000x1_0 (Cert.Model.degScale dst))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

theorem layerR_eq (x : FVec Ideal S50000x128 .f32) (W : FVec Ideal S128x128 .f32) (b : FVec Ideal S128 .f32) (src dst : IVec S800000 32) :
    layerR x W b src dst = Cert.Model.layer x W b src dst := by
  unfold layerR Cert.Model.layer
  rw [proj_ref, post_ref]

set_option maxRecDepth 8192 in
/-- The reference's first result is the model's pooled embedding of its arguments. -/
theorem res55_eq (m : (ℓ : Loc nD τ sig) → Buf (Elt Ideal) ℓ) (c : Dev nD) :
    Value.res_main_v55 m c = Cert.Model.emb (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  have h : Value.res_main_v55 m c = Host.scatterAdd scatter_S128x128_S50000x1_S50000x128_1_0_0_1
      (broadcastInDim S128x128 ![] bcast_S_S128x128 (constant S_ .f32 0x00000000#32))
      (broadcastInDim S50000x1 ![0] bcast_S50000_S50000x1_0 (m ((c.tc : Thread nD τ).loc main_arg3)))
      (layerR (layerR (m ((c.tc : Thread nD τ).loc main_arg0)) (m ((c.tc : Thread nD τ).loc main_arg4)) (m ((c.tc : Thread nD τ).loc main_arg5))
          (m ((c.tc : Thread nD τ).loc main_arg1)) (m ((c.tc : Thread nD τ).loc main_arg2)))
        (m ((c.tc : Thread nD τ).loc main_arg6)) (m ((c.tc : Thread nD τ).loc main_arg7))
        (m ((c.tc : Thread nD τ).loc main_arg1)) (m ((c.tc : Thread nD τ).loc main_arg2))) := by
    unfold Value.res_main_v55 layerR Cert.Model.agg Cert.Model.degScale
    rfl
  rw [h, pool_ref, layerR_eq, layerR_eq]
  rfl

set_option maxRecDepth 8192 in
/-- The reference's second result is the head of its first. -/
theorem res90_eq (m : (ℓ : Loc nD τ sig) → Buf (Elt Ideal) ℓ) (c : Dev nD) :
    Value.res_main_v90 m c = headRef (F := Ideal) (Value.res_main_v55 m c) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) (m ((c.tc : Thread nD τ).loc main_arg13)) := by
  unfold Value.res_main_v90 headRef logSoftmax lsShift dense2 dense1 bnOut bnVar bnCentered bnMean Value.res_main_v55
  rfl

end Cert.ReferenceIdeal.RefSide

end
-- ==== Proof.lean ====
/-
  Two graph-convolution layers, sum-pooling over graphs, batch normalisation and a two-layer head with log-softmax: the
  Pallas program against its jnp reference, equal over the extended reals.

  Both programs compute one function of the argument arrays (Proof/Model.lean over Proof/Spec.lean). Per layer: the rows of
  the features scaled by the out-degree factor and multiplied by the weights (the kernel block by block through the matrix
  unit, the reference by one product: the same sums ∑ₖ x[r,k]·s[r]·W[k,q]); the edge aggregation, the same host operations
  on both sides; the in-degree scale, the bias and the cut at zero, pointwise. The pooling: the kernel contracts a 0/1
  membership table with the node rows and adds the 25 blocks' products into one output block, the reference scatter-adds
  the rows at their graph words: both are ∑ₙ [word n = g]·x[n,d], since 1·a = a and 0·a = 0 for every extended real and
  sums of extended reals may be regrouped freely. The head: the same column means, variances, reciprocal square roots,
  products and row-wise log-softmax, the kernel's lane reductions the host's reductions, its matrix-unit products the host's.
  The ideal pass rewrote nothing, so the preservation claim is trivial; the frames are the generated ones, the reference's
  its generated run with the results dropped.
-/
import proofs.«400331_j77764677861850_1_alg».proof.Defs
import proofs.«400331_j77764677861850_1_alg».proof.Proof.Gen.Kernel
import proofs.«400331_j77764677861850_1_alg».proof.Proof.Gen.Kernel.Skeleton
import proofs.«400331_j77764677861850_1_alg».proof.Proof.Gen.Kernel.Launch
import proofs.«400331_j77764677861850_1_alg».proof.Proof.Gen.Kernel.Points
import proofs.«400331_j77764677861850_1_alg».proof.Proof.Gen.Kernel.Frame
import proofs.«400331_j77764677861850_1_alg».proof.Proof.Gen.KernelIdeal
import proofs.«400331_j77764677861850_1_alg».proof.Proof.Gen.KernelIdeal.Skeleton
import proofs.«400331_j77764677861850_1_alg».proof.Proof.Gen.KernelIdeal.Launch
import proofs.«400331_j77764677861850_1_alg».proof.Proof.Gen.KernelIdeal.Points
import proofs.«400331_j77764677861850_1_alg».proof.Proof.Gen.KernelIdeal.Frame
import proofs.«400331_j77764677861850_1_alg».proof.Proof.Gen.ReferenceIdeal
import proofs.«400331_j77764677861850_1_alg».proof.Proof.Gen.Pre_finite_inputs
import proofs.«400331_j77764677861850_1_alg».proof.Proof.Gen.ReferenceIdeal.Run
import proofs.«400331_j77764677861850_1_alg».proof.Proof.Gen.ReferenceIdeal.Read
import proofs.«400331_j77764677861850_1_alg».proof.Proof.Assemble
import proofs.«400331_j77764677861850_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- Both programs end at the model's two results of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Chain.kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.RefSide.res55_eq]
    obtain ⟨h0, h1, h2, h3, h4, h5, h6, h7, -⟩ := hagree c
    rw [h0, h1, h2, h3, h4, h5, h6, h7]
  · rw [Cert.ReferenceIdeal.RefSide.res90_eq, Cert.ReferenceIdeal.RefSide.res55_eq]
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
